-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S100000 : Shape := ⟨1, ![100000]⟩
abbrev S16 : Shape := ⟨1, ![16]⟩
abbrev S16x64 : Shape := ⟨2, ![16, 64]⟩
abbrev S64 : Shape := ⟨1, ![64]⟩
abbrev S64x16 : Shape := ⟨2, ![64, 16]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S2x3200000 : S_.BroadcastsInDim S2x3200000 (![] : Fin 0 → Fin S2x3200000.rank)
  reducesTo_S2x3200000_S_d0_1 : S2x3200000.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg1 : IVec S2x3200000 32) (main_arg2 : IVec S100000 32) (main_v33 : IVec S_ 1) : IVec S_ 1 :=
  let main_c_12 : IVec S_ 32 := constantI S_ 32 0#32
  let main_v34 : IVec S2x3200000 32 := broadcastInDim S2x3200000 ![] bcast_S_S2x3200000 main_c_12
  let main_v35 : IVec S2x3200000 1 := cmpi .sge main_arg1 main_v34
  let main_c_13 : IVec S_ 32 := constantI S_ 32 100000#32
  let main_v36 : IVec S2x3200000 32 := broadcastInDim S2x3200000 ![] bcast_S_S2x3200000 main_c_13
  let main_v37 : IVec S2x3200000 1 := cmpi .slt main_arg1 main_v36
  let main_v38 : IVec S2x3200000 1 := andi main_v35 main_v37
  let main_c_14 : IVec S_ 1 := constantI S_ 1 1#1
  let main_v39 : IVec S_ 1 := (fun x v => Host.reduce IntOp.andi x v reducesTo_S2x3200000_S_d0_1 h_S_) main_v38 main_c_14
  let main_v40 : IVec S_ 1 := andi main_v33 main_v39
  let main_c_15 : IVec S_ 32 := constantI S_ 32 0#32
  let main_v41 : IVec S100000 32 := broadcastInDim S100000 ![] bcast_S_S100000 main_c_15
  let main_v42 : IVec S100000 1 := cmpi .sge main_arg2 main_v41
  let main_c_16 : IVec S_ 32 := constantI S_ 32 8#32
  let main_v43 : IVec S100000 32 := broadcastInDim S100000 ![] bcast_S_S100000 main_c_16
  let main_v44 : IVec S100000 1 := cmpi .slt main_arg2 main_v43
  let main_v45 : IVec S100000 1 := andi main_v42 main_v44
  let main_c_17 : IVec S_ 1 := constantI S_ 1 1#1
  let main_v46 : IVec S_ 1 := (fun x v => Host.reduce IntOp.andi x v reducesTo_S100000_S_d0 h_S_) main_v45 main_c_17
  let main_v47 : IVec S_ 1 := andi main_v40 main_v46
  main_v47

def fn_part1 {F : FTy → Type} [FloatOps F] (main_arg1 : IVec S2x3200000 32) (main_arg2 : IVec S100000 32) (main_arg6 : FVec F S64 .f32) (main_arg7 : FVec F S64x16 .f32) (main_arg8 : FVec F S16 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg2 main_v33

def fn {F : FTy → Type} [FloatOps F] (main_arg0 : FVec F S100000x16 .f32) (main_arg1 : IVec S2x3200000 32) (main_arg2 : IVec S100000 32) (main_arg3 : FVec F S16 .f32) (main_arg4 : FVec F S16 .f32) (main_arg5 : FVec F S16x64 .f32) (main_arg6 : FVec F S64 .f32) (main_arg7 : FVec F S64x16 .f32) (main_arg8 : FVec F S16 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16 .f32 := Host.absf main_arg3
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg5
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg1 main_arg2 main_arg6 main_arg7 main_arg8 main_v13 main_v16
-- ==== Kernel.lean ====
abbrev S100000x16 : Shape := ⟨2, ![100000, 16]⟩
abbrev S2x3200000 : Shape := ⟨2, ![2, 3200000]⟩
abbrev S100000 : Shape := ⟨1, ![100000]⟩
abbrev S16 : Shape := ⟨1, ![16]⟩
abbrev S16x64 : Shape := ⟨2, ![16, 64]⟩
abbrev S64 : Shape := ⟨1, ![64]⟩
abbrev S64x16 : Shape := ⟨2, ![64, 16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S25000x128 : Shape := ⟨2, ![25000, 128]⟩
abbrev S64x1 : Shape := ⟨2, ![64, 1]⟩
abbrev S1x8 : Shape := ⟨2, ![1, 8]⟩
abbrev S64x8 : Shape := ⟨2, ![64, 8]⟩
abbrev S1x16 : Shape := ⟨2, ![1, 16]⟩
abbrev S64x64 : Shape := ⟨2, ![64, 64]⟩
abbrev S1x64 : Shape := ⟨2, ![1, 64]⟩
abbrev S64x4x4 : Shape := ⟨3, ![64, 4, 4]⟩
abbrev S64x4 : Shape := ⟨2, ![64, 4]⟩
abbrev S64x4x1 : Shape := ⟨3, ![64, 4, 1]⟩
abbrev S4x4 : Shape := ⟨2, ![4, 4]⟩
abbrev S1x4x4 : Shape := ⟨3, ![1, 4, 4]⟩
abbrev S512x128 : Shape := ⟨2, ![512, 128]⟩
abbrev S2 : Shape := ⟨1, ![2]⟩
abbrev S400000x128 : Shape := ⟨2, ![400000, 128]⟩
abbrev S1000x128 : Shape := ⟨2, ![1000, 128]⟩
abbrev S16000x128 : Shape := ⟨2, ![16000, 128]⟩
abbrev S16000x8 : Shape := ⟨2, ![16000, 8]⟩
abbrev S4000x8 : Shape := ⟨2, ![4000, 8]⟩
abbrev S4000x8x64 : Shape := ⟨3, ![4000, 8, 64]⟩
abbrev S4000x8x1 : Shape := ⟨3, ![4000, 8, 1]⟩
abbrev S4000x512 : Shape := ⟨2, ![4000, 512]⟩
abbrev S4000x128 : Shape := ⟨2, ![4000, 128]⟩
abbrev S3200000x4x4 : Shape := ⟨3, ![3200000, 4, 4]⟩

abbrev nBuf : Space → Nat
  | .hbm => 234
  | .vmem => 5
  | .smem => 0
  | _ => 0

abbrev hbmTy0_0 (i : Nat) : BufTy := match i % 128 with
  | 0 => ⟨S100000x16, .f32⟩
  | 1 => ⟨S2x3200000, .i32⟩
  | 2 => ⟨S100000, .i32⟩
  | 3 => ⟨S16, .f32⟩
  | 4 => ⟨S16, .f32⟩
  | 5 => ⟨S16x64, .f32⟩
  | 6 => ⟨S64, .f32⟩
  | 7 => ⟨S64x16, .f32⟩
  | 8 => ⟨S16, .f32⟩
  | 9 => ⟨S1x3200000, .i32⟩
  | 10 => ⟨S3200000, .i32⟩
  | 11 => ⟨S1x3200000, .i32⟩
  | 12 => ⟨S3200000, .i32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S1, .i32⟩
  | 22 => ⟨S_, .i32⟩
  | 23 => ⟨S3200000x1, .i32⟩
  | 24 => ⟨S3200000x1, .i1⟩
  | 25 => ⟨S1x1, .i32⟩
  | 26 => ⟨S3200000x1, .i32⟩
  | 27 => ⟨S3200000x1, .i1⟩
  | 28 => ⟨S3200000x1, .i1⟩
  | 29 => ⟨S_, .i1⟩
  | 30 => ⟨S3200000, .i1⟩
  | 31 => ⟨S3200000, .i32⟩
  | 32 => ⟨S_, .i32⟩
  | 33 => ⟨S3200000, .i32⟩
  | 34 => ⟨S3200000, .i32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S1, .i32⟩
  | 44 => ⟨S_, .i32⟩
  | 45 => ⟨S3200000x1, .i32⟩
  | 46 => ⟨S3200000x1, .i1⟩
  | 47 => ⟨S1x1, .i32⟩
  | 48 => ⟨S3200000x1, .i32⟩
  | 49 => ⟨S3200000x1, .i1⟩
  | 50 => ⟨S3200000x1, .i1⟩
  | 51 => ⟨S_, .i1⟩
  | 52 => ⟨S3200000, .i1⟩
  | 53 => ⟨S3200000, .i32⟩
  | 54 => ⟨S_, .i32⟩
  | 55 => ⟨S3200000, .i32⟩
  | 56 => ⟨S3200000, .i32⟩
  | 57 => ⟨S_, .i32⟩
  | 58 => ⟨S3200000, .i32⟩
  | 59 => ⟨S3200000, .i32⟩
  | 60 => ⟨S3200000, .i32⟩
  | 61 => ⟨S25000x128, .i32⟩
  | 62 => ⟨S64, .i32⟩
  | 63 => ⟨S_, .i32⟩
  | 64 => ⟨S_, .i32⟩
  | 65 => ⟨S64, .i32⟩
  | 66 => ⟨S64, .i32⟩
  | 67 => ⟨S64, .i32⟩
  | 68 => ⟨S_, .i32⟩
  | 69 => ⟨S64, .i32⟩
  | 70 => ⟨S64, .i1⟩
  | 71 => ⟨S64, .i32⟩
  | 72 => ⟨S64, .i32⟩
  | 73 => ⟨S_, .i32⟩
  | 74 => ⟨S64, .i32⟩
  | 75 => ⟨S64, .i1⟩
  | 76 => ⟨S64, .i1⟩
  | 77 => ⟨S_, .i32⟩
  | 78 => ⟨S64, .i32⟩
  | 79 => ⟨S64, .i32⟩
  | 80 => ⟨S64, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S64, .i32⟩
  | 88 => ⟨S64, .i32⟩
  | 89 => ⟨S_, .i32⟩
  | 90 => ⟨S64, .i32⟩
  | 91 => ⟨S64, .i1⟩
  | 92 => ⟨S_, .i32⟩
  | 93 => ⟨S64, .i32⟩
  | 94 => ⟨S64, .i1⟩
  | 95 => ⟨S_, .i32⟩
  | 96 => ⟨S_, .i1⟩
  | 97 => ⟨S64, .i1⟩
  | 98 => ⟨S64, .i1⟩
  | 99 => ⟨S64, .i1⟩
  | 100 => ⟨S64, .i32⟩
  | 101 => ⟨S64, .i32⟩
  | 102 => ⟨S64, .i32⟩
  | 103 => ⟨S64x1, .i32⟩
  | 104 => ⟨S1x8, .i32⟩
  | 105 => ⟨S64x8, .i32⟩
  | 106 => ⟨S64x8, .i32⟩
  | 107 => ⟨S64x8, .i1⟩
  | 108 => ⟨S64x8, .f32⟩
  | 109 => ⟨S64x1, .i32⟩
  | 110 => ⟨S1x8, .i32⟩
  | 111 => ⟨S64x8, .i32⟩
  | 112 => ⟨S64x8, .i32⟩
  | 113 => ⟨S64x8, .i1⟩
  | 114 => ⟨S64x8, .f32⟩
  | 115 => ⟨S64x16, .f32⟩
  | 116 => ⟨S_, .f32⟩
  | 117 => ⟨S64, .f32⟩
  | 118 => ⟨S64x1, .f32⟩
  | 119 => ⟨S_, .f32⟩
  | 120 => ⟨S64x1, .f32⟩
  | 121 => ⟨S64x1, .f32⟩
  | 122 => ⟨S64x16, .f32⟩
  | 123 => ⟨S64x16, .f32⟩
  | 124 => ⟨S64x16, .f32⟩
  | 125 => ⟨S_, .f32⟩
  | 126 => ⟨S64, .f32⟩
  | 127 => ⟨S64x1, .f32⟩
  | _ => ⟨S100000x16, .f32⟩

abbrev hbmTy0_1 (i : Nat) : BufTy := match i % 128 with
  | 0 => ⟨S_, .f32⟩
  | 1 => ⟨S64x1, .f32⟩
  | 2 => ⟨S64x1, .f32⟩
  | 3 => ⟨S64x16, .f32⟩
  | 4 => ⟨S64x16, .f32⟩
  | 5 => ⟨S_, .f32⟩
  | 6 => ⟨S64x1, .f32⟩
  | 7 => ⟨S64x1, .f32⟩
  | 8 => ⟨S64x1, .f32⟩
  | 9 => ⟨S64x16, .f32⟩
  | 10 => ⟨S64x16, .f32⟩
  | 11 => ⟨S1x16, .f32⟩
  | 12 => ⟨S64x16, .f32⟩
  | 13 => ⟨S64x16, .f32⟩
  | 14 => ⟨S1x16, .f32⟩
  | 15 => ⟨S64x16, .f32⟩
  | 16 => ⟨S64x16, .f32⟩
  | 17 => ⟨S64x64, .f32⟩
  | 18 => ⟨S1x64, .f32⟩
  | 19 => ⟨S64x64, .f32⟩
  | 20 => ⟨S64x64, .f32⟩
  | 21 => ⟨S_, .f32⟩
  | 22 => ⟨S64x64, .f32⟩
  | 23 => ⟨S64x64, .f32⟩
  | 24 => ⟨S64x16, .f32⟩
  | 25 => ⟨S1x16, .f32⟩
  | 26 => ⟨S64x16, .f32⟩
  | 27 => ⟨S64x16, .f32⟩
  | 28 => ⟨S64x4x4, .f32⟩
  | 29 => ⟨S_, .f32⟩
  | 30 => ⟨S64x4, .f32⟩
  | 31 => ⟨S_, .f32⟩
  | 32 => ⟨S64x4, .f32⟩
  | 33 => ⟨S64x4, .f32⟩
  | 34 => ⟨S64x4x1, .f32⟩
  | 35 => ⟨S64x4x4, .f32⟩
  | 36 => ⟨S64x4x4, .f32⟩
  | 37 => ⟨S64x4x4, .f32⟩
  | 38 => ⟨S_, .f32⟩
  | 39 => ⟨S64x4, .f32⟩
  | 40 => ⟨S64x4x1, .f32⟩
  | 41 => ⟨S64x4x4, .f32⟩
  | 42 => ⟨S64x4x4, .f32⟩
  | 43 => ⟨S4x4, .i32⟩
  | 44 => ⟨S4x4, .i32⟩
  | 45 => ⟨S_, .i32⟩
  | 46 => ⟨S4x4, .i32⟩
  | 47 => ⟨S4x4, .i32⟩
  | 48 => ⟨S4x4, .i1⟩
  | 49 => ⟨S4x4, .f32⟩
  | 50 => ⟨S1x4x4, .f32⟩
  | 51 => ⟨S64x4x4, .f32⟩
  | 52 => ⟨S64x4x4, .f32⟩
  | 53 => ⟨S64x16, .f32⟩
  | 54 => ⟨S_, .f32⟩
  | 55 => ⟨S512x128, .f32⟩
  | 56 => ⟨S_, .i32⟩
  | 57 => ⟨S1, .i32⟩
  | 58 => ⟨S_, .i32⟩
  | 59 => ⟨S1, .i32⟩
  | 60 => ⟨S2, .i32⟩
  | 61 => ⟨S512x128, .f32⟩
  | 62 => ⟨S_, .i32⟩
  | 63 => ⟨S1, .i32⟩
  | 64 => ⟨S_, .i32⟩
  | 65 => ⟨S1, .i32⟩
  | 66 => ⟨S2, .i32⟩
  | 67 => ⟨S512x128, .f32⟩
  | 68 => ⟨S_, .i32⟩
  | 69 => ⟨S1, .i32⟩
  | 70 => ⟨S_, .i32⟩
  | 71 => ⟨S1, .i32⟩
  | 72 => ⟨S2, .i32⟩
  | 73 => ⟨S512x128, .f32⟩
  | 74 => ⟨S_, .i32⟩
  | 75 => ⟨S1, .i32⟩
  | 76 => ⟨S_, .i32⟩
  | 77 => ⟨S1, .i32⟩
  | 78 => ⟨S2, .i32⟩
  | 79 => ⟨S512x128, .f32⟩
  | 80 => ⟨S_, .i32⟩
  | 81 => ⟨S1, .i32⟩
  | 82 => ⟨S_, .i32⟩
  | 83 => ⟨S1, .i32⟩
  | 84 => ⟨S2, .i32⟩
  | 85 => ⟨S512x128, .f32⟩
  | 86 => ⟨S_, .i32⟩
  | 87 => ⟨S1, .i32⟩
  | 88 => ⟨S_, .i32⟩
  | 89 => ⟨S1, .i32⟩
  | 90 => ⟨S2, .i32⟩
  | 91 => ⟨S512x128, .f32⟩
  | 92 => ⟨S_, .i32⟩
  | 93 => ⟨S1, .i32⟩
  | 94 => ⟨S_, .i32⟩
  | 95 => ⟨S1, .i32⟩
  | 96 => ⟨S2, .i32⟩
  | 97 => ⟨S512x128, .f32⟩
  | 98 => ⟨S_, .i32⟩
  | 99 => ⟨S1, .i32⟩
  | 100 => ⟨S_, .i32⟩
  | 101 => ⟨S1, .i32⟩
  | 102 => ⟨S2, .i32⟩
  | 103 => ⟨S512x128, .f32⟩
  | 104 => ⟨S400000x128, .f32⟩
  | 105 => ⟨S3200000x4x4, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S1000x128, .i32⟩
  | .local _ .vmem, ⟨1, _⟩ => ⟨S1000x128, .i32⟩
  | .local _ .vmem, ⟨2, _⟩ => ⟨S512x128, .f32⟩
  | .local _ .vmem, ⟨3, _⟩ => ⟨S16000x128, .f32⟩
  | .local _ .vmem, ⟨4, _⟩ => ⟨S16000x128, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_c_4 : Ref sig .tc := ⟨.hbm, 32, rfl⟩
abbrev main_call0_v14 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_c_4 : Ref sig .tc := ⟨.hbm, 54, rfl⟩
abbrev main_call1_v14 : Ref sig .tc := ⟨.hbm, 55, rfl⟩
abbrev main_v5 : Ref sig .tc := ⟨.hbm, 56, rfl⟩
abbrev main_c : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_c_0 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_c : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_0 : Ref sig .tc := ⟨.hbm, 77, rfl⟩
abbrev main_call2_v12 : Ref sig .tc := ⟨.hbm, 78, rfl⟩
abbrev main_call2_v13 : Ref sig .tc := ⟨.hbm, 79, rfl⟩
abbrev main_v11 : Ref sig .tc := ⟨.hbm, 80, rfl⟩
abbrev main_c_1 : Ref sig .tc := ⟨.hbm, 81, rfl⟩
abbrev main_call3_v0 : Ref sig .tc := ⟨.hbm, 82, rfl⟩
abbrev main_call3_c : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_c_1 : Ref sig .tc := ⟨.hbm, 89, rfl⟩
abbrev main_call3_v5 : Ref sig .tc := ⟨.hbm, 90, rfl⟩
abbrev main_call3_v6 : Ref sig .tc := ⟨.hbm, 91, rfl⟩
abbrev main_call3_c_2 : Ref sig .tc := ⟨.hbm, 92, rfl⟩
abbrev main_call3_v7 : Ref sig .tc := ⟨.hbm, 93, rfl⟩
abbrev main_call3_v8 : Ref sig .tc := ⟨.hbm, 94, rfl⟩
abbrev main_call3_c_3 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_v12 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v13 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_v14 : Ref sig .tc := ⟨.hbm, 114, rfl⟩
abbrev main_v15 : Ref sig .tc := ⟨.hbm, 115, rfl⟩
abbrev main_cst : Ref sig .tc := ⟨.hbm, 116, rfl⟩
abbrev main_v16 : Ref sig .tc := ⟨.hbm, 117, rfl⟩
abbrev main_v17 : Ref sig .tc := ⟨.hbm, 118, rfl⟩
abbrev main_cst_2 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_v22 : Ref sig .tc := ⟨.hbm, 124, rfl⟩
abbrev main_cst_3 : Ref sig .tc := ⟨.hbm, 125, rfl⟩
abbrev main_v23 : Ref sig .tc := ⟨.hbm, 126, rfl⟩
abbrev main_v24 : Ref sig .tc := ⟨.hbm, 127, rfl⟩
abbrev main_cst_4 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_cst_5 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_call6_cst : Ref sig .tc := ⟨.hbm, 149, rfl⟩
abbrev main_call6_v0 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_v49 : Ref sig .tc := ⟨.hbm, 156, rfl⟩
abbrev main_cst_6 : Ref sig .tc := ⟨.hbm, 157, rfl⟩
abbrev main_v50 : Ref sig .tc := ⟨.hbm, 158, rfl⟩
abbrev main_cst_7 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_cst_8 : Ref sig .tc := ⟨.hbm, 166, rfl⟩
abbrev main_v57 : Ref sig .tc := ⟨.hbm, 167, rfl⟩
abbrev main_v58 : Ref sig .tc := ⟨.hbm, 168, rfl⟩
abbrev main_v59 : Ref sig .tc := ⟨.hbm, 169, rfl⟩
abbrev main_v60 : Ref sig .tc := ⟨.hbm, 170, rfl⟩
abbrev main_v61 : Ref sig .tc := ⟨.hbm, 171, rfl⟩
abbrev main_v62 : Ref sig .tc := ⟨.hbm, 172, rfl⟩
abbrev main_c_9 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_cst_10 : Ref sig .tc := ⟨.hbm, 182, rfl⟩
abbrev main_v71 : Ref sig .tc := ⟨.hbm, 183, rfl⟩
abbrev main_c_11 : Ref sig .tc := ⟨.hbm, 184, rfl⟩
abbrev main_v72 : Ref sig .tc := ⟨.hbm, 185, rfl⟩
abbrev main_c_12 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_c_13 : Ref sig .tc := ⟨.hbm, 190, rfl⟩
abbrev main_v76 : Ref sig .tc := ⟨.hbm, 191, rfl⟩
abbrev main_c_14 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_c_15 : Ref sig .tc := ⟨.hbm, 196, rfl⟩
abbrev main_v80 : Ref sig .tc := ⟨.hbm, 197, rfl⟩
abbrev main_c_16 : Ref sig .tc := ⟨.hbm, 198, rfl⟩
abbrev main_v81 : Ref sig .tc := ⟨.hbm, 199, rfl⟩
abbrev main_v82 : Ref sig .tc := ⟨.hbm, 200, rfl⟩
abbrev main_v83 : Ref sig .tc := ⟨.hbm, 201, rfl⟩
abbrev main_c_17 : Ref sig .tc := ⟨.hbm, 202, rfl⟩
abbrev main_v84 : Ref sig .tc := ⟨.hbm, 203, rfl⟩
abbrev main_c_18 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_c_19 : Ref sig .tc := ⟨.hbm, 208, rfl⟩
abbrev main_v88 : Ref sig .tc := ⟨.hbm, 209, rfl⟩
abbrev main_c_20 : Ref sig .tc := ⟨.hbm, 210, rfl⟩
abbrev main_v89 : Ref sig .tc := ⟨.hbm, 211, rfl⟩
abbrev main_v90 : Ref sig .tc := ⟨.hbm, 212, rfl⟩
abbrev main_v91 : Ref sig .tc := ⟨.hbm, 213, rfl⟩
abbrev main_c_21 : Ref sig .tc := ⟨.hbm, 214, rfl⟩
abbrev main_v92 : Ref sig .tc := ⟨.hbm, 215, rfl⟩
abbrev main_c_22 : Ref sig .tc := ⟨.hbm, 216, rfl⟩
abbrev main_v93 : Ref sig .tc := ⟨.hbm, 217, rfl⟩
abbrev main_v94 : Ref sig .tc := ⟨.hbm, 218, rfl⟩
abbrev main_v95 : Ref sig .tc := ⟨.hbm, 219, rfl⟩
abbrev main_c_23 : Ref sig .tc := ⟨.hbm, 220, rfl⟩
abbrev main_v96 : Ref sig .tc := ⟨.hbm, 221, rfl⟩
abbrev main_c_24 : Ref sig .tc := ⟨.hbm, 222, rfl⟩
abbrev main_v97 : Ref sig .tc := ⟨.hbm, 223, rfl⟩
abbrev main_v98 : Ref sig .tc := ⟨.hbm, 224, rfl⟩
abbrev main_v99 : Ref sig .tc := ⟨.hbm, 225, rfl⟩
abbrev main_c_25 : Ref sig .tc := ⟨.hbm, 226, rfl⟩
abbrev main_v100 : Ref sig .tc := ⟨.hbm, 227, rfl⟩
abbrev main_c_26 : Ref sig .tc := ⟨.hbm, 228, rfl⟩
abbrev main_v101 : Ref sig .tc := ⟨.hbm, 229, rfl⟩
abbrev main_v102 : Ref sig .tc := ⟨.hbm, 230, rfl⟩
abbrev main_v103 : Ref sig .tc := ⟨.hbm, 231, rfl⟩
abbrev main_v104 : Ref sig .tc := ⟨.hbm, 232, rfl⟩
abbrev main_v105 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  shapeCasts_S3200000_S25000x128 : S3200000.ShapeCasts S25000x128
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  bcast_S1x8_S64x8_0_1 : S1x8.BroadcastsInDim S64x8 (![0, 1] : Fin 2 → Fin S64x8.rank)
  concatenates_S64x8_S64x8_S64x16_d1 : Shape.Concatenates [S64x8, S64x8] S64x16 1
  reducesTo_S64x16_S64_d1 : S64x16.ReducesTo [1] S64
  bcast_S_S64x1 : S_.BroadcastsInDim S64x1 (![] : Fin 0 → Fin S64x1.rank)
  bcast_S64x1_S64x16_0_1 : S64x1.BroadcastsInDim S64x16 (![0, 1] : Fin 2 → Fin S64x16.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  shapeCasts_S64x16_S64x4x4 : S64x16.ShapeCasts S64x4x4
  reducesTo_S64x4x4_S64x4_d2 : S64x4x4.ReducesTo [2] S64x4
  bcast_S_S64x4 : S_.BroadcastsInDim S64x4 (![] : Fin 0 → Fin S64x4.rank)
  bcast_S64x4_S64x4x1_0_1 : S64x4.BroadcastsInDim S64x4x1 (![0, 1] : Fin 2 → Fin S64x4x1.rank)
  bcast_S64x4x1_S64x4x4_0_1_2 : S64x4x1.BroadcastsInDim S64x4x4 (![0, 1, 2] : Fin 3 → Fin S64x4x4.rank)
  bcast_S_S4x4 : S_.BroadcastsInDim S4x4 (![] : Fin 0 → Fin S4x4.rank)
  bcast_S4x4_S1x4x4_1_2 : S4x4.BroadcastsInDim S1x4x4 (![1, 2] : Fin 2 → Fin S1x4x4.rank)
  bcast_S1x4x4_S64x4x4_0_1_2 : S1x4x4.BroadcastsInDim S64x4x4 (![0, 1, 2] : Fin 3 → Fin S64x4x4.rank)
  shapeCasts_S64x4x4_S64x16 : S64x4x4.ShapeCasts S64x16
  bcast_S_S512x128 : S_.BroadcastsInDim S512x128 (![] : Fin 0 → Fin S512x128.rank)
  bcast_S_S1 : S_.BroadcastsInDim S1 (![] : Fin 0 → Fin S1.rank)
  concatenates_S1_S1_S2_d0 : Shape.Concatenates [S1, S1] S2 0
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S1000x128_S16000x8 : S1000x128.ShapeCasts S16000x8
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S16000x8_o0_0_S4000x8 : S16000x8.Slices ![0, 0] S4000x8
  iota_S4000x8x64_d2_w32 : S4000x8x64.Iotas .tc 32 [2]
  shapeCasts_S4000x8_S4000x8x1 : S4000x8.ShapeCasts S4000x8x1
  broadcasts_S4000x8x1_S4000x8x64 : S4000x8x1.Broadcasts S4000x8x64
  natLt_1_32 : 1 < 32
  shapeCasts_S4000x8x64_S4000x512 : S4000x8x64.ShapeCasts S4000x512
  inb_S16000x128_S4000x128_0_0 : ∀ a, (![0, 0] : Fin 2 → Nat) a + S4000x128.size a ≤ S16000x128.size a
  h_S4000x128 : 0 < S4000x128.numel
  slices_S16000x8_o4000_0_S4000x8 : S16000x8.Slices ![4000, 0] S4000x8
  inb_S16000x128_S4000x128_4000_0 : ∀ a, (![4000, 0] : Fin 2 → Nat) a + S4000x128.size a ≤ S16000x128.size a
  slices_S16000x8_o8000_0_S4000x8 : S16000x8.Slices ![8000, 0] S4000x8
  inb_S16000x128_S4000x128_8000_0 : ∀ a, (![8000, 0] : Fin 2 → Nat) a + S4000x128.size a ≤ S16000x128.size a
  slices_S16000x8_o12000_0_S4000x8 : S16000x8.Slices ![12000, 0] S4000x8
  inb_S16000x128_S4000x128_12000_0 : ∀ a, (![12000, 0] : Fin 2 → Nat) a + S4000x128.size a ≤ S16000x128.size a
  shapeCasts_S400000x128_S3200000x4x4 : S400000x128.ShapeCasts S3200000x4x4
  gather_S100000_S3200000x1_S3200000_n_0_n_n_0_1_1_wf : GatherDims.WF S100000 S3200000x1 S3200000 [] [0] [] [0] [] 1 ![1]
  dot_S64x16_S16x64_S64x64_1_0_0_1_n_n_wf : DotDims.WF S64x16 S16x64 S64x64 [1] [0] [0] [1] [] []
  dot_S64x64_S64x16_S64x16_1_0_0_1_n_n_wf : DotDims.WF S64x64 S64x16 S64x16 [1] [0] [0] [1] [] []
  scatter_S512x128_S2_S64x16_01_n_01_0_wf : ScatterDims.WF S512x128 S2 S64x16 [0, 1] [] [0, 1] 0
  dot_S4000x512_S512x128_S4000x128_1_0_0_1_n_n_wf : DotDims.WF S4000x512 S512x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S25000x128.size a
  hwx0_0 : ∀ i : grid0.Coords, EltTy.bits .i32 = 32 ∨ (Rect.block (s := S25000x128) S1000x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x128.size a ≤ S400000x128.size a
  hwx0_2 : ∀ i : grid0.Coords, EltTy.bits .f32 = 32 ∨ (Rect.block (s := S400000x128) S16000x128.size (cc0_transform_2 i) (hinb0_2 i)).WholeWords (EltTy.packing .f32)

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def scatter_S512x128_S2_S64x16_01_n_01_0 : ScatterDims S512x128 S2 S64x16 where
  updateWindowDims := [0, 1]
  insertedWindowDims := []
  scatterDimsToOperandDims := [0, 1]
  indexVectorDim := 0
  wf := scatter_S512x128_S2_S64x16_01_n_01_0_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf

abbrev win0_0 : Pipeline.Window sig grid0 :=
  Pipeline.Window.ofSpec (Memref.whole main_v9) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v103) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v104) S16000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S100000 : Shape := ⟨1, ![100000]⟩
abbrev S16 : Shape := ⟨1, ![16]⟩
abbrev S16x64 : Shape := ⟨2, ![16, 64]⟩
abbrev S64 : Shape := ⟨1, ![64]⟩
abbrev S64x16 : Shape := ⟨2, ![64, 16]⟩
abbrev S1x3200000 : Shape := ⟨2, ![1, 3200000]⟩
abbrev S3200000 : Shape := ⟨1, ![3200000]⟩
abbrev S100000x1 : Shape := ⟨2, ![100000, 1]⟩
abbrev S1x8 : Shape := ⟨2, ![1, 8]⟩
abbrev S100000x8 : Shape := ⟨2, ![100000, 8]⟩
abbrev S_ : Shape := ⟨0, ![]⟩
abbrev S3200000x1 : Shape := ⟨2, ![3200000, 1]⟩
abbrev S3200000x8 : Shape := ⟨2, ![3200000, 8]⟩
abbrev S3200000x16 : Shape := ⟨2, ![3200000, 16]⟩
abbrev S1x16 : Shape := ⟨2, ![1, 16]⟩
abbrev S3200000x64 : Shape := ⟨2, ![3200000, 64]⟩
abbrev S1x64 : Shape := ⟨2, ![1, 64]⟩
abbrev S3200000x4x4 : Shape := ⟨3, ![3200000, 4, 4]⟩
abbrev S3200000x4 : Shape := ⟨2, ![3200000, 4]⟩
abbrev S3200000x4x1 : Shape := ⟨3, ![3200000, 4, 1]⟩
abbrev S4x4 : Shape := ⟨2, ![4, 4]⟩
abbrev S1x4x4 : Shape := ⟨3, ![1, 4, 4]⟩

abbrev nBuf : Space → Nat
  | .hbm => 103
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S100000, .i32⟩
  | .hbm, ⟨3, _⟩ => ⟨S16, .f32⟩
  | .hbm, ⟨4, _⟩ => ⟨S16, .f32⟩
  | .hbm, ⟨5, _⟩ => ⟨S16x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000x1, .i32⟩
  | .hbm, ⟨14, _⟩ => ⟨S1x8, .i32⟩
  | .hbm, ⟨15, _⟩ => ⟨S100000x8, .i32⟩
  | .hbm, ⟨16, _⟩ => ⟨S100000x8, .i32⟩
  | .hbm, ⟨17, _⟩ => ⟨S100000x8, .i1⟩
  | .hbm, ⟨18, _⟩ => ⟨S100000x8, .f32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x8, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x8, .f32⟩
  | .hbm, ⟨37, _⟩ => ⟨S3200000x16, .f32⟩
  | .hbm, ⟨38, _⟩ => ⟨S_, .f32⟩
  | .hbm, ⟨39, _⟩ => ⟨S3200000, .f32⟩
  | .hbm, ⟨40, _⟩ => ⟨S3200000x1, .f32⟩
  | .hbm, ⟨41, _⟩ => ⟨S_, .f32⟩
  | .hbm, ⟨42, _⟩ => ⟨S3200000x1, .f32⟩
  | .hbm, ⟨43, _⟩ => ⟨S3200000x1, .f32⟩
  | .hbm, ⟨44, _⟩ => ⟨S3200000x16, .f32⟩
  | .hbm, ⟨45, _⟩ => ⟨S3200000x16, .f32⟩
  | .hbm, ⟨46, _⟩ => ⟨S3200000x16, .f32⟩
  | .hbm, ⟨47, _⟩ => ⟨S_, .f32⟩
  | .hbm, ⟨48, _⟩ => ⟨S3200000, .f32⟩
  | .hbm, ⟨49, _⟩ => ⟨S3200000x1, .f32⟩
  | .hbm, ⟨50, _⟩ => ⟨S_, .f32⟩
  | .hbm, ⟨51, _⟩ => ⟨S3200000x1, .f32⟩
  | .hbm, ⟨52, _⟩ => ⟨S3200000x1, .f32⟩
  | .hbm, ⟨53, _⟩ => ⟨S3200000x16, .f32⟩
  | .hbm, ⟨54, _⟩ => ⟨S3200000x16, .f32⟩
  | .hbm, ⟨55, _⟩ => ⟨S_, .f32⟩
  | .hbm, ⟨56, _⟩ => ⟨S3200000x1, .f32⟩
  | .hbm, ⟨57, _⟩ => ⟨S3200000x1, .f32⟩
  | .hbm, ⟨58, _⟩ => ⟨S3200000x1, .f32⟩
  | .hbm, ⟨59, _⟩ => ⟨S3200000x16, .f32⟩
  | .hbm, ⟨60, _⟩ => ⟨S3200000x16, .f32⟩
  | .hbm, ⟨61, _⟩ => ⟨S1x16, .f32⟩
  | .hbm, ⟨62, _⟩ => ⟨S3200000x16, .f32⟩
  | .hbm, ⟨63, _⟩ => ⟨S3200000x16, .f32⟩
  | .hbm, ⟨64, _⟩ => ⟨S1x16, .f32⟩
  | .hbm, ⟨65, _⟩ => ⟨S3200000x16, .f32⟩
  | .hbm, ⟨66, _⟩ => ⟨S3200000x16, .f32⟩
  | .hbm, ⟨67, _⟩ => ⟨S3200000x64, .f32⟩
  | .hbm, ⟨68, _⟩ => ⟨S1x64, .f32⟩
  | .hbm, ⟨69, _⟩ => ⟨S3200000x64, .f32⟩
  | .hbm, ⟨70, _⟩ => ⟨S3200000x64, .f32⟩
  | .hbm, ⟨71, _⟩ => ⟨S_, .f32⟩
  | .hbm, ⟨72, _⟩ => ⟨S3200000x64, .f32⟩
  | .hbm, ⟨73, _⟩ => ⟨S3200000x64, .f32⟩
  | .hbm, ⟨74, _⟩ => ⟨S3200000x16, .f32⟩
  | .hbm, ⟨75, _⟩ => ⟨S1x16, .f32⟩
  | .hbm, ⟨76, _⟩ => ⟨S3200000x16, .f32⟩
  | .hbm, ⟨77, _⟩ => ⟨S3200000x16, .f32⟩
  | .hbm, ⟨78, _⟩ => ⟨S3200000x4x4, .f32⟩
  | .hbm, ⟨79, _⟩ => ⟨S_, .f32⟩
  | .hbm, ⟨80, _⟩ => ⟨S3200000x4, .f32⟩
  | .hbm, ⟨81, _⟩ => ⟨S_, .f32⟩
  | .hbm, ⟨82, _⟩ => ⟨S3200000x4, .f32⟩
  | .hbm, ⟨83, _⟩ => ⟨S3200000x4, .f32⟩
  | .hbm, ⟨84, _⟩ => ⟨S3200000x4x1, .f32⟩
  | .hbm, ⟨85, _⟩ => ⟨S3200000x4x4, .f32⟩
  | .hbm, ⟨86, _⟩ => ⟨S3200000x4x4, .f32⟩
  | .hbm, ⟨87, _⟩ => ⟨S3200000x4x4, .f32⟩
  | .hbm, ⟨88, _⟩ => ⟨S_, .f32⟩
  | .hbm, ⟨89, _⟩ => ⟨S3200000x4, .f32⟩
  | .hbm, ⟨90, _⟩ => ⟨S3200000x4x1, .f32⟩
  | .hbm, ⟨91, _⟩ => ⟨S3200000x4x4, .f32⟩
  | .hbm, ⟨92, _⟩ => ⟨S3200000x4x4, .f32⟩
  | .hbm, ⟨93, _⟩ => ⟨S4x4, .i32⟩
  | .hbm, ⟨94, _⟩ => ⟨S4x4, .i32⟩
  | .hbm, ⟨95, _⟩ => ⟨S_, .i32⟩
  | .hbm, ⟨96, _⟩ => ⟨S4x4, .i32⟩
  | .hbm, ⟨97, _⟩ => ⟨S4x4, .i32⟩
  | .hbm, ⟨98, _⟩ => ⟨S4x4, .i1⟩
  | .hbm, ⟨99, _⟩ => ⟨S4x4, .f32⟩
  | .hbm, ⟨100, _⟩ => ⟨S1x4x4, .f32⟩
  | .hbm, ⟨101, _⟩ => ⟨S3200000x4x4, .f32⟩
  | .hbm, ⟨102, _⟩ => ⟨S3200000x4x4, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_9 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_10 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  bcast_S1x8_S100000x8_0_1 : S1x8.BroadcastsInDim S100000x8 (![0, 1] : Fin 2 → Fin S100000x8.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x8_S3200000x8_S3200000x16_d1 : Shape.Concatenates [S3200000x8, S3200000x8] S3200000x16 1
  reducesTo_S3200000x16_S3200000_d1 : S3200000x16.ReducesTo [1] S3200000
  h_S_ : 0 < S_.numel
  bcast_S_S3200000x1 : S_.BroadcastsInDim S3200000x1 (![] : Fin 0 → Fin S3200000x1.rank)
  bcast_S3200000x1_S3200000x16_0_1 : S3200000x1.BroadcastsInDim S3200000x16 (![0, 1] : Fin 2 → Fin S3200000x16.rank)
  bcast_S16_S1x16_1 : S16.BroadcastsInDim S1x16 (![1] : Fin 1 → Fin S1x16.rank)
  bcast_S1x16_S3200000x16_0_1 : S1x16.BroadcastsInDim S3200000x16 (![0, 1] : Fin 2 → Fin S3200000x16.rank)
  bcast_S64_S1x64_1 : S64.BroadcastsInDim S1x64 (![1] : Fin 1 → Fin S1x64.rank)
  bcast_S1x64_S3200000x64_0_1 : S1x64.BroadcastsInDim S3200000x64 (![0, 1] : Fin 2 → Fin S3200000x64.rank)
  bcast_S_S3200000x64 : S_.BroadcastsInDim S3200000x64 (![] : Fin 0 → Fin S3200000x64.rank)
  shapeCasts_S3200000x16_S3200000x4x4 : S3200000x16.ShapeCasts S3200000x4x4
  reducesTo_S3200000x4x4_S3200000x4_d2 : S3200000x4x4.ReducesTo [2] S3200000x4
  bcast_S_S3200000x4 : S_.BroadcastsInDim S3200000x4 (![] : Fin 0 → Fin S3200000x4.rank)
  bcast_S3200000x4_S3200000x4x1_0_1 : S3200000x4.BroadcastsInDim S3200000x4x1 (![0, 1] : Fin 2 → Fin S3200000x4x1.rank)
  bcast_S3200000x4x1_S3200000x4x4_0_1_2 : S3200000x4x1.BroadcastsInDim S3200000x4x4 (![0, 1, 2] : Fin 3 → Fin S3200000x4x4.rank)
  bcast_S_S4x4 : S_.BroadcastsInDim S4x4 (![] : Fin 0 → Fin S4x4.rank)
  bcast_S4x4_S1x4x4_1_2 : S4x4.BroadcastsInDim S1x4x4 (![1, 2] : Fin 2 → Fin S1x4x4.rank)
  bcast_S1x4x4_S3200000x4x4_0_1_2 : S1x4x4.BroadcastsInDim S3200000x4x4 (![0, 1, 2] : Fin 3 → Fin S3200000x4x4.rank)
  gather_S100000x8_S3200000x1_S3200000x8_1_0_n_n_0_1_18_wf : GatherDims.WF S100000x8 S3200000x1 S3200000x8 [1] [0] [] [0] [] 1 ![1, 8]
  dot_S3200000x16_S16x64_S3200000x64_1_0_0_1_n_n_wf : DotDims.WF S3200000x16 S16x64 S3200000x64 [1] [0] [0] [1] [] []
  dot_S3200000x64_S64x16_S3200000x16_1_0_0_1_n_n_wf : DotDims.WF S3200000x64 S64x16 S3200000x16 [1] [0] [0] [1] [] []

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S3200000x16_S16x64_S3200000x64_1_0_0_1_n_n : DotDims S3200000x16 S16x64 S3200000x64 where
  lhsContracting := [1]
  rhsContracting := [0]
  lhsNonContracting := [0]
  rhsNonContracting := [1]
  lhsBatch := []
  rhsBatch := []
  wf := dot_S3200000x16_S16x64_S3200000x64_1_0_0_1_n_n_wf
def dot_S3200000x64_S64x16_S3200000x16_1_0_0_1_n_n : DotDims S3200000x64 S64x16 S3200000x16 where
  lhsContracting := [1]
  rhsContracting := [0]
  lhsNonContracting := [0]
  rhsNonContracting := [1]
  lhsBatch := []
  rhsBatch := []
  wf := dot_S3200000x64_S64x16_S3200000x16_1_0_0_1_n_n_wf

class Facts : Prop extends Facts₀ where

variable [Facts]
-- ==== Proof.Spec.lean ====
/-
  The per-edge map, as one function of a row.

  Both programs send a row `h` of sixteen numbers (the two type indicators of an edge's end points, side by side)
  through the same pipeline: centre and scale the row (mean and variance over its sixteen entries, the variance
  shifted by a small constant before the reciprocal square root), an affine map with weights `γ`, `β`, a linear
  layer into sixty-four hidden units followed by the positive part, a linear layer back to sixteen, the sixteen
  read as a 4 × 4 matrix, a softmax along each matrix row (shifted by the row's maximum), and the identity matrix
  minus that. `rowF` is that pipeline on ONE row, over the extended reals; no step of it looks at any other row.
-/
import Idealize.ShloMosaic.Lib.ValueIdx
import Idealize.ShloMosaic.PureOps.Ideal.Laws

noncomputable section

namespace Cert.Sheaf

open Idealize.ShloMosaic Idealize.ShloMosaic.ValueIdx

/-- An ideal f32 value: an extended real. -/
abbrev R : Type := Ideal .f32

abbrev V16 : Shape := ⟨1, ![16]⟩
abbrev V64 : Shape := ⟨1, ![64]⟩
abbrev M16x64 : Shape := ⟨2, ![16, 64]⟩
abbrev M64x16 : Shape := ⟨2, ![64, 16]⟩

/-- The six weight arrays of the map. -/
structure Params where
  γ : FVec Ideal V16 .f32
  β : FVec Ideal V16 .f32
  W1 : FVec Ideal M16x64 .f32
  b1 : FVec Ideal V64 .f32
  W2 : FVec Ideal M64x16 .f32
  b2 : FVec Ideal V16 .f32

/-- The constants of the pipeline, by their f32 words: 0, 16, the variance shift, and minus infinity. -/
abbrev zeroF : R := FloatOps.ofBits .f32 0x00000000#32
abbrev sixteenF : R := FloatOps.ofBits .f32 0x41800000#32
abbrev shiftF : R := FloatOps.ofBits .f32 0x3727C5AC#32
abbrev negInfF : R := FloatOps.ofBits .f32 0xFF800000#32

variable (P : Params) (h : Fin 16 → R)

/-- The row's mean. -/
def mean : R := FloatOps.hostDivf (zeroF + ∑ k : Fin 16, h k) sixteenF
/-- An entry's deviation from the mean. -/
def dev (k : Fin 16) : R := FloatOps.subf (h k) (mean h)
/-- The row's variance. -/
def var : R := FloatOps.hostDivf (zeroF + ∑ k : Fin 16, FloatOps.mulf (dev h k) (dev h k)) sixteenF
/-- The reciprocal square root of the shifted variance. -/
def rstd : R := FloatOps.hostUnary .rsqrt (FloatOps.addf (var h) shiftF)
/-- The normalised row after the affine map. -/
def hn (k : Fin 16) : R :=
  FloatOps.addf (FloatOps.mulf (FloatOps.mulf (dev h k) (rstd h)) (P.γ (ix1 k))) (P.β (ix1 k))
/-- The hidden layer: the positive part of the first linear map. -/
def hid (j : Fin 64) : R :=
  FloatOps.maximumf (FloatOps.addf (∑ k : Fin 16, hn P h k * P.W1 (ix2 k j)) (P.b1 (ix1 j))) zeroF
/-- The second linear map: sixteen logits. -/
def logit16 (o : Fin 16) : R := FloatOps.addf (∑ j : Fin 64, hid P h j * P.W2 (ix2 j o)) (P.b2 (ix1 o))
/-- The logits as a 4 × 4 matrix, row-major. -/
def logit (a b : Fin 4) : R := logit16 P h ⟨4 * a.val + b.val, by omega⟩
/-- A matrix row's maximum, taken from minus infinity (and once more against minus infinity). -/
def rowmax (a : Fin 4) : R :=
  FloatOps.maximumf negInfF ((Finset.univ : Finset (Fin 4)).fold FloatOps.maximumf negInfF (fun b => logit P h a b))
/-- The shifted exponentials. -/
def ex (a b : Fin 4) : R := FloatOps.hostUnary .exp (FloatOps.subf (logit P h a b) (rowmax P h a))
/-- Their sum along a matrix row. -/
def den (a : Fin 4) : R := zeroF + ∑ b : Fin 4, ex P h a b
/-- The identity matrix's entry, as the programs build it: the indicator of `a = b` turned into a float. -/
def eye (a b : Fin 4) : R :=
  FloatOps.uitofp .f32 (IntOp.cmpi .eq (IntOp.addi (BitVec.ofNat 32 a.val) 0#32) (BitVec.ofNat 32 b.val))
/-- The whole map on one row: identity minus the row-wise softmax of the 4 × 4 logits. -/
def rowF (a b : Fin 4) : R := FloatOps.subf (eye a b) (FloatOps.hostDivf (ex P h a b) (den P h a))

/-- An indicator word turned into a float, as both programs' one-hot encodings do: `1` where the words agree. -/
def ind (t k : BitVec 32) : R := FloatOps.uitofp .f32 (IntOp.cmpi .eq t k)

/-- The row of an edge whose end points have type words `s` and `t`: the two eight-entry indicators side by side. -/
def pairRow (s t : BitVec 32) (k : Fin 16) : R :=
  if k.val < 8 then ind s (BitVec.ofNat 32 k.val) else ind t (BitVec.ofNat 32 (k.val - 8))

end Cert.Sheaf

end
-- ==== Proof.RefValue.lean ====
/-
  The reference's result read at an index.

  The reference builds, for every edge e, the row of sixteen numbers that holds the type indicators of the edge's two
  end points side by side, and then sends every row through one and the same map (centre and scale, an affine map,
  two linear layers with a positive part between them, a row-wise softmax of the 4 × 4 matrix of logits, identity
  minus that). Three statements:

  * front_apply: row e of the concatenated indicators is the pair row of the two end points' type words, when
    the edge's indices are in range (then the negative-index correction is not taken and the gather's clamp is the
    identity);
  * chain_apply: every later stage at row e is the per-row map Cert.Sheaf.rowF of row e of the concatenation:
    stage by stage, each generated read-at-an-index lemma is restated at coordinates (e, k), (e, a, b) and the
    per-row quantity of the specification is recognised (mean, deviation, variance, reciprocal root, normalised
    row, hidden layer, logits, row maximum, exponentials, their sum);
  * ref_apply: both together.
-/
import proofs.«400568_j31842887533263_3_alg».proof.Proof.Gen.ReferenceIdeal.Read
import proofs.«400568_j31842887533263_3_alg».proof.Proof.Spec
import Idealize.ShloMosaic.Lib.ValueIdx
import Idealize.ShloMosaic.Lib.Pipeline.Value
import Idealize.ShloMosaic.Lib.StableHlo.Predicate
import Idealize.ShloMosaic.PureOps.Reduce
import Idealize.ShloMosaic.PureOps.Ideal.Laws

noncomputable section

namespace Cert.Sheaf.Ref

open Cert.ReferenceIdeal Cert.ReferenceIdeal.Read Cert.ReferenceIdeal.Gen Idealize.ShloMosaic Idealize.ShloMosaic.ValueIdx

-- Two index functions of rank one, two or three are equal when their coordinates are, axis by axis.
local macro "idx_rfl1" : term => `(funext fun a => Fin.ext (by match a with | ⟨0, _⟩ => rfl))
local macro "idx_rfl2" : term => `(funext fun a => Fin.ext (by match a with | ⟨0, _⟩ => rfl | ⟨1, _⟩ => rfl))
local macro "idx_rfl3" : term => `(funext fun a => Fin.ext (by match a with | ⟨0, _⟩ => rfl | ⟨1, _⟩ => rfl | ⟨2, _⟩ => rfl))

/-! ## Index equations: the generated index functions at coordinates -/

section Indices
variable (e : Fin 3200000)

theorem i20 (k : Fin 16) : idx_main_v20 (ix1 e) k = ix2 e k := idx_rfl2
theorem i21 (z : Fin 1) : idx_main_v21 (ix2 e z) = ix1 e := idx_rfl1
theorem i24 (k : Fin 16) : idx_main_v24 (ix2 e k) = ix2 e (0 : Fin 1) := idx_rfl2
theorem i27 (k : Fin 16) : idx_main_v27 (ix1 e) k = ix2 e k := idx_rfl2
theorem i28 (z : Fin 1) : idx_main_v28 (ix2 e z) = ix1 e := idx_rfl1
theorem i31 (k : Fin 16) : idx_main_v31 (ix2 e k) = ix2 e (0 : Fin 1) := idx_rfl2
theorem i36 (k : Fin 16) : idx_main_v36 (ix2 e k) = ix2 e (0 : Fin 1) := idx_rfl2
theorem i39 (k : Fin 16) : idx_main_v38 (idx_main_v39 (ix2 e k)) = ix1 k := idx_rfl1
theorem i42 (k : Fin 16) : idx_main_v41 (idx_main_v42 (ix2 e k)) = ix1 k := idx_rfl1
theorem il44 (j : Fin 64) (k : Fin 16) : lidx_main_v44 (ix2 e j) k = ix2 e k := idx_rfl2
theorem ir44 (j : Fin 64) (k : Fin 16) : ridx_main_v44 (ix2 e j) k = ix2 k j := idx_rfl2
theorem i46 (j : Fin 64) : idx_main_v45 (idx_main_v46 (ix2 e j)) = ix1 j := idx_rfl1
theorem il49 (o : Fin 16) (j : Fin 64) : lidx_main_v49 (ix2 e o) j = ix2 e j := idx_rfl2
theorem ir49 (o : Fin 16) (j : Fin 64) : ridx_main_v49 (ix2 e o) j = ix2 j o := idx_rfl2
theorem i51 (o : Fin 16) : idx_main_v50 (idx_main_v51 (ix2 e o)) = ix1 o := idx_rfl1
/-- The reshape to [E, 4, 4] is row-major: entry (a, b) of edge e is entry 4 a + b of its row. -/
theorem i53 (a b : Fin 4) :
    idx_main_v53 (ix3 e a b) = ix2 e (⟨4 * a.val + b.val, by omega⟩ : Fin 16) :=
  funext fun c => Fin.ext (by
    have ha := a.isLt
    have hb := b.isLt
    match c with
    | ⟨0, _⟩ =>
      show ((e.val * 4 + a.val) * 4 + b.val) / 16 = e.val
      omega
    | ⟨1, _⟩ =>
      show ((e.val * 4 + a.val) * 4 + b.val) % 16 = 4 * a.val + b.val
      omega)
theorem i57 (a : Fin 4) (z : Fin 1) : idx_main_v57 (ix3 e a z) = ix2 e a := idx_rfl2
theorem i58 (a b : Fin 4) : idx_main_v58 (ix3 e a b) = ix3 e a (0 : Fin 1) := idx_rfl3
theorem i61 (a k : Fin 4) : idx_main_v61 (ix2 e a) k = ix3 e a k := idx_rfl3
theorem i62 (a : Fin 4) (z : Fin 1) : idx_main_v62 (ix3 e a z) = ix2 e a := idx_rfl2
theorem i63 (a b : Fin 4) : idx_main_v63 (ix3 e a b) = ix3 e a (0 : Fin 1) := idx_rfl3
theorem i72 (a b : Fin 4) : idx_main_v71 (idx_main_v72 (ix3 e a b)) = ix2 a b := idx_rfl2

/-- Row 0 of the edge table at column e; the reshape's remainder is the column itself. -/
theorem i1 : idx_main_v0 (idx_main_v1 (ix1 e)) = ix2 (0 : Fin 2) e :=
  funext fun c => Fin.ext (by
    match c with
    | ⟨0, _⟩ => rfl
    | ⟨1, _⟩ =>
      show e.val % 3200000 = e.val
      exact Nat.mod_eq_of_lt e.isLt)
/-- Row 1 of the edge table at column e. -/
theorem i3 : idx_main_v2 (idx_main_v3 (ix1 e)) = ix2 (1 : Fin 2) e :=
  funext fun c => Fin.ext (by
    match c with
    | ⟨0, _⟩ => rfl
    | ⟨1, _⟩ =>
      show e.val % 3200000 = e.val
      exact Nat.mod_eq_of_lt e.isLt)
theorem i10 (z : Fin 1) : idx_main_v10 (ix2 e z) = ix1 e := idx_rfl1
theorem i17 (z : Fin 1) : idx_main_v17 (ix2 e z) = ix1 e := idx_rfl1

end Indices

theorem ic0 (n : Fin 100000) (c : Fin 8) : idx_main_call0_v0 (idx_main_call0_v2 (ix2 n c)) = ix1 n := idx_rfl1

/-! ## The chain: every stage after the concatenation, at row e -/

section Chain

variable (x1 : (⟨S2x3200000, .i32⟩ : BufTy).Contents (Elt Ideal)) (x2 : (⟨S100000, .i32⟩ : BufTy).Contents (Elt Ideal))
  (x3 x4 : (⟨S16, .f32⟩ : BufTy).Contents (Elt Ideal)) (x5 : (⟨S16x64, .f32⟩ : BufTy).Contents (Elt Ideal))
  (x6 : (⟨S64, .f32⟩ : BufTy).Contents (Elt Ideal)) (x7 : (⟨S64x16, .f32⟩ : BufTy).Contents (Elt Ideal))
  (x8 : (⟨S16, .f32⟩ : BufTy).Contents (Elt Ideal))

/-- Row e of the concatenated indicators. -/
def rowOf (e : Fin 3200000) : Fin 16 → R := fun k => val_main_v19 (F := Ideal) x1 x2 (ix2 e k)

theorem rowOf_apply (e : Fin 3200000) (k : Fin 16) : rowOf x1 x2 e k = val_main_v19 (F := Ideal) x1 x2 (ix2 e k) := rfl

variable (e : Fin 3200000)

/-! ### Centre and scale -/

/-- The row's sum. -/
theorem v20_ix : val_main_v20 (F := Ideal) x1 x2 (ix1 e) = zeroF + ∑ k : Fin 16, rowOf x1 x2 e k := by
  rw [val_main_v20_apply, val_main_cst_apply]
  refine congrArg (zeroF + ·) (Finset.sum_congr rfl fun k _ => ?_)
  rw [i20, rowOf_apply]

/-- The row's mean, kept as a column. -/
theorem v23_ix (z : Fin 1) : val_main_v23 (F := Ideal) x1 x2 (ix2 e z) = mean (rowOf x1 x2 e) := by
  rw [val_main_v23_apply, val_main_v21_apply, i21, v20_ix, val_main_v22_apply, val_main_cst_3_apply]
  rfl

/-- An entry's deviation from the mean. -/
theorem v25_ix (k : Fin 16) : val_main_v25 (F := Ideal) x1 x2 (ix2 e k) = dev (rowOf x1 x2 e) k := by
  rw [val_main_v25_apply, val_main_v24_apply, i24, v23_ix, ← rowOf_apply]
  rfl

/-- The sum of the squared deviations. -/
theorem v27_ix : val_main_v27 (F := Ideal) x1 x2 (ix1 e)
    = zeroF + ∑ k : Fin 16, FloatOps.mulf (dev (rowOf x1 x2 e) k) (dev (rowOf x1 x2 e) k) := by
  rw [val_main_v27_apply, val_main_cst_4_apply]
  refine congrArg (zeroF + ·) (Finset.sum_congr rfl fun k _ => ?_)
  rw [i27, val_main_v26_apply, v25_ix]

/-- The row's variance. -/
theorem v30_ix (z : Fin 1) : val_main_v30 (F := Ideal) x1 x2 (ix2 e z) = var (rowOf x1 x2 e) := by
  rw [val_main_v30_apply, val_main_v28_apply, i28, v27_ix, val_main_v29_apply, val_main_cst_5_apply]
  rfl

/-- The second copy of the deviation (the program subtracts the mean twice). -/
theorem v32_ix (k : Fin 16) : val_main_v32 (F := Ideal) x1 x2 (ix2 e k) = dev (rowOf x1 x2 e) k := by
  rw [val_main_v32_apply, val_main_v31_apply, i31, v23_ix, ← rowOf_apply]
  rfl

/-- The reciprocal square root of the shifted variance. -/
theorem v35_ix (z : Fin 1) : val_main_v35 (F := Ideal) x1 x2 (ix2 e z) = rstd (rowOf x1 x2 e) := by
  rw [val_main_v35_apply, val_main_v34_apply, v30_ix, val_main_v33_apply, val_main_cst_6_apply]
  rfl

/-- The centred and scaled entry. -/
theorem v37_ix (k : Fin 16) : val_main_v37 (F := Ideal) x1 x2 (ix2 e k)
    = FloatOps.mulf (dev (rowOf x1 x2 e) k) (rstd (rowOf x1 x2 e)) := by
  rw [val_main_v37_apply, v32_ix, val_main_v36_apply, i36, v35_ix]

/-! ### The affine map and the two linear layers -/

/-- The normalised row after the affine map. -/
theorem v43_ix (k : Fin 16) : val_main_v43 (F := Ideal) x1 x2 x3 x4 (ix2 e k)
    = hn ⟨x3, x4, x5, x6, x7, x8⟩ (rowOf x1 x2 e) k := by
  rw [val_main_v43_apply, val_main_v40_apply, v37_ix, val_main_v39_apply, val_main_v38_apply, i39,
    val_main_v42_apply, val_main_v41_apply, i42]
  rfl

/-- The hidden layer. -/
theorem v48_ix (j : Fin 64) : val_main_v48 (F := Ideal) x1 x2 x3 x4 x5 x6 (ix2 e j)
    = hid ⟨x3, x4, x5, x6, x7, x8⟩ (rowOf x1 x2 e) j := by
  rw [val_main_v48_apply, val_main_v47_apply, val_main_v44_apply, val_main_v46_apply, val_main_v45_apply, i46,
    val_main_call1_v0_apply, val_main_call1_cst_apply]
  have hs : (∑ k : Fin 16, val_main_v43 (F := Ideal) x1 x2 x3 x4 (lidx_main_v44 (ix2 e j) k) * x5 (ridx_main_v44 (ix2 e j) k))
      = ∑ k : Fin 16, hn ⟨x3, x4, x5, x6, x7, x8⟩ (rowOf x1 x2 e) k * x5 (ix2 k j) :=
    Finset.sum_congr rfl fun k _ => by rw [il44, ir44, v43_ix x1 x2 x3 x4 x5 x6 x7 x8 e k]
  rw [hs]
  rfl

/-- The sixteen logits. -/
theorem v52_ix (o : Fin 16) : val_main_v52 (F := Ideal) x1 x2 x3 x4 x5 x6 x7 x8 (ix2 e o)
    = logit16 ⟨x3, x4, x5, x6, x7, x8⟩ (rowOf x1 x2 e) o := by
  rw [val_main_v52_apply, val_main_v49_apply, val_main_v51_apply, val_main_v50_apply, i51]
  have hs : (∑ j : Fin 64, val_main_v48 (F := Ideal) x1 x2 x3 x4 x5 x6 (lidx_main_v49 (ix2 e o) j) * x7 (ridx_main_v49 (ix2 e o) j))
      = ∑ j : Fin 64, hid ⟨x3, x4, x5, x6, x7, x8⟩ (rowOf x1 x2 e) j * x7 (ix2 j o) :=
    Finset.sum_congr rfl fun j _ => by rw [il49, ir49, v48_ix x1 x2 x3 x4 x5 x6 x7 x8 e j]
  rw [hs]
  rfl

/-- The logits as a 4 × 4 matrix. -/
theorem v53_ix (a b : Fin 4) : val_main_v53 (F := Ideal) x1 x2 x3 x4 x5 x6 x7 x8 (ix3 e a b)
    = logit ⟨x3, x4, x5, x6, x7, x8⟩ (rowOf x1 x2 e) a b := by
  rw [val_main_v53_apply, i53, v52_ix]
  rfl

/-! ### The softmax along each matrix row, and the identity minus it -/

/-- The reduced index (e, a) with coordinate k put back on the last axis is (e, a, k). -/
theorem lift_ix (hred : S3200000x4x4.Reduces [2] S3200000x4) (a k : Fin 4) :
    hred.lift (ix2 e a) k = ix3 e a k :=
  funext fun c => Fin.ext (by match c with | ⟨0, _⟩ => rfl | ⟨1, _⟩ => rfl | ⟨2, _⟩ => rfl)

/-- A maximum-reduce over the last axis of an [E, 4, 4] array, at (e, a): the fold of the maximum over the four
    entries of matrix row a, from the initial value. -/
theorem hostMax_ix (y : FVec Ideal S3200000x4x4 .f32) (init : FVec Ideal S_ .f32)
    (a : Fin 4) :
    Host.reduce (FloatOps.maximumf (F := Ideal) (φ := .f32)) y init reducesTo_S3200000x4x4_S3200000x4_d2 h_S_ (ix2 e a)
      = (Finset.univ : Finset (Fin 4)).fold (FloatOps.maximumf (F := Ideal) (φ := .f32)) (init (Shape.Idx.first h_S_))
          (fun b => y (ix3 e a b)) := by
  have hred : S3200000x4x4.Reduces [2] S3200000x4 := by decide
  rw [Host.reduce_eq_fold_single (FloatOps.maximumf (F := Ideal) (φ := .f32)) y init
    reducesTo_S3200000x4x4_S3200000x4_d2 hred h_S_]
  have hf : (y ∘ hred.lift (ix2 e a)) = fun b : Fin 4 => y (ix3 e a b) :=
    funext fun b => congrArg y (lift_ix e hred a b)
  rw [hf]
  rfl

/-- The maximum of matrix row a, folded from minus infinity. -/
theorem v54_ix (a : Fin 4) : val_main_v54 (F := Ideal) x1 x2 x3 x4 x5 x6 x7 x8 (ix2 e a)
    = (Finset.univ : Finset (Fin 4)).fold (FloatOps.maximumf (F := Ideal) (φ := .f32)) negInfF
        (fun b => logit ⟨x3, x4, x5, x6, x7, x8⟩ (rowOf x1 x2 e) a b) := by
  unfold val_main_v54
  refine (hostMax_ix e (val_main_v53 (F := Ideal) x1 x2 x3 x4 x5 x6 x7 x8) (val_main_cst_7 (F := Ideal)) a).trans ?_
  rw [val_main_cst_7_apply]
  exact congrArg (fun f : Fin 4 → R => (Finset.univ : Finset (Fin 4)).fold (FloatOps.maximumf (F := Ideal) (φ := .f32)) negInfF f)
    (funext fun b => v53_ix x1 x2 x3 x4 x5 x6 x7 x8 e a b)

/-- The row maximum as the program takes it: once more against minus infinity. -/
theorem v56_ix (a : Fin 4) : val_main_v56 (F := Ideal) x1 x2 x3 x4 x5 x6 x7 x8 (ix2 e a)
    = rowmax ⟨x3, x4, x5, x6, x7, x8⟩ (rowOf x1 x2 e) a := by
  rw [val_main_v56_apply, val_main_v55_apply, val_main_cst_8_apply, v54_ix]
  first | done | rfl

/-- The shifted exponential. -/
theorem v60_ix (a b : Fin 4) : val_main_v60 (F := Ideal) x1 x2 x3 x4 x5 x6 x7 x8 (ix3 e a b)
    = ex ⟨x3, x4, x5, x6, x7, x8⟩ (rowOf x1 x2 e) a b := by
  rw [val_main_v60_apply, val_main_v59_apply, v53_ix, val_main_v58_apply, i58, val_main_v57_apply, i57, v56_ix]
  first | done | rfl

/-- The sum of the exponentials along matrix row a. -/
theorem v61_ix (a : Fin 4) : val_main_v61 (F := Ideal) x1 x2 x3 x4 x5 x6 x7 x8 (ix2 e a)
    = den ⟨x3, x4, x5, x6, x7, x8⟩ (rowOf x1 x2 e) a := by
  rw [val_main_v61_apply, val_main_cst_9_apply]
  have hs : (∑ k : Fin 4, val_main_v60 (F := Ideal) x1 x2 x3 x4 x5 x6 x7 x8 (idx_main_v61 (ix2 e a) k))
      = ∑ b : Fin 4, ex ⟨x3, x4, x5, x6, x7, x8⟩ (rowOf x1 x2 e) a b :=
    Finset.sum_congr rfl fun k _ => by rw [i61, v60_ix x1 x2 x3 x4 x5 x6 x7 x8 e a k]
  rw [hs]
  first | done | rfl

/-- The softmax entry. -/
theorem v64_ix (a b : Fin 4) : val_main_v64 (F := Ideal) x1 x2 x3 x4 x5 x6 x7 x8 (ix3 e a b)
    = FloatOps.hostDivf (ex ⟨x3, x4, x5, x6, x7, x8⟩ (rowOf x1 x2 e) a b) (den ⟨x3, x4, x5, x6, x7, x8⟩ (rowOf x1 x2 e) a) := by
  rw [val_main_v64_apply, v60_ix, val_main_v63_apply, i63, val_main_v62_apply, i62, v61_ix]

/-- The identity matrix's entry: the same for every edge. -/
theorem v72_ix (a b : Fin 4) : val_main_v72 (F := Ideal) (ix3 e a b) = eye a b := by
  rw [val_main_v72_apply, val_main_v71_apply, i72, val_main_v70_apply, val_main_v69_apply, val_main_v68_apply,
    val_main_v65_apply, val_main_v66_apply, val_main_v67_apply, val_main_c_10_apply]
  first | done | rfl

/-- The result at (e, a, b) is the per-row map of row e. -/
theorem chain_row (a b : Fin 4) : val_main_v73 (F := Ideal) x1 x2 x3 x4 x5 x6 x7 x8 (ix3 e a b)
    = rowF ⟨x3, x4, x5, x6, x7, x8⟩ (rowOf x1 x2 e) a b := by
  rw [val_main_v73_apply, v72_ix, v64_ix]
  first | done | rfl

end Chain

/-! ## The front: indicators, the two gathers, the concatenation -/

section Front

variable (x1 : (⟨S2x3200000, .i32⟩ : BufTy).Contents (Elt Ideal)) (x2 : (⟨S100000, .i32⟩ : BufTy).Contents (Elt Ideal))

/-! ### Words -/

/-- A word below 100000 is not negative as a signed word. -/
theorem slt_zero_of_small (w : BitVec 32) (hw : w.toNat < 100000) : IntOp.cmpi .slt w 0#32 = 0#1 := by
  refine eq_zero_of_ne_one fun h1 => ?_
  have h2 := (StableHlo.Predicate.slt_iff_toNat (a := w) (b := 0#32) (by omega) (by decide)).mp h1
  have h0 : (0#32 : BitVec 32).toNat = 0 := by decide
  rw [h0] at h2
  exact Nat.not_lt_zero _ h2

/-- So the negative-index correction leaves it alone. -/
theorem select_small (w : BitVec 32) (hw : w.toNat < 100000) :
    Scalar.select (IntOp.cmpi .slt w 0#32) (IntOp.addi w 100000#32) w = w := by
  rw [slt_zero_of_small w hw, select_zero]

/-- Read signed and clamped into the table's rows it is its own value. -/
theorem clamp_small (w : BitVec 32) (hw : w.toNat < 100000) : min w.toInt.toNat 99999 = w.toNat := by
  have h := StableHlo.Predicate.toInt_eq_toNat_of_lt (a := w) (by omega)
  first
    | omega
    | (rw [h, Int.toNat_natCast]; exact Nat.min_eq_left (by omega))

/-! ### The indicator table at an index -/

/-- Entry (n, c) of the indicator table: does node n have type c. -/
theorem v4_ix (n : Fin 100000) (c : Fin 8) :
    val_main_v4 (F := Ideal) x2 (ix2 n c) = ind (x2 (ix1 n)) (BitVec.ofNat 32 c.val) := by
  rw [val_main_v4_apply, val_main_call0_v4_apply, val_main_call0_v2_apply, val_main_call0_v0_apply, ic0,
    val_main_call0_v3_apply, val_main_call0_v1_apply]
  first | done | rfl

/-! ### The start indices -/

/-- The first gather's start index for edge e: the edge's source, uncorrected when in range. -/
theorem v10_ix (e : Fin 3200000) (z : Fin 1) (hw : BitVec.toNat (x1 (ix2 (0 : Fin 2) e)) < 100000) :
    val_main_v10 (F := Ideal) x1 (ix2 e z) = x1 (ix2 (0 : Fin 2) e) := by
  rw [val_main_v10_apply, i10, val_main_v9_apply, val_main_v6_apply, val_main_v8_apply, val_main_v1_apply,
    val_main_v0_apply, i1, val_main_v5_apply, val_main_c_apply, val_main_v7_apply, val_main_c_0_apply]
  exact select_small _ hw

/-- The second gather's start index for edge e: the edge's target, uncorrected when in range. -/
theorem v17_ix (e : Fin 3200000) (z : Fin 1) (hw : BitVec.toNat (x1 (ix2 (1 : Fin 2) e)) < 100000) :
    val_main_v17 (F := Ideal) x1 (ix2 e z) = x1 (ix2 (1 : Fin 2) e) := by
  rw [val_main_v17_apply, i17, val_main_v16_apply, val_main_v13_apply, val_main_v15_apply, val_main_v3_apply,
    val_main_v2_apply, i3, val_main_v12_apply, val_main_c_1_apply, val_main_v14_apply, val_main_c_2_apply]
  exact select_small _ hw

/-! ### The gather with slice sizes [1, 8]: a whole row of the table at a clamped start index -/

theorem gather_start0 {w : Nat} (idx : IVec S3200000x1 w) (e : Fin 3200000) (c : Fin 8) :
    gather_S100000x8_S3200000x1_S3200000x8_1_0_n_n_0_1_18.start (ix2 e c) idx 0
      = min (idx (ix2 e (0 : Fin 1))).toInt.toNat 99999 := by
  unfold GatherDims.start
  rw [dif_pos (show (0 : Fin S100000x8.rank) ∈ gather_S100000x8_S3200000x1_S3200000x8_1_0_n_n_0_1_18.startIndexMap from List.mem_singleton.mpr rfl)]
  have hsi : gather_S100000x8_S3200000x1_S3200000x8_1_0_n_n_0_1_18.siIdx (ix2 e c)
      ⟨List.idxOf (0 : Fin S100000x8.rank) gather_S100000x8_S3200000x1_S3200000x8_1_0_n_n_0_1_18.startIndexMap,
        List.idxOf_lt_length_iff.2 (List.mem_singleton.mpr rfl)⟩ = ix2 e (0 : Fin 1) := by
    funext b
    refine Fin.ext ?_
    match b with
    | ⟨0, _⟩ => rfl
    | ⟨1, _⟩ => rfl
  rw [hsi]
  rfl

theorem gather_start1 {w : Nat} (idx : IVec S3200000x1 w) (e : Fin 3200000) (c : Fin 8) :
    gather_S100000x8_S3200000x1_S3200000x8_1_0_n_n_0_1_18.start (ix2 e c) idx 1 = 0 := by
  unfold GatherDims.start
  rw [dif_neg (show ¬ (1 : Fin S100000x8.rank) ∈ gather_S100000x8_S3200000x1_S3200000x8_1_0_n_n_0_1_18.startIndexMap from
    fun h => absurd (List.mem_singleton.mp h) (by decide))]

theorem gather_off0 (e : Fin 3200000) (c : Fin 8) :
    gather_S100000x8_S3200000x1_S3200000x8_1_0_n_n_0_1_18.offCoord (ix2 e c) 0 = 0 :=
  GatherDims.offCoord_eq_zero _ _ _ (fun h => ((GatherDims.mem_sKept _ _).mp h).1 (List.mem_singleton.mpr rfl))

theorem gather_off1 (e : Fin 3200000) (c : Fin 8) :
    gather_S100000x8_S3200000x1_S3200000x8_1_0_n_n_0_1_18.offCoord (ix2 e c) 1 = c.val := by
  unfold GatherDims.offCoord
  rw [dif_pos ((GatherDims.mem_sKept _ _).mpr
    ⟨fun h => absurd (List.mem_singleton.mp h) (by decide), List.not_mem_nil⟩)]
  rfl

/-- The gather at (e, c): column c of the table's row at the clamped start index of e. -/
theorem gather_ix {α : Type} {w : Nat} (y : S100000x8.Idx → α) (idx : IVec S3200000x1 w) (e : Fin 3200000) (c : Fin 8)
    (n : Fin 100000) (hn : min (idx (ix2 e (0 : Fin 1))).toInt.toNat 99999 = n.val) :
    Host.gather gather_S100000x8_S3200000x1_S3200000x8_1_0_n_n_0_1_18 y idx (ix2 e c) = y (ix2 n c) := by
  unfold Host.gather
  refine congrArg y (funext fun a => Fin.ext ?_)
  match a with
  | ⟨0, _⟩ =>
    show gather_S100000x8_S3200000x1_S3200000x8_1_0_n_n_0_1_18.start (ix2 e c) idx 0
        + gather_S100000x8_S3200000x1_S3200000x8_1_0_n_n_0_1_18.batchCoord (ix2 e c) 0
        + gather_S100000x8_S3200000x1_S3200000x8_1_0_n_n_0_1_18.offCoord (ix2 e c) 0 = n.val
    rw [gather_start0, GatherDims.batchCoord_eq_zero _ _ _ List.not_mem_nil, gather_off0]
    exact hn
  | ⟨1, _⟩ =>
    show gather_S100000x8_S3200000x1_S3200000x8_1_0_n_n_0_1_18.start (ix2 e c) idx 1
        + gather_S100000x8_S3200000x1_S3200000x8_1_0_n_n_0_1_18.batchCoord (ix2 e c) 1
        + gather_S100000x8_S3200000x1_S3200000x8_1_0_n_n_0_1_18.offCoord (ix2 e c) 1 = c.val
    rw [gather_start1, GatherDims.batchCoord_eq_zero _ _ _ List.not_mem_nil, gather_off1]
    omega

/-! ### The two gathered halves -/

/-- The source half of row e: the indicator of the source's type word. -/
theorem v11_ix (e : Fin 3200000) (c : Fin 8) (hw : BitVec.toNat (x1 (ix2 (0 : Fin 2) e)) < 100000) :
    val_main_v11 (F := Ideal) x1 x2 (ix2 e c)
      = ind (x2 (ix1 ⟨BitVec.toNat (x1 (ix2 (0 : Fin 2) e)), hw⟩)) (BitVec.ofNat 32 c.val) := by
  unfold val_main_v11
  refine (gather_ix (val_main_v4 (F := Ideal) x2) (val_main_v10 (F := Ideal) x1) e c
    ⟨BitVec.toNat (x1 (ix2 (0 : Fin 2) e)), hw⟩ ?_).trans (v4_ix x2 _ c)
  rw [v10_ix x1 e 0 hw]
  exact clamp_small _ hw

/-- The target half of row e: the indicator of the target's type word. -/
theorem v18_ix (e : Fin 3200000) (c : Fin 8) (hw : BitVec.toNat (x1 (ix2 (1 : Fin 2) e)) < 100000) :
    val_main_v18 (F := Ideal) x1 x2 (ix2 e c)
      = ind (x2 (ix1 ⟨BitVec.toNat (x1 (ix2 (1 : Fin 2) e)), hw⟩)) (BitVec.ofNat 32 c.val) := by
  unfold val_main_v18
  refine (gather_ix (val_main_v4 (F := Ideal) x2) (val_main_v17 (F := Ideal) x1) e c
    ⟨BitVec.toNat (x1 (ix2 (1 : Fin 2) e)), hw⟩ ?_).trans (v4_ix x2 _ c)
  rw [v17_ix x1 e 0 hw]
  exact clamp_small _ hw

/-! ### The concatenation along the second axis -/

theorem concat_left {α : Type} (y₁ y₂ : S3200000x8.Idx → α)
    (h : Shape.Concatenates [S3200000x8, S3200000x8] S3200000x16 1) (e : Fin 3200000) (k : Fin 16) (hk : k.val < 8) :
    concatenate S3200000x16 1 [⟨S3200000x8, y₁⟩, ⟨S3200000x8, y₂⟩] h (ix2 e k) = y₁ (ix2 e ⟨k.val, hk⟩) :=
  concatenate_pair_apply_left (1 : Fin S3200000x16.rank) y₁ y₂ h (ix2 e k) rfl (ix2 e ⟨k.val, hk⟩)
    (fun b => match b with | ⟨0, _⟩ => rfl | ⟨1, _⟩ => rfl)

theorem concat_right {α : Type} (y₁ y₂ : S3200000x8.Idx → α)
    (h : Shape.Concatenates [S3200000x8, S3200000x8] S3200000x16 1) (e : Fin 3200000) (k : Fin 16) (hk : ¬ k.val < 8) :
    concatenate S3200000x16 1 [⟨S3200000x8, y₁⟩, ⟨S3200000x8, y₂⟩] h (ix2 e k)
      = y₂ (ix2 e ⟨k.val - 8, by have := k.isLt; omega⟩) :=
  concatenate_pair_apply_right (1 : Fin S3200000x16.rank) y₁ y₂ h (ix2 e k) rfl rfl
    (ix2 e ⟨k.val - 8, by have := k.isLt; omega⟩)
    (fun b => match b with
      | ⟨0, _⟩ => fun _ => rfl
      | ⟨1, _⟩ => fun hne => absurd (Fin.ext rfl) hne)
    (by show (k.val - 8) + 8 = k.val; omega)

end Front

/-! ## The three statements -/

section Statements

variable (x1 : (⟨S2x3200000, .i32⟩ : BufTy).Contents (Elt Ideal)) (x2 : (⟨S100000, .i32⟩ : BufTy).Contents (Elt Ideal))
  (x3 x4 : (⟨S16, .f32⟩ : BufTy).Contents (Elt Ideal)) (x5 : (⟨S16x64, .f32⟩ : BufTy).Contents (Elt Ideal))
  (x6 : (⟨S64, .f32⟩ : BufTy).Contents (Elt Ideal)) (x7 : (⟨S64x16, .f32⟩ : BufTy).Contents (Elt Ideal))
  (x8 : (⟨S16, .f32⟩ : BufTy).Contents (Elt Ideal))

/-- The front: row e of the concatenated one-hots is the pair row of the two end points' type words (edge indices
    in range: 0 ≤ index < 100000 as a signed word, that is, its unsigned value below 100000). -/
theorem front_apply (hrow : ∀ e : Fin 3200000, BitVec.toNat (x1 (ix2 (0 : Fin 2) e)) < 100000)
    (hcol : ∀ e : Fin 3200000, BitVec.toNat (x1 (ix2 (1 : Fin 2) e)) < 100000) (e : Fin 3200000) (k : Fin 16) :
    val_main_v19 (F := Ideal) x1 x2 (ix2 e k)
      = Cert.Sheaf.pairRow (x2 (ix1 ⟨BitVec.toNat (x1 (ix2 (0 : Fin 2) e)), hrow e⟩))
          (x2 (ix1 ⟨BitVec.toNat (x1 (ix2 (1 : Fin 2) e)), hcol e⟩)) k := by
  unfold val_main_v19 Cert.Sheaf.pairRow
  by_cases hk : k.val < 8
  · rw [if_pos hk]
    exact (concat_left (val_main_v11 (F := Ideal) x1 x2) (val_main_v18 (F := Ideal) x1 x2)
      concatenates_S3200000x8_S3200000x8_S3200000x16_d1 e k hk).trans (v11_ix x1 x2 e ⟨k.val, hk⟩ (hrow e))
  · rw [if_neg hk]
    exact (concat_right (val_main_v11 (F := Ideal) x1 x2) (val_main_v18 (F := Ideal) x1 x2)
      concatenates_S3200000x8_S3200000x8_S3200000x16_d1 e k hk).trans (v18_ix x1 x2 e ⟨k.val - 8, by have := k.isLt; omega⟩ (hcol e))

/-- The chain: every later stage at row e is the per-row map of row e of the concatenation. -/
theorem chain_apply (e : Fin 3200000) (a b : Fin 4) :
    val_main_v73 (F := Ideal) x1 x2 x3 x4 x5 x6 x7 x8 (ix3 e a b)
      = Cert.Sheaf.rowF ⟨x3, x4, x5, x6, x7, x8⟩ (fun k => val_main_v19 (F := Ideal) x1 x2 (ix2 e k)) a b :=
  chain_row x1 x2 x3 x4 x5 x6 x7 x8 e a b

/-- Both together: the reference's result at (e, a, b) is the per-row map of the pair row of the edge's two type
    words. -/
theorem ref_apply (hrow : ∀ e : Fin 3200000, BitVec.toNat (x1 (ix2 (0 : Fin 2) e)) < 100000)
    (hcol : ∀ e : Fin 3200000, BitVec.toNat (x1 (ix2 (1 : Fin 2) e)) < 100000) (e : Fin 3200000) (a b : Fin 4) :
    val_main_v73 (F := Ideal) x1 x2 x3 x4 x5 x6 x7 x8 (ix3 e a b)
      = Cert.Sheaf.rowF ⟨x3, x4, x5, x6, x7, x8⟩
          (Cert.Sheaf.pairRow (x2 (ix1 ⟨BitVec.toNat (x1 (ix2 (0 : Fin 2) e)), hrow e⟩))
            (x2 (ix1 ⟨BitVec.toNat (x1 (ix2 (1 : Fin 2) e)), hcol e⟩))) a b := by
  rw [chain_apply x1 x2 x3 x4 x5 x6 x7 x8 e a b]
  exact congrArg (fun h : Fin 16 → R => Cert.Sheaf.rowF ⟨x3, x4, x5, x6, x7, x8⟩ h a b)
    (funext fun k => front_apply x1 x2 hrow hcol e k)

end Statements

end Cert.Sheaf.Ref

end
-- ==== Proof.KV.lean ====
/-
  The kernel program's buffers when the kernel region is entered, stretch by stretch.

  @main runs twelve stretches of host operations before the region (slices of the edge list, two table look-ups of
  the node types, the combined type word, the 64-row table of type pairs and its per-row map, the block-diagonal
  copy of that table). `K0` is the memory at launch and `K (j+1)` the buffers after stretch `j`; the contents the
  region finds are `K12`. Every buffer is written once, so what a buffer holds at the end is what its own
  operation wrote, as a function of what its operands held then.
-/
import proofs.«400568_j31842887533263_3_alg».proof.Proof.Gen.KernelIdeal.Frame
import Idealize.ShloMosaic.Lib.StableHlo.Run
import Idealize.ShloMosaic.Lib.Pipeline.Frame
import Idealize.ShloMosaic.PureOps.Ideal

set_option maxRecDepth 16384

noncomputable section

namespace Cert.Sheaf.KV

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The core's buffers at launch. -/
def K0 : Valuation τ sig (Elt Ideal) := fun b => m (c, b)
/-- After the two slices of the edge list. -/
def K1 : Valuation τ sig (Elt Ideal) := after (hostOps0 (F := Ideal)) (K0 m c)
/-- After the look-up of the source nodes' types. -/
def K2 : Valuation τ sig (Elt Ideal) := after (hostOps0_1 (F := Ideal)) (K1 m c)
/-- After the look-up of the target nodes' types. -/
def K3 : Valuation τ sig (Elt Ideal) := after (hostOps0_2 (F := Ideal)) (K2 m c)
/-- After the combined type word and its lane-dense reshape. -/
def K4 : Valuation τ sig (Elt Ideal) := after (hostOps0_3 (F := Ideal)) (K3 m c)
/-- After the floor division of the 64 pair numbers by 8. -/
def K5 : Valuation τ sig (Elt Ideal) := after (hostOps0_4 (F := Ideal)) (K4 m c)
def K6 : Valuation τ sig (Elt Ideal) := after (hostOps0_5 (F := Ideal)) (K5 m c)
/-- After their remainder modulo 8. -/
def K7 : Valuation τ sig (Elt Ideal) := after (hostOps0_6 (F := Ideal)) (K6 m c)
/-- After the two indicator encodings. -/
def K8 : Valuation τ sig (Elt Ideal) := after (hostOps0_7 (F := Ideal)) (K7 m c)
def K9 : Valuation τ sig (Elt Ideal) := after (hostOps0_8 (F := Ideal)) (K8 m c)
/-- After the normalisation and the first linear layer. -/
def K10 : Valuation τ sig (Elt Ideal) := after (hostOps0_9 (F := Ideal)) (K9 m c)
/-- After the positive part. -/
def K11 : Valuation τ sig (Elt Ideal) := after (hostOps0_10 (F := Ideal)) (K10 m c)
/-- After the second linear layer, the softmax, the table and its block-diagonal copy. -/
def K12 : Valuation τ sig (Elt Ideal) := after (hostOps0_11 (F := Ideal)) (K11 m c)

/-- The contents the region finds are the last of these. -/
theorem V0_eq : Gen.V0 (F := Ideal) m c = K12 m c := by
  unfold K12 K11 K10 K9 K8 K7 K6 K5 K4 K3 K2 K1 K0
  show after (List.flatten [hostOps0, hostOps0_1, hostOps0_2, hostOps0_3, hostOps0_4, hostOps0_5, hostOps0_6, hostOps0_7,
    hostOps0_8, hostOps0_9, hostOps0_10, hostOps0_11]) (fun b => m (c, b)) = _
  simp only [List.flatten_cons, List.flatten_nil, List.append_nil, StableHlo.after_append]

/-- A buffer as the region finds it, read off the last stretch. -/
theorem V_eq (y : Ref sig .tc) : Gen.V (F := Ideal) m c y = K12 m c (Proc.devRef .tc y) :=
  congrFun (V0_eq m c) (Proc.devRef .tc y)

/-- The arrays the proof speaks of, at their literal types: the combined type words (lane-dense), the 64 pair
    rows, the 64-row table, and its block-diagonal copy. -/
def combArr : IVec S25000x128 32 := Gen.V (F := Ideal) m c main_v9
def hlArr : FVec Ideal S64x16 .f32 := Gen.V (F := Ideal) m c main_v15
def lutArr : FVec Ideal S64x16 .f32 := Gen.V (F := Ideal) m c main_v70
def bdArr : FVec Ideal S512x128 .f32 := Gen.V (F := Ideal) m c main_v103

end Cert.Sheaf.KV

end
-- ==== Proof.KArr.lean ====
/-
  The kernel region's arrays, read block by block.

  The region runs 25 grid points. Point `t` stages rows `[1000 t, 1000 t + 1000)` of the lane-dense array of
  combined type words (25000 × 128), the whole 512 × 128 block-diagonal table, and writes back rows
  `[16000 t, 16000 t + 16000)` of the 400000 × 128 output. The blocks of distinct points are disjoint, so the
  output array after the run, read at row `16000 t + g`, is what point `t`'s body left at row `g`. The host
  operation after the region only re-reads that array as 3200000 × 4 × 4, row-major.
-/
import proofs.«400568_j31842887533263_3_alg».proof.Proof.KV
import Idealize.ShloMosaic.Lib.Pipeline.Value
import Idealize.ShloMosaic.Lib.ValueIdx
import Idealize.ShloMosaic.Lib.StableHlo.Run

set_option maxRecDepth 16384

noncomputable section

namespace Cert.Sheaf.KArr

open Cert.KernelIdeal Cert.KernelIdeal.Gen Cert.Sheaf.KV Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The three windows' block indices at grid point `t`: the words' and the output's row block is `t`, the table is
    always its one block. Decided over the 25 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- There are 25 points. -/
theorem t_lt (t : Fin cfg0.N) : t.val < 25 := by
  have h : t.val < grid0.N := t.isLt
  rw [N_0] at h; exact h

/-- Distinct points write distinct row blocks of the output. -/
theorem idx_inj2 : ∀ t t' : Fin cfg0.N, win0_2.index t = win0_2.index t' → t = t' :=
  (by decide +kernel : ∀ t t' : Fin grid0.N, win0_2.index t = win0_2.index t' → t = t')

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- Block `t` of the output array after the run is what point `t` wrote back. -/
theorem blocks2 (c : Dev nD) (t : Fin cfg0.N) :
    ((cfg0.win 2).blk t).view.read (Elt Ideal) ((dats (F := Ideal) m 0 c).arrAt 2 cfg0.N) = (dats (F := Ideal) m 0 c).flushed 2 t :=
  (dats (F := Ideal) m 0 c).read_blk_arrAt_eq_flushed 2 disjoint2 cfg0.N t t.isLt (flush0_2 t)

/-- And that is the body's output block for the two input blocks at `t`. -/
theorem flushed2 (c : Dev nD) (t : Fin cfg0.N) :
    (dats (F := Ideal) m 0 c).flushed 2 t = (cfg0.win 2).cut (grid0.coords t) (out0_2 (iblk m c 0 t) (iblk m c 1 t)) := by
  show (cfg0.win 2).cut (grid0.coords t) ((dats (F := Ideal) m 0 c).after 2 t) = _
  rw [after0_2]

/-- Point `t`'s block of combined words: rows `1000 t + r` of the lane-dense array. -/
theorem iblk0_apply (c : Dev nD) (t : Fin cfg0.N) (r : Fin 1000) (l : Fin 128) :
    iblk (F := Ideal) m c 0 t (ix2 r l) = combArr m c (ix2 ⟨1000 * t.val + r.val, by have := t_lt t; omega⟩ l) := by
  obtain ⟨e0, e1, -, -, -, -⟩ := idx_facts t
  show Gen.V (F := Ideal) m c main_v9 (((cfg0.win 0).blk t).view.emb (ix2 r l)) = Gen.V (F := Ideal) m c main_v9 _
  refine congrArg (Gen.V (F := Ideal) m c main_v9) ?_
  funext a; apply Fin.ext
  match a with
  | ⟨0, _⟩ => show win0_0.index t (0 : Fin 2) * 1000 + 1 * r.val = 1000 * t.val + r.val; omega
  | ⟨1, _⟩ => show win0_0.index t (1 : Fin 2) * 128 + 1 * l.val = l.val; omega

/-- Every point's table block is the whole block-diagonal table. -/
theorem iblk1_apply (c : Dev nD) (t : Fin cfg0.N) (k : Fin 512) (l : Fin 128) :
    iblk (F := Ideal) m c 1 t (ix2 k l) = bdArr m c (ix2 k l) := by
  obtain ⟨-, -, e2, e3, -, -⟩ := idx_facts t
  show Gen.V (F := Ideal) m c main_v103 (((cfg0.win 1).blk t).view.emb (ix2 k l)) = Gen.V (F := Ideal) m c main_v103 _
  refine congrArg (Gen.V (F := Ideal) m c main_v103) ?_
  funext a; apply Fin.ext
  match a with
  | ⟨0, _⟩ => show win0_1.index t (0 : Fin 2) * 512 + 1 * k.val = k.val; omega
  | ⟨1, _⟩ => show win0_1.index t (1 : Fin 2) * 128 + 1 * l.val = l.val; omega

/-- The output array after the run at row `16000 t + g`: what point `t`'s body left at row `g`. -/
theorem out_arr_apply (c : Dev nD) (t : Fin cfg0.N) (g : Fin 16000) (l : Fin 128) :
    ((dats (F := Ideal) m 0 c).arrAt 2 cfg0.N : S400000x128.Idx → Elt Ideal .f32) (ix2 ⟨16000 * t.val + g.val, by have := t_lt t; omega⟩ l)
      = out0_2 (F := Ideal) (iblk m c 0 t) (iblk m c 1 t) (ix2 g l) := by
  obtain ⟨-, -, -, -, e4, e5⟩ := idx_facts t
  have hb := congrFun (blocks2 m c t) (ix2 g l)
  rw [flushed2] at hb
  refine Eq.trans ?_ hb
  show ((dats (F := Ideal) m 0 c).arrAt 2 cfg0.N : S400000x128.Idx → Elt Ideal .f32) _
    = ((dats (F := Ideal) m 0 c).arrAt 2 cfg0.N : S400000x128.Idx → Elt Ideal .f32) (((cfg0.win 2).blk t).view.emb (ix2 g l))
  refine congrArg ((dats (F := Ideal) m 0 c).arrAt 2 cfg0.N : S400000x128.Idx → Elt Ideal .f32) ?_
  funext a; apply Fin.ext
  match a with
  | ⟨0, _⟩ => show 16000 * t.val + g.val = win0_2.index t (0 : Fin 2) * 16000 + 1 * g.val; omega
  | ⟨1, _⟩ => show l.val = win0_2.index t (1 : Fin 2) * 128 + 1 * l.val; omega

/-- After the frame run the result buffer holds the output array re-read as 3200000 × 4 × 4. -/
theorem result_eq (r : PUnit × MemSt nD τ sig (Elt Ideal))
    (h : Pipeline.FramePost cfgs (dats (F := Ideal) m) 0 (Pipeline.afterTail₀ cfgs (dats (F := Ideal) m) 0 (V0 m) [hostOps1]) r) (c : Dev nD) :
    r.2.mem ((c.tc : Thread nD τ).loc main_v105)
      = shapeCast S3200000x4x4 ((dats (F := Ideal) m 0 c).arrAt 2 cfg0.N : S400000x128.Idx → Elt Ideal .f32) shapeCasts_S400000x128_S3200000x4x4 := by
  refine ((h c).2 main_v105 (Pipeline.mem_restRefs_of main_v105 (by decide) (by decide))).trans ?_
  unfold Pipeline.afterTail₀
  show StableHlo.after hostOps1 _ (Proc.devRef .tc main_v105) = _
  after_results
  rw [Pipeline.withArrays_arr spec0 launch0.win.arr_inj c _ _ 2]
  rfl

/-- The result at edge `e`, matrix entry `(a, b)`: the output array at row `e / 8`, lane `16 (e % 8) + 4 a + b`. -/
theorem reshape_apply (X : S400000x128.Idx → Elt Ideal .f32) (e : Fin 3200000) (a b : Fin 4) :
    shapeCast S3200000x4x4 X shapeCasts_S400000x128_S3200000x4x4 (ix3 e a b)
      = X (ix2 ⟨e.val / 8, by omega⟩ ⟨16 * (e.val % 8) + 4 * a.val + b.val, by omega⟩) := by
  refine shapeCast_apply X shapeCasts_S400000x128_S3200000x4x4 (ix3 e a b) _ ?_
  rewrite [Shape.rowMajor_val_two, Shape.rowMajor_val_three]
  show e.val / 8 * 128 + (16 * (e.val % 8) + 4 * a.val + b.val) = (e.val * 4 + a.val) * 4 + b.val
  omega

end Cert.Sheaf.KArr

end
-- ==== Proof.KFront.lean ====
/-
  The integer front of the kernel program.

  Before its one region the kernel program computes, with host operations, two things out of integers.
  (1) The combined type word of every edge: the two rows of the edge list are cut out and flattened, the node types
  are looked up at each row's entries (a look-up that wraps negative indices, clamps the start index and fills
  out-of-range positions — none of which happens for an index in range), the first look-up is multiplied by 8 and
  the second added, and the 3200000 words are laid out 128 to a row. With edge indices in range and node types
  below 8 the word of edge 128 r + l is, as a number, 8 · type(source) + type(target).
  (2) The 64 pair rows: for pair number cc = 0 … 63 the words cc / 8 and cc % 8 (jnp's floor division and remainder,
  whose sign corrections never fire on these values), each encoded as an indicator over 8 classes, the two encodings
  side by side: row cc is the pair row of the type words cc / 8 and cc % 8.

  Each array is read off the stretch of host operations that writes it, as that stretch's operations applied to what
  the earlier stretches left; a buffer written once keeps its contents through every later stretch.
-/
import proofs.«400568_j31842887533263_3_alg».proof.Proof.KV
import proofs.«400568_j31842887533263_3_alg».proof.Proof.Spec
import Idealize.ShloMosaic.Lib.StableHlo.Predicate
import Idealize.ShloMosaic.Lib.StableHlo.Run
import Idealize.ShloMosaic.Lib.ValueIdx
import Idealize.ShloMosaic.Lib.IdealHost
import Idealize.ShloMosaic.Lib.Pipeline.Value
import Idealize.ShloMosaic.PureOps.Reduce

set_option maxRecDepth 16384

noncomputable section

namespace Cert.Sheaf.KFront

open Cert.KernelIdeal Cert.KernelIdeal.Gen Cert.Sheaf.KV Idealize.ShloMosaic Idealize.ShloMosaic.ValueIdx
open Idealize.ShloMosaic.TcCoe Idealize.SL.Sem Idealize.ShloMosaic.StableHlo Idealize.ShloMosaic.StableHlo.Predicate

/-! ## Indices: the few spellings of one index the library's lemmas use -/

theorem ofFin_eq_ix1 {n : Nat} (p : Fin n) : Shape.Idx.ofFin p = ix1 p := by
  funext a; match a with | ⟨0, _⟩ => exact Fin.ext rfl

theorem ixP_eq_ix2 {n : Nat} (p : Fin n) : ixP p = ix2 p (0 : Fin 1) := by
  funext a; match a with | ⟨0, _⟩ => rfl | ⟨1, _⟩ => rfl

theorem ij_eq_ix2 {n k : Nat} (p : Fin n) (q : Fin k) : ij p q = ix2 p q := by
  funext a; match a with | ⟨0, _⟩ => rfl | ⟨1, _⟩ => rfl

theorem i1q_eq_ix2 {k : Nat} (q : Fin k) : i1q q = ix2 (0 : Fin 1) q := by
  funext a; match a with | ⟨0, _⟩ => rfl | ⟨1, _⟩ => rfl

/-- A vector kept as a column reads, at row p, the vector at p. -/
theorem bcast_col_apply {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) :=
  (congrArg (broadcastInDim ⟨2, ![n, 1]⟩ ![0] h₁ v) (ixP_eq_ix2 p).symm).trans
    ((bcast_col1 h₁ v p).trans (congrArg v (ofFin_eq_ix1 p)))

/-- A fold over the one-element index set is one application of the operation. -/
theorem fold_fin_one {β : Type} (op : β → β → β) [Std.Commutative op] [Std.Associative op] (b : β) (f : Fin 1 → β) :
    (Finset.univ : Finset (Fin 1)).fold op b f = op (f 0) b := by
  rw [Finset.univ_unique, Finset.fold_singleton]
  rfl

/-- The conjunction along the unit axis of a column is, at row p, the column's entry there (met with the initial bit). -/
theorem reduce_andi_col {n : Nat} (hr : (⟨2, ![n, 1]⟩ : Shape).ReducesTo [1] ⟨1, ![n]⟩)
    (hR : (⟨2, ![n, 1]⟩ : Shape).Reduces [1] ⟨1, ![n]⟩) (h0 : 0 < (⟨0, ![]⟩ : Shape).numel)
    (x : IVec ⟨2, ![n, 1]⟩ 1) (init : IVec ⟨0, ![]⟩ 1) (p : Fin n) :
    Host.reduce IntOp.andi x init hr h0 (ix1 p) = IntOp.andi (x (ix2 p (0 : Fin 1))) (init ix0) := by
  have hl : hR.lift (ix1 p) (0 : Fin 1) = ix2 p (0 : Fin 1) := by
    funext a
    match a with
    | ⟨0, _⟩ => exact Fin.ext (by first | rfl | simp [Shape.Reduces.lift_val, Shape.Reduces.liftVal])
    | ⟨1, _⟩ => exact Fin.ext (by first | rfl | simp [Shape.Reduces.lift_val, Shape.Reduces.liftVal])
  rw [Host.reduce_eq_fold_single IntOp.andi x init hr hR h0 (ix1 p)]
  refine (fold_fin_one IntOp.andi (init (Shape.Idx.first h0)) (fun k : Fin 1 => x (hR.lift (ix1 p) k))).trans ?_
  show IntOp.andi (x (hR.lift (ix1 p) (0 : Fin 1))) (init (Shape.Idx.first h0)) = _
  rw [hl, eq_ix0 (Shape.Idx.first h0)]

/-! ## The look-up of the node types: jnp.take in fill mode, as the program spells it -/

section Take
variable (d : GatherDims S100000 S3200000x1 S3200000)
  (hb0 : S_.BroadcastsInDim S3200000 (![] : Fin 0 → Fin S3200000.rank))
  (hb1 : S3200000.BroadcastsInDim S3200000x1 (![0] : Fin 1 → Fin S3200000x1.rank))
  (hb2 : S_.BroadcastsInDim S3200000x1 (![] : Fin 0 → Fin S3200000x1.rank))
  (hb3 : S1.BroadcastsInDim S1x1 (![1] : Fin 1 → Fin S1x1.rank))
  (hb4 : S1x1.BroadcastsInDim S3200000x1 (![0, 1] : Fin 2 → Fin S3200000x1.rank))
  (hr : S3200000x1.ReducesTo [1] S3200000) (h0 : 0 < S_.numel)

/-- A negative index counts from the end: the table's length is added to it. -/
def wrapIdx (idx : IVec S3200000 32) : IVec S3200000 32 :=
  select (cmpi .slt idx (broadcastInDim S3200000 ![] hb0 (constantI S_ 32 0#32)))
    (addi idx (broadcastInDim S3200000 ![] hb0 (constantI S_ 32 100000#32))) idx

/-- The wrapped indices as a column of start indices. -/
def idxCol (idx : IVec S3200000 32) : IVec S3200000x1 32 :=
  broadcastInDim S3200000x1 ![0] hb1 (wrapIdx hb0 idx)

/-- Which start indices lie in the table: 0 ≤ i ≤ 99999, the conjunction taken along the unit axis. -/
def inRange (idx : IVec S3200000 32) : IVec S3200000 1 :=
  Host.reduce IntOp.andi
    (andi (cmpi .sge (idxCol hb0 hb1 idx) (broadcastInDim S3200000x1 ![] hb2 (constantI S_ 32 0#32)))
      (cmpi .sle (idxCol hb0 hb1 idx)
        (broadcastInDim S3200000x1 ![0, 1] hb4 (broadcastInDim S1x1 ![1] hb3 (constantI S1 32 99999#32)))))
    (constantI S_ 1 1#1) hr h0

/-- The look-up: the table at the start index where it is in range, the smallest word elsewhere. -/
def takeFn (nt : IVec S100000 32) (idx : IVec S3200000 32) : IVec S3200000 32 :=
  select (inRange hb0 hb1 hb2 hb3 hb4 hr h0 idx) (Host.gather d nt (idxCol hb0 hb1 idx))
    (broadcastInDim S3200000 ![] hb0 (constantI S_ 32 2147483648#32))

/-- At an index in range the look-up reads the table there: no wrap, no clamp, no fill. -/
theorem takeFn_apply (hcoll : d.collapsedSliceDims = [0]) (hob : d.operandBatchingDims = [])
    (hsim : d.startIndexMap = [0]) (hivd : d.indexVectorDim = 1)
    (nt : IVec S100000 32) (idx : IVec S3200000 32) (e : Fin 3200000) (he : (idx (ix1 e)).toNat < 100000) :
    takeFn d hb0 hb1 hb2 hb3 hb4 hr h0 nt idx (ix1 e) = nt (ix1 ⟨(idx (ix1 e)).toNat, he⟩) := by
  have hR : S3200000x1.Reduces [1] S3200000 := by decide
  have h31 : (idx (ix1 e)).toNat < 2 ^ 31 := by omega
  have hneg : IntOp.cmpi .slt (idx (ix1 e)) 0#32 = 0#1 := by
    apply eq_zero_of_ne_one
    intro h
    have h' := (slt_iff_toNat (a := idx (ix1 e)) (b := 0#32) h31 (by decide)).mp h
    exact absurd h' (Nat.not_lt_zero _)
  have h4 : wrapIdx hb0 idx (ix1 e) = idx (ix1 e) := by
    show Scalar.select (IntOp.cmpi .slt (idx (ix1 e)) 0#32) (IntOp.addi (idx (ix1 e)) 100000#32) (idx (ix1 e)) = idx (ix1 e)
    rw [hneg, select_zero]
  have h5 : idxCol hb0 hb1 idx (ix2 e (0 : Fin 1)) = idx (ix1 e) :=
    (bcast_col_apply hb1 (wrapIdx hb0 idx) e).trans h4
  have hge : IntOp.cmpi .sge (idx (ix1 e)) 0#32 = 1#1 :=
    (sge_iff_toNat (a := idx (ix1 e)) (b := 0#32) h31 (by decide)).mpr (Nat.zero_le _)
  have hle : IntOp.cmpi .sle (idx (ix1 e)) 99999#32 = 1#1 :=
    (sle_iff_toNat (a := idx (ix1 e)) (b := 99999#32) h31 (by decide)).mpr (by show (idx (ix1 e)).toNat ≤ 99999; omega)
  have hm : inRange hb0 hb1 hb2 hb3 hb4 hr h0 idx (ix1 e) = 1#1 := by
    unfold inRange
    rw [reduce_andi_col hr hR h0 _ _ e]
    show IntOp.andi (IntOp.andi (IntOp.cmpi .sge (idxCol hb0 hb1 idx (ix2 e (0 : Fin 1))) 0#32)
      (IntOp.cmpi .sle (idxCol hb0 hb1 idx (ix2 e (0 : Fin 1))) 99999#32)) 1#1 = 1#1
    rw [h5, hge, hle]
    decide
  have hti : (idx (ix1 e)).toInt = ((idx (ix1 e)).toNat : ℤ) := toInt_eq_toNat_of_lt h31
  have hg : Host.gather d nt (idxCol hb0 hb1 idx) (ix1 e) = nt (ix1 ⟨(idx (ix1 e)).toNat, he⟩) := by
    refine ((congrArg (Host.gather d nt (idxCol hb0 hb1 idx)) (ofFin_eq_ix1 e).symm).trans
      (gather_take d hcoll hob hsim hivd nt (idxCol hb0 hb1 idx) e (by decide))).trans ?_
    refine congrArg nt ((ofFin_eq_ix1 _).trans (congrArg (fun q : Fin 100000 => ix1 q) (Fin.ext ?_)))
    show min ((idxCol hb0 hb1 idx) (ixP e)).toInt.toNat (100000 - 1) = (idx (ix1 e)).toNat
    rw [ixP_eq_ix2, h5, hti]
    omega
  show Scalar.select (inRange hb0 hb1 hb2 hb3 hb4 hr h0 idx (ix1 e))
    (Host.gather d nt (idxCol hb0 hb1 idx) (ix1 e)) (2147483648#32) = _
  rw [hm, select_one, hg]

end Take

/-- The table at two equal words read as positions. -/
theorem nt_at_congr (nt : IVec S100000 32) {a b : BitVec 32} (hab : a = b) (ha : a.toNat < 100000)
    (hb : b.toNat < 100000) : nt (ix1 ⟨a.toNat, ha⟩) = nt (ix1 ⟨b.toNat, hb⟩) := by
  subst hab; rfl

/-! ## The two rows of the edge list, and the combined word -/

/-- Row q of the edge list, cut out and flattened, reads at e the list at (q, e). -/
theorem edgeRow_apply (off : Fin S2x3200000.rank → Nat) (q : Fin 2) (hq0 : off 0 = q.val) (hq1 : off 1 = 0)
    (hs : S2x3200000.Slices off S1x3200000) (hc : S1x3200000.ShapeCasts S3200000)
    (x : IVec S2x3200000 32) (e : Fin 3200000) :
    shapeCast S3200000 (extractStridedSlice S1x3200000 off x hs) hc (ix1 e) = x (ix2 q e) := by
  refine (shapeCast_apply _ hc (ix1 e) (ix2 (0 : Fin 1) e) ?_).trans ?_
  · rw [Shape.rowMajor_val_two, Shape.rowMajor_val_one]
    show (0 : Nat) * 3200000 + e.val = e.val
    omega
  · refine extractStridedSlice_apply off x hs (ix2 (0 : Fin 1) e) (ix2 q e) ?_
    intro a
    match a with
    | ⟨0, _⟩ => show q.val = off 0 + 0; omega
    | ⟨1, _⟩ => show e.val = off 1 + e.val; omega

/-- The combined word of every edge, eight times the first look-up plus the second, laid out 128 to a row. -/
def combFn (hb0 : S_.BroadcastsInDim S3200000 (![] : Fin 0 → Fin S3200000.rank))
    (hsc : S3200000.ShapeCasts S25000x128) (a b : IVec S3200000 32) : IVec S25000x128 32 :=
  shapeCast S25000x128 (addi (muli a (broadcastInDim S3200000 ![] hb0 (constantI S_ 32 8#32))) b) hsc

/-- Row r, lane l of the lane-dense layout is edge 128 r + l. -/
theorem combFn_apply (hb0 : S_.BroadcastsInDim S3200000 (![] : Fin 0 → Fin S3200000.rank))
    (hsc : S3200000.ShapeCasts S25000x128) (a b : IVec S3200000 32) (r : Fin 25000) (l : Fin 128)
    (hE : 128 * r.val + l.val < 3200000) :
    combFn hb0 hsc a b (ix2 r l)
      = IntOp.addi (IntOp.muli (a (ix1 ⟨128 * r.val + l.val, hE⟩)) 8#32) (b (ix1 ⟨128 * r.val + l.val, hE⟩)) := by
  refine (shapeCast_apply _ hsc (ix2 r l) (ix1 ⟨128 * r.val + l.val, hE⟩) ?_).trans rfl
  rw [Shape.rowMajor_val_one, Shape.rowMajor_val_two]
  show 128 * r.val + l.val = r.val * 128 + l.val
  omega

/-- Eight times a word below 8 plus a word below 8 does not wrap. -/
theorem word8_toNat (a b : BitVec 32) (ha : a.toNat < 8) (hb : b.toNat < 8) :
    (IntOp.addi (IntOp.muli a 8#32) b).toNat = 8 * a.toNat + b.toNat := by
  show (a * 8#32 + b).toNat = _
  rw [BitVec.toNat_add, BitVec.toNat_mul]
  have h8 : (8#32 : BitVec 32).toNat = 8 := rfl
  rw [h8]
  omega

/-! ## The 64 pair numbers: quotient and remainder by 8, the two indicator encodings, side by side -/

/-- The sign of a word, as a word. -/
def sgnW (x : BitVec 32) : BitVec 32 := if x = 0 then 0 else if x.msb then -1 else 1

/-- jnp's floor division by 8 on one word: the truncated quotient, one less when the signs differ and the
    remainder is not zero. -/
def fdivW (x : BitVec 32) : BitVec 32 :=
  Scalar.select
    (IntOp.andi (IntOp.cmpi .ne (sgnW x) (sgnW 8#32)) (IntOp.cmpi .ne (IntOp.remsi .host x 8#32) 0#32))
    (IntOp.subi (IntOp.divsi .host x 8#32) 1#32) (IntOp.divsi .host x 8#32)

/-- On 0 … 63 it is the plain quotient: the correction never fires. -/
theorem fdivW_small : ∀ v : Fin 64, fdivW (BitVec.ofNat 32 v.val) = BitVec.ofNat 32 (v.val / 8) := by
  decide

/-- The divisor jnp's remainder uses: 8, or 1 were it zero. -/
def divisorW : BitVec 32 := Scalar.select (IntOp.cmpi .eq 8#32 0#32) 1#32 8#32

/-- jnp's remainder by 8 on one word: the truncated remainder, the divisor added when it is not zero and its sign
    differs from the divisor's. -/
def fremW (x : BitVec 32) : BitVec 32 :=
  Scalar.select
    (IntOp.andi
      (IntOp.cmpi .ne (IntOp.cmpi .slt (IntOp.remsi .host x divisorW) 0#32) (IntOp.cmpi .slt divisorW 0#32))
      (IntOp.cmpi .ne (IntOp.remsi .host x divisorW) 0#32))
    (IntOp.addi (IntOp.remsi .host x divisorW) divisorW) (IntOp.remsi .host x divisorW)

/-- On 0 … 63 it is the plain remainder. -/
theorem fremW_small : ∀ v : Fin 64, fremW (BitVec.ofNat 32 v.val) = BitVec.ofNat 32 (v.val % 8) := by
  decide

section Table
variable (hbS : S_.BroadcastsInDim S64 (![] : Fin 0 → Fin S64.rank))
  (hc1 : S64.BroadcastsInDim S64x1 (![0] : Fin 1 → Fin S64x1.rank))
  (hc2 : S64x1.BroadcastsInDim S64x8 (![0, 1] : Fin 2 → Fin S64x8.rank))
  (hc3 : S1x8.BroadcastsInDim S64x8 (![0, 1] : Fin 2 → Fin S64x8.rank))
  (hcat : Shape.Concatenates [S64x8, S64x8] S64x16 1)

/-- Floor division of 64 words by a scalar, as the program spells it. -/
def floorDivFn (x : IVec S64 32) (y : IVec S_ 32) : IVec S64 32 :=
  select
    (andi (cmpi .ne (signi x) (broadcastInDim S64 ![] hbS (signi y)))
      (cmpi .ne (Host.remsi x (broadcastInDim S64 ![] hbS y)) (broadcastInDim S64 ![] hbS (constantI S_ 32 0#32))))
    (subi (Host.divsi x (broadcastInDim S64 ![] hbS y)) (broadcastInDim S64 ![] hbS (constantI S_ 32 1#32)))
    (Host.divsi x (broadcastInDim S64 ![] hbS y))

/-- The scalar divisor of the remainder. -/
def divisorArr (y : IVec S_ 32) : IVec S_ 32 :=
  select (cmpi .eq y (constantI S_ 32 0#32)) (constantI S_ 32 1#32) y

/-- The remainder of 64 words by a scalar, as the program spells it. -/
def remainderFn (x : IVec S64 32) (y : IVec S_ 32) : IVec S64 32 :=
  select
    (andi
      (cmpi .ne
        (cmpi .slt (Host.remsi x (broadcastInDim S64 ![] hbS (divisorArr y))) (broadcastInDim S64 ![] hbS (constantI S_ 32 0#32)))
        (broadcastInDim S64 ![] hbS (cmpi .slt (divisorArr y) (constantI S_ 32 0#32))))
      (cmpi .ne (Host.remsi x (broadcastInDim S64 ![] hbS (divisorArr y))) (broadcastInDim S64 ![] hbS (constantI S_ 32 0#32))))
    (addi (Host.remsi x (broadcastInDim S64 ![] hbS (divisorArr y))) (broadcastInDim S64 ![] hbS (divisorArr y)))
    (Host.remsi x (broadcastInDim S64 ![] hbS (divisorArr y)))

/-- The first type word of pair number cc: cc / 8. -/
theorem floorDiv_iota_apply (cc : Fin 64) :
    floorDivFn hbS (iotaInDim S64 32 0) (constantI S_ 32 8#32) (ix1 cc) = BitVec.ofNat 32 (cc.val / 8) :=
  (show floorDivFn hbS (iotaInDim S64 32 0) (constantI S_ 32 8#32) (ix1 cc) = fdivW (BitVec.ofNat 32 cc.val) from rfl).trans
    (fdivW_small cc)

/-- The second type word of pair number cc: cc % 8. -/
theorem remainder_iota_apply (cc : Fin 64) :
    remainderFn hbS (iotaInDim S64 32 0) (constantI S_ 32 8#32) (ix1 cc) = BitVec.ofNat 32 (cc.val % 8) :=
  (show remainderFn hbS (iotaInDim S64 32 0) (constantI S_ 32 8#32) (ix1 cc) = fremW (BitVec.ofNat 32 cc.val) from rfl).trans
    (fremW_small cc)

/-- The indicator encoding of 64 words over 8 classes. -/
def oneHotFn (x : IVec S64 32) : FVec Ideal S64x8 .f32 :=
  uitofp .f32 (cmpi .eq (broadcastInDim S64x8 ![0, 1] hc2 (broadcastInDim S64x1 ![0] hc1 x))
    (broadcastInDim S64x8 ![0, 1] hc3 (iotaInDim S1x8 32 1)))

/-- Row cc, class k of the encoding: the indicator of "word cc is k". -/
theorem oneHotFn_apply (x : IVec S64 32) (cc : Fin 64) (k : Fin 8) :
    oneHotFn hc1 hc2 hc3 x (ix2 cc k) = Cert.Sheaf.ind (x (ix1 cc)) (BitVec.ofNat 32 k.val) := by
  have e1 : broadcastInDim S64x8 ![0, 1] hc2 (broadcastInDim S64x1 ![0] hc1 x) (ix2 cc k) = x (ix1 cc) :=
    (congrArg (broadcastInDim S64x8 ![0, 1] hc2 (broadcastInDim S64x1 ![0] hc1 x)) (ij_eq_ix2 cc k).symm).trans
      ((bcast_rows hc1 hc2 x cc k).trans (congrArg x (ofFin_eq_ix1 cc)))
  have e2 : broadcastInDim S64x8 ![0, 1] hc3 (iotaInDim S1x8 32 1) (ix2 cc k) = BitVec.ofNat 32 k.val :=
    (congrArg (broadcastInDim S64x8 ![0, 1] hc3 (iotaInDim S1x8 32 1)) (ij_eq_ix2 cc k).symm).trans
      ((bcast_of_row hc3 (iotaInDim S1x8 32 1) cc k).trans rfl)
  show FloatOps.uitofp .f32 (IntOp.cmpi .eq
      (broadcastInDim S64x8 ![0, 1] hc2 (broadcastInDim S64x1 ![0] hc1 x) (ix2 cc k))
      (broadcastInDim S64x8 ![0, 1] hc3 (iotaInDim S1x8 32 1) (ix2 cc k))) = _
  rw [e1, e2]
  rfl

/-- Two encodings side by side: sixteen columns. -/
def pairRowsFn (a b : FVec Ideal S64x8 .f32) : FVec Ideal S64x16 .f32 :=
  concatenate S64x16 1 [⟨S64x8, a⟩, ⟨S64x8, b⟩] hcat

/-- Columns 0 … 7 are the first encoding's, columns 8 … 15 the second's. -/
theorem pairRowsFn_apply (a b : FVec Ideal S64x8 .f32) (cc : Fin 64) (k : Fin 16) :
    pairRowsFn hcat a b (ix2 cc k)
      = if h : k.val < 8 then a (ix2 cc ⟨k.val, h⟩) else b (ix2 cc ⟨k.val - 8, by have := k.isLt; omega⟩) := by
  unfold pairRowsFn
  by_cases h : k.val < 8
  · rw [dif_pos h]
    refine concatenate_pair_apply_left (1 : Fin S64x16.rank) a b hcat (ix2 cc k) rfl (ix2 cc ⟨k.val, h⟩) ?_
    intro q
    match q with
    | ⟨0, _⟩ => rfl
    | ⟨1, _⟩ => rfl
  · rw [dif_neg h]
    refine concatenate_pair_apply_right (1 : Fin S64x16.rank) a b hcat (ix2 cc k) rfl rfl
      (ix2 cc ⟨k.val - 8, by have := k.isLt; omega⟩) ?_ ?_
    · intro q hq
      match q with
      | ⟨0, _⟩ => rfl
      | ⟨1, _⟩ => exact absurd rfl hq
    · show (k.val - 8) + 8 = k.val
      omega

end Table

/-! ## The arrays, stretch by stretch -/

section Wiring

variable (m : (ℓ : Loc nD τ sig) → Buf (Elt Ideal) ℓ) (c : Dev nD)

/-- the launch contents of the two integer arguments, at their literal types -/
def edgeArr : IVec S2x3200000 32 := m ((c.tc : Thread nD τ).loc main_arg1)
def ntArr : IVec S100000 32 := m ((c.tc : Thread nD τ).loc main_arg2)

/-- No operation of a stretch writes the buffer in hand: each operation's result buffer is another reference. -/
macro "stretch_keeps" : tactic =>
  `(tactic| (
    refine List.forall_iff_forall_mem.mp ?_
    simp only [hostOps0, hostOps0_1, hostOps0_2, hostOps0_3, hostOps0_4, hostOps0_5, hostOps0_6, hostOps0_7, hostOps0_8,
      hostOps0_9, hostOps0_10, hostOps0_11, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-! ### The edge list's rows and the node types -/

theorem K1_v1 : (K1 m c (Proc.devRef .tc main_v1) : IVec S3200000 32)
    = shapeCast S3200000 (extractStridedSlice S1x3200000 ![0, 0] (edgeArr m c) slices_S2x3200000_S1x3200000_0_0)
        shapeCasts_S1x3200000_S3200000 := by
  unfold K1 K0
  simp only [hostOps0]
  after_results
  all_goals rfl

theorem K1_v3 : (K1 m c (Proc.devRef .tc main_v3) : IVec S3200000 32)
    = shapeCast S3200000 (extractStridedSlice S1x3200000 ![1, 0] (edgeArr m c) slices_S2x3200000_S1x3200000_1_0)
        shapeCasts_S1x3200000_S3200000 := by
  unfold K1 K0
  simp only [hostOps0]
  after_results
  all_goals rfl

theorem K1_arg2 : (K1 m c (Proc.devRef .tc main_arg2) : IVec S100000 32) = ntArr m c := by
  unfold K1
  rw [after_of_forall_not_mem (b := Proc.devRef .tc main_arg2) _ _ (by stretch_keeps)]
  rfl

theorem K2_arg2 : (K2 m c (Proc.devRef .tc main_arg2) : IVec S100000 32) = ntArr m c := by
  unfold K2
  rw [after_of_forall_not_mem (b := Proc.devRef .tc main_arg2) _ _ (by stretch_keeps)]
  exact K1_arg2 m c

theorem K2_v3 : K2 m c (Proc.devRef .tc main_v3) = K1 m c (Proc.devRef .tc main_v3) := by
  unfold K2
  rw [after_of_forall_not_mem (b := Proc.devRef .tc main_v3) _ _ (by stretch_keeps)]

/-- The flattened first row at e is the edge's source node. -/
theorem v1_apply (e : Fin 3200000) :
    (K1 m c (Proc.devRef .tc main_v1) : IVec S3200000 32) (ix1 e) = edgeArr m c (ix2 (0 : Fin 2) e) := by
  rw [K1_v1]
  exact edgeRow_apply ![0, 0] 0 rfl rfl _ _ (edgeArr m c) e

/-- The flattened second row at e is the edge's target node. -/
theorem v3_apply (e : Fin 3200000) :
    (K2 m c (Proc.devRef .tc main_v3) : IVec S3200000 32) (ix1 e) = edgeArr m c (ix2 (1 : Fin 2) e) := by
  rw [K2_v3, K1_v3]
  exact edgeRow_apply ![1, 0] 1 rfl rfl _ _ (edgeArr m c) e

/-! ### The two look-ups -/

/-- Contents carried to a buffer's own type and back are the contents. -/
theorem ofBuf_toBuf {T : BufTy} {Val : EltTy → Type} (x : TRef sig T) (v : T.Contents Val) : x.ofBuf (x.toBuf v) = v := by
  obtain ⟨r, h, h2, h3⟩ := x
  subst h
  rfl

set_option maxHeartbeats 2000000 in
attribute [local irreducible] Host.reduce Host.gather in
theorem K2_v4 : (K2 m c (Proc.devRef .tc main_v4) : IVec S3200000 32)
    = takeFn gather_S100000_S3200000x1_S3200000_n_0_n_n_0_1_1 bcast_S_S3200000 bcast_S3200000_S3200000x1_0
        bcast_S_S3200000x1 bcast_S1_S1x1_1 bcast_S1x1_S3200000x1_0_1 reducesTo_S3200000x1_S3200000_d1 h_S_
        (K1 m c (Proc.devRef .tc main_arg2)) (K1 m c (Proc.devRef .tc main_v1)) := by
  unfold K2
  simp only [hostOps0_1]
  after_results_simp
  simp only [ofBuf_toBuf]
  rfl

theorem K3_v4 : K3 m c (Proc.devRef .tc main_v4) = K2 m c (Proc.devRef .tc main_v4) := by
  unfold K3
  rw [after_of_forall_not_mem (b := Proc.devRef .tc main_v4) _ _ (by stretch_keeps)]

set_option maxHeartbeats 2000000 in
attribute [local irreducible] Host.reduce Host.gather in
theorem K3_v5 : (K3 m c (Proc.devRef .tc main_v5) : IVec S3200000 32)
    = takeFn gather_S100000_S3200000x1_S3200000_n_0_n_n_0_1_1 bcast_S_S3200000 bcast_S3200000_S3200000x1_0
        bcast_S_S3200000x1 bcast_S1_S1x1_1 bcast_S1x1_S3200000x1_0_1 reducesTo_S3200000x1_S3200000_d1 h_S_
        (K2 m c (Proc.devRef .tc main_arg2)) (K2 m c (Proc.devRef .tc main_v3)) := by
  unfold K3
  simp only [hostOps0_2]
  after_results_simp
  simp only [ofBuf_toBuf]
  rfl

/-- The first look-up at e: the type of the edge's source node. -/
theorem v4_apply (hedge : ∀ (q : Fin 2) (e : Fin 3200000), (edgeArr m c (ix2 q e)).toNat < 100000) (e : Fin 3200000) :
    (K3 m c (Proc.devRef .tc main_v4) : IVec S3200000 32) (ix1 e)
      = ntArr m c (ix1 ⟨(edgeArr m c (ix2 (0 : Fin 2) e)).toNat, hedge 0 e⟩) := by
  have h1 := v1_apply m c e
  have he : ((K1 m c (Proc.devRef .tc main_v1) : IVec S3200000 32) (ix1 e)).toNat < 100000 := by
    rw [h1]; exact hedge 0 e
  rw [K3_v4, K2_v4, K1_arg2]
  refine (takeFn_apply _ _ _ _ _ _ _ _ rfl rfl rfl rfl (ntArr m c) _ e he).trans ?_
  exact nt_at_congr (ntArr m c) h1 he (hedge 0 e)

/-- The second look-up at e: the type of the edge's target node. -/
theorem v5_apply (hedge : ∀ (q : Fin 2) (e : Fin 3200000), (edgeArr m c (ix2 q e)).toNat < 100000) (e : Fin 3200000) :
    (K3 m c (Proc.devRef .tc main_v5) : IVec S3200000 32) (ix1 e)
      = ntArr m c (ix1 ⟨(edgeArr m c (ix2 (1 : Fin 2) e)).toNat, hedge 1 e⟩) := by
  have h3 := v3_apply m c e
  have he : ((K2 m c (Proc.devRef .tc main_v3) : IVec S3200000 32) (ix1 e)).toNat < 100000 := by
    rw [h3]; exact hedge 1 e
  rw [K3_v5, K2_arg2]
  refine (takeFn_apply _ _ _ _ _ _ _ _ rfl rfl rfl rfl (ntArr m c) _ e he).trans ?_
  exact nt_at_congr (ntArr m c) h3 he (hedge 1 e)

/-! ### The combined word -/

theorem K4_v9 : (K4 m c (Proc.devRef .tc main_v9) : IVec S25000x128 32)
    = combFn bcast_S_S3200000 shapeCasts_S3200000_S25000x128 (K3 m c (Proc.devRef .tc main_v4))
        (K3 m c (Proc.devRef .tc main_v5)) := by
  unfold K4
  simp only [hostOps0_3]
  after_results
  all_goals rfl

theorem K12_v9 : K12 m c (Proc.devRef .tc main_v9) = K4 m c (Proc.devRef .tc main_v9) := by
  unfold K12 K11 K10 K9 K8 K7 K6 K5
  rw [after_of_forall_not_mem (b := Proc.devRef .tc main_v9) _ _ (by stretch_keeps),
    after_of_forall_not_mem (b := Proc.devRef .tc main_v9) _ _ (by stretch_keeps),
    after_of_forall_not_mem (b := Proc.devRef .tc main_v9) _ _ (by stretch_keeps),
    after_of_forall_not_mem (b := Proc.devRef .tc main_v9) _ _ (by stretch_keeps),
    after_of_forall_not_mem (b := Proc.devRef .tc main_v9) _ _ (by stretch_keeps),
    after_of_forall_not_mem (b := Proc.devRef .tc main_v9) _ _ (by stretch_keeps),
    after_of_forall_not_mem (b := Proc.devRef .tc main_v9) _ _ (by stretch_keeps),
    after_of_forall_not_mem (b := Proc.devRef .tc main_v9) _ _ (by stretch_keeps)]

/-- the combined word of edge 128 r + l: eight times the source's type plus the target's, as numbers (edge indices in range and node types below 8). -/
theorem comb_apply (hedge : ∀ (q : Fin 2) (e : Fin 3200000), (edgeArr m c (ix2 q e)).toNat < 100000) (hnt : ∀ n : Fin 100000, (ntArr m c (ix1 n)).toNat < 8)
    (r : Fin 25000) (l : Fin 128) :
    (combArr m c (ix2 r l)).toNat
      = 8 * (ntArr m c (ix1 ⟨(edgeArr m c (ix2 (0 : Fin 2) ⟨128 * r.val + l.val, by omega⟩)).toNat, hedge 0 _⟩)).toNat
        + (ntArr m c (ix1 ⟨(edgeArr m c (ix2 (1 : Fin 2) ⟨128 * r.val + l.val, by omega⟩)).toNat, hedge 1 _⟩)).toNat := by
  have hE : 128 * r.val + l.val < 3200000 := by have := r.isLt; have := l.isLt; omega
  have h9 : combArr m c (ix2 r l)
      = IntOp.addi (IntOp.muli ((K3 m c (Proc.devRef .tc main_v4) : IVec S3200000 32) (ix1 ⟨128 * r.val + l.val, hE⟩)) 8#32)
          ((K3 m c (Proc.devRef .tc main_v5) : IVec S3200000 32) (ix1 ⟨128 * r.val + l.val, hE⟩)) := by
    unfold combArr
    rw [V_eq, K12_v9, K4_v9]
    exact combFn_apply _ _ _ _ r l hE
  rw [h9, v4_apply m c hedge ⟨128 * r.val + l.val, hE⟩, v5_apply m c hedge ⟨128 * r.val + l.val, hE⟩]
  exact word8_toNat _ _ (hnt _) (hnt _)

/-! ### The 64 pair rows -/

theorem K4_v10 : (K4 m c (Proc.devRef .tc main_v10) : IVec S64 32) = iotaInDim S64 32 0 := by
  unfold K4
  simp only [hostOps0_3]
  after_results
  all_goals rfl

theorem K4_c0 : (K4 m c (Proc.devRef .tc main_c_0) : IVec S_ 32) = constantI S_ 32 8#32 := by
  unfold K4
  simp only [hostOps0_3]
  after_results
  all_goals rfl

set_option maxHeartbeats 2000000 in
theorem K5_v11 : (K5 m c (Proc.devRef .tc main_v11) : IVec S64 32)
    = floorDivFn bcast_S_S64 (K4 m c (Proc.devRef .tc main_v10)) (K4 m c (Proc.devRef .tc main_c_0)) := by
  unfold K5
  simp only [hostOps0_4]
  after_results_simp
  simp only [TRef.toBuf, TRef.ofBuf, cast_cast, cast_eq]
  all_goals rfl

theorem K6_v10 : K6 m c (Proc.devRef .tc main_v10) = K4 m c (Proc.devRef .tc main_v10) := by
  unfold K6 K5
  rw [after_of_forall_not_mem (b := Proc.devRef .tc main_v10) _ _ (by stretch_keeps),
    after_of_forall_not_mem (b := Proc.devRef .tc main_v10) _ _ (by stretch_keeps)]

theorem K6_c1 : (K6 m c (Proc.devRef .tc main_c_1) : IVec S_ 32) = constantI S_ 32 8#32 := by
  unfold K6
  simp only [hostOps0_5]
  after_results
  all_goals rfl

theorem K7_v11 : K7 m c (Proc.devRef .tc main_v11) = K5 m c (Proc.devRef .tc main_v11) := by
  unfold K7 K6
  rw [after_of_forall_not_mem (b := Proc.devRef .tc main_v11) _ _ (by stretch_keeps),
    after_of_forall_not_mem (b := Proc.devRef .tc main_v11) _ _ (by stretch_keeps)]

set_option maxHeartbeats 2000000 in
theorem K7_v12 : (K7 m c (Proc.devRef .tc main_v12) : IVec S64 32)
    = remainderFn bcast_S_S64 (K6 m c (Proc.devRef .tc main_v10)) (K6 m c (Proc.devRef .tc main_c_1)) := by
  unfold K7
  simp only [hostOps0_6]
  after_results_simp
  simp only [TRef.toBuf, TRef.ofBuf, cast_cast, cast_eq]
  all_goals rfl

theorem K8_v12 : K8 m c (Proc.devRef .tc main_v12) = K7 m c (Proc.devRef .tc main_v12) := by
  unfold K8
  rw [after_of_forall_not_mem (b := Proc.devRef .tc main_v12) _ _ (by stretch_keeps)]

theorem K8_v13 : (K8 m c (Proc.devRef .tc main_v13) : FVec Ideal S64x8 .f32)
    = oneHotFn bcast_S64_S64x1_0 bcast_S64x1_S64x8_0_1 bcast_S1x8_S64x8_0_1 (K7 m c (Proc.devRef .tc main_v11)) := by
  unfold K8
  simp only [hostOps0_7]
  after_results
  all_goals rfl

theorem K9_v13 : K9 m c (Proc.devRef .tc main_v13) = K8 m c (Proc.devRef .tc main_v13) := by
  unfold K9
  rw [after_of_forall_not_mem (b := Proc.devRef .tc main_v13) _ _ (by stretch_keeps)]

theorem K9_v14 : (K9 m c (Proc.devRef .tc main_v14) : FVec Ideal S64x8 .f32)
    = oneHotFn bcast_S64_S64x1_0 bcast_S64x1_S64x8_0_1 bcast_S1x8_S64x8_0_1 (K8 m c (Proc.devRef .tc main_v12)) := by
  unfold K9
  simp only [hostOps0_8]
  after_results
  all_goals rfl

theorem K10_v15 : (K10 m c (Proc.devRef .tc main_v15) : FVec Ideal S64x16 .f32)
    = pairRowsFn concatenates_S64x8_S64x8_S64x16_d1 (K9 m c (Proc.devRef .tc main_v13)) (K9 m c (Proc.devRef .tc main_v14)) := by
  unfold K10
  simp only [hostOps0_9]
  after_results
  all_goals rfl

theorem K12_v15 : K12 m c (Proc.devRef .tc main_v15) = K10 m c (Proc.devRef .tc main_v15) := by
  unfold K12 K11
  rw [after_of_forall_not_mem (b := Proc.devRef .tc main_v15) _ _ (by stretch_keeps),
    after_of_forall_not_mem (b := Proc.devRef .tc main_v15) _ _ (by stretch_keeps)]

/-- The first type words of the 64 pair numbers. -/
theorem src_apply (cc : Fin 64) :
    (K7 m c (Proc.devRef .tc main_v11) : IVec S64 32) (ix1 cc) = BitVec.ofNat 32 (cc.val / 8) := by
  rw [K7_v11, K5_v11, K4_v10, K4_c0]
  exact floorDiv_iota_apply bcast_S_S64 cc

/-- The second type words of the 64 pair numbers. -/
theorem tgt_apply (cc : Fin 64) :
    (K8 m c (Proc.devRef .tc main_v12) : IVec S64 32) (ix1 cc) = BitVec.ofNat 32 (cc.val % 8) := by
  rw [K8_v12, K7_v12, K6_v10, K4_v10, K6_c1]
  exact remainder_iota_apply bcast_S_S64 cc

/-- row cc of the 64 pair rows is the pair row of the type words cc / 8 and cc % 8. -/
theorem hl_apply (cc : Fin 64) (k : Fin 16) :
    hlArr m c (ix2 cc k) = Cert.Sheaf.pairRow (BitVec.ofNat 32 (cc.val / 8)) (BitVec.ofNat 32 (cc.val % 8)) k := by
  have h15 : hlArr m c (ix2 cc k)
      = pairRowsFn concatenates_S64x8_S64x8_S64x16_d1
          (oneHotFn bcast_S64_S64x1_0 bcast_S64x1_S64x8_0_1 bcast_S1x8_S64x8_0_1 (K7 m c (Proc.devRef .tc main_v11)))
          (oneHotFn bcast_S64_S64x1_0 bcast_S64x1_S64x8_0_1 bcast_S1x8_S64x8_0_1 (K8 m c (Proc.devRef .tc main_v12)))
          (ix2 cc k) := by
    unfold hlArr
    rw [V_eq, K12_v15, K10_v15, K9_v13, K8_v13, K9_v14]
  rw [h15, pairRowsFn_apply]
  unfold Cert.Sheaf.pairRow
  by_cases h : k.val < 8
  · rw [dif_pos h, if_pos h, oneHotFn_apply, src_apply]
  · rw [dif_neg h, if_neg h, oneHotFn_apply, tgt_apply]

end Wiring

end Cert.Sheaf.KFront

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.LutChain.lean ====
/-
  The 64-row table.

  The kernel program builds, before its region, a table with one row for each of the 64 pairs of node types: the
  64 × 16 array of pair rows goes through the per-row map (centre and scale each row, an affine map, a linear layer
  and its positive part, a second linear layer read as a 4 × 4 matrix, a softmax along each matrix row, the identity
  minus that), all 64 rows at once. This module reads that computation at an entry: row `p`, column `4a + b` of
  the table is the specification's per-row map of row `p` of the pair rows, at `(a, b)`. No step mixes two rows:
  the reductions run along a row (or along a row of a row's matrix), the products contract a row with a weight
  matrix, and every broadcast repeats a per-row or a per-column quantity.
-/
import proofs.«400568_j31842887533263_3_alg».proof.Proof.KV
import proofs.«400568_j31842887533263_3_alg».proof.Proof.Spec
import proofs.«400568_j31842887533263_3_alg».proof.Proof.LibPlainDot
import Idealize.ShloMosaic.Lib.ValueIdx
import Idealize.ShloMosaic.Lib.Pipeline.Value
import Idealize.ShloMosaic.Lib.StableHlo.Run
import Idealize.ShloMosaic.PureOps.Ideal.Laws
import Idealize.ShloMosaic.PureOps.Reduce

set_option maxRecDepth 16384

noncomputable section

namespace Cert.Sheaf.Lut

open Cert.KernelIdeal Cert.KernelIdeal.Gen Idealize.ShloMosaic Idealize.ShloMosaic.ValueIdx

/-! ## Layout operations of the table's chain, read at explicit coordinates -/

section Layout
variable {α : Type}

/-- A scalar broadcast to any shape reads the scalar. -/
theorem bc_scalar {t : Shape} (bc : S_.BroadcastsInDim t (![] : Fin 0 → Fin t.rank)) (v : S_.Idx → α) (j : t.Idx) :
    broadcastInDim t ![] bc v j = v ix0 :=
  broadcastInDim_apply _ bc v j ix0 (fun a => a.elim0)

/-- [64] → [64,1] along axis 0. -/
theorem bc_64_64x1 (bc : S64.BroadcastsInDim S64x1 (![0] : Fin 1 → Fin S64x1.rank)) (v : S64.Idx → α) (p : Fin 64) (z : Fin 1) :
    broadcastInDim S64x1 ![0] bc v (ix2 p z) = v (ix1 p) :=
  broadcastInDim_apply _ bc v (ix2 p z) (ix1 p) (fun a => match a with
    | ⟨0, _⟩ => by show p.val = if (64 : Nat) = 1 then 0 else p.val; rw [if_neg (by decide)])

/-- [64,1] → [64,16]: the column repeated along the row. -/
theorem bc_64x1_64x16 (bc : S64x1.BroadcastsInDim S64x16 (![0, 1] : Fin 2 → Fin S64x16.rank)) (v : S64x1.Idx → α) (p : Fin 64) (k : Fin 16) :
    broadcastInDim S64x16 ![0, 1] bc v (ix2 p k) = v (ix2 p (0 : Fin 1)) :=
  broadcastInDim_apply _ bc v (ix2 p k) (ix2 p (0 : Fin 1)) (fun a => match a with
    | ⟨0, _⟩ => by show p.val = if (64 : Nat) = 1 then 0 else p.val; rw [if_neg (by decide)]
    | ⟨1, _⟩ => by show 0 = if (1 : Nat) = 1 then 0 else k.val; rw [if_pos rfl])

/-- [16] → [1,16] along axis 1. -/
theorem bc_16_1x16 (bc : S16.BroadcastsInDim S1x16 (![1] : Fin 1 → Fin S1x16.rank)) (v : S16.Idx → α) (z : Fin 1) (k : Fin 16) :
    broadcastInDim S1x16 ![1] bc v (ix2 z k) = v (ix1 k) :=
  broadcastInDim_apply _ bc v (ix2 z k) (ix1 k) (fun a => match a with
    | ⟨0, _⟩ => by show k.val = if (16 : Nat) = 1 then 0 else k.val; rw [if_neg (by decide)])

/-- [1,16] → [64,16]: the row repeated down the column. -/
theorem bc_1x16_64x16 (bc : S1x16.BroadcastsInDim S64x16 (![0, 1] : Fin 2 → Fin S64x16.rank)) (v : S1x16.Idx → α) (p : Fin 64) (k : Fin 16) :
    broadcastInDim S64x16 ![0, 1] bc v (ix2 p k) = v (ix2 (0 : Fin 1) k) :=
  broadcastInDim_apply _ bc v (ix2 p k) (ix2 (0 : Fin 1) k) (fun a => match a with
    | ⟨0, _⟩ => by show 0 = if (1 : Nat) = 1 then 0 else p.val; rw [if_pos rfl]
    | ⟨1, _⟩ => by show k.val = if (16 : Nat) = 1 then 0 else k.val; rw [if_neg (by decide)])

/-- [64] → [1,64] along axis 1. -/
theorem bc_64_1x64 (bc : S64.BroadcastsInDim S1x64 (![1] : Fin 1 → Fin S1x64.rank)) (v : S64.Idx → α) (z : Fin 1) (j : Fin 64) :
    broadcastInDim S1x64 ![1] bc v (ix2 z j) = v (ix1 j) :=
  broadcastInDim_apply _ bc v (ix2 z j) (ix1 j) (fun a => match a with
    | ⟨0, _⟩ => by show j.val = if (64 : Nat) = 1 then 0 else j.val; rw [if_neg (by decide)])

/-- [1,64] → [64,64]: the row repeated down the column. -/
theorem bc_1x64_64x64 (bc : S1x64.BroadcastsInDim S64x64 (![0, 1] : Fin 2 → Fin S64x64.rank)) (v : S1x64.Idx → α) (p j : Fin 64) :
    broadcastInDim S64x64 ![0, 1] bc v (ix2 p j) = v (ix2 (0 : Fin 1) j) :=
  broadcastInDim_apply _ bc v (ix2 p j) (ix2 (0 : Fin 1) j) (fun a => match a with
    | ⟨0, _⟩ => by show 0 = if (1 : Nat) = 1 then 0 else p.val; rw [if_pos rfl]
    | ⟨1, _⟩ => by show j.val = if (64 : Nat) = 1 then 0 else j.val; rw [if_neg (by decide)])

/-- [64,4] → [64,4,1] along axes 0 and 1. -/
theorem bc_64x4_64x4x1 (bc : S64x4.BroadcastsInDim S64x4x1 (![0, 1] : Fin 2 → Fin S64x4x1.rank)) (v : S64x4.Idx → α) (p : Fin 64) (a : Fin 4) (z : Fin 1) :
    broadcastInDim S64x4x1 ![0, 1] bc v (ix3 p a z) = v (ix2 p a) :=
  broadcastInDim_apply _ bc v (ix3 p a z) (ix2 p a) (fun d => match d with
    | ⟨0, _⟩ => by show p.val = if (64 : Nat) = 1 then 0 else p.val; rw [if_neg (by decide)]
    | ⟨1, _⟩ => by show a.val = if (4 : Nat) = 1 then 0 else a.val; rw [if_neg (by decide)])

/-- [64,4,1] → [64,4,4]: the last axis repeated. -/
theorem bc_64x4x1_64x4x4 (bc : S64x4x1.BroadcastsInDim S64x4x4 (![0, 1, 2] : Fin 3 → Fin S64x4x4.rank)) (v : S64x4x1.Idx → α) (p : Fin 64) (a b : Fin 4) :
    broadcastInDim S64x4x4 ![0, 1, 2] bc v (ix3 p a b) = v (ix3 p a (0 : Fin 1)) :=
  broadcastInDim_apply _ bc v (ix3 p a b) (ix3 p a (0 : Fin 1)) (fun d => match d with
    | ⟨0, _⟩ => by show p.val = if (64 : Nat) = 1 then 0 else p.val; rw [if_neg (by decide)]
    | ⟨1, _⟩ => by show a.val = if (4 : Nat) = 1 then 0 else a.val; rw [if_neg (by decide)]
    | ⟨2, _⟩ => by show 0 = if (1 : Nat) = 1 then 0 else b.val; rw [if_pos rfl])

/-- [4,4] → [1,4,4] along axes 1 and 2. -/
theorem bc_4x4_1x4x4 (bc : S4x4.BroadcastsInDim S1x4x4 (![1, 2] : Fin 2 → Fin S1x4x4.rank)) (v : S4x4.Idx → α) (z : Fin 1) (a b : Fin 4) :
    broadcastInDim S1x4x4 ![1, 2] bc v (ix3 z a b) = v (ix2 a b) :=
  broadcastInDim_apply _ bc v (ix3 z a b) (ix2 a b) (fun d => match d with
    | ⟨0, _⟩ => by show a.val = if (4 : Nat) = 1 then 0 else a.val; rw [if_neg (by decide)]
    | ⟨1, _⟩ => by show b.val = if (4 : Nat) = 1 then 0 else b.val; rw [if_neg (by decide)])

/-- [1,4,4] → [64,4,4]: the matrix repeated along the leading axis. -/
theorem bc_1x4x4_64x4x4 (bc : S1x4x4.BroadcastsInDim S64x4x4 (![0, 1, 2] : Fin 3 → Fin S64x4x4.rank)) (v : S1x4x4.Idx → α) (p : Fin 64) (a b : Fin 4) :
    broadcastInDim S64x4x4 ![0, 1, 2] bc v (ix3 p a b) = v (ix3 (0 : Fin 1) a b) :=
  broadcastInDim_apply _ bc v (ix3 p a b) (ix3 (0 : Fin 1) a b) (fun d => match d with
    | ⟨0, _⟩ => by show 0 = if (1 : Nat) = 1 then 0 else p.val; rw [if_pos rfl]
    | ⟨1, _⟩ => by show a.val = if (4 : Nat) = 1 then 0 else a.val; rw [if_neg (by decide)]
    | ⟨2, _⟩ => by show b.val = if (4 : Nat) = 1 then 0 else b.val; rw [if_neg (by decide)])

/-- The reshape [64,16] → [64,4,4] at (p, a, b) reads column 4a+b of row p. -/
theorem cast_64x16_64x4x4 (sc : S64x16.ShapeCasts S64x4x4) (x : S64x16.Idx → α) (p : Fin 64) (a b : Fin 4) :
    shapeCast S64x4x4 x sc (ix3 p a b) = x (ix2 p (⟨4 * a.val + b.val, by omega⟩ : Fin 16)) :=
  shapeCast_apply x sc (ix3 p a b) (ix2 p (⟨4 * a.val + b.val, by omega⟩ : Fin 16))
    (by rewrite [Shape.rowMajor_val_two, Shape.rowMajor_val_three]
        show p.val * 16 + (4 * a.val + b.val) = (p.val * 4 + a.val) * 4 + b.val
        omega)

/-- The reshape [64,4,4] → [64,16] at (p, 4a+b) reads entry (a, b) of matrix p. -/
theorem cast_64x4x4_64x16 (sc : S64x4x4.ShapeCasts S64x16) (x : S64x4x4.Idx → α) (p : Fin 64) (a b : Fin 4) :
    shapeCast S64x16 x sc (ix2 p (⟨4 * a.val + b.val, by omega⟩ : Fin 16)) = x (ix3 p a b) :=
  shapeCast_apply x sc (ix2 p (⟨4 * a.val + b.val, by omega⟩ : Fin 16)) (ix3 p a b)
    (by rewrite [Shape.rowMajor_val_three, Shape.rowMajor_val_two]
        show (p.val * 4 + a.val) * 4 + b.val = p.val * 16 + (4 * a.val + b.val)
        omega)

end Layout

/-! ## Pointwise operations in the spelling the specification uses -/

section Pointwise
variable {s : Shape}

theorem hdivf_at (x y : FVec Ideal s .f32) (i : s.Idx) : Host.divf x y i = FloatOps.hostDivf (x i) (y i) := rfl
theorem hrsqrt_at (x : FVec Ideal s .f32) (i : s.Idx) : Host.rsqrt x i = FloatOps.hostUnary .rsqrt (x i) := rfl
theorem hexp_at (x : FVec Ideal s .f32) (i : s.Idx) : Host.exp x i = FloatOps.hostUnary .exp (x i) := rfl
theorem subf_at (x y : FVec Ideal s .f32) (i : s.Idx) : subf x y i = FloatOps.subf (x i) (y i) := rfl
theorem mulf_at (x y : FVec Ideal s .f32) (i : s.Idx) : mulf x y i = FloatOps.mulf (x i) (y i) := rfl
theorem addf_at (x y : FVec Ideal s .f32) (i : s.Idx) : addf x y i = FloatOps.addf (x i) (y i) := rfl
theorem maximumf_at (x y : FVec Ideal s .f32) (i : s.Idx) : maximumf x y i = FloatOps.maximumf (x i) (y i) := rfl
theorem const_at (w : BitVec 32) (i : s.Idx) : constant (F := Ideal) s .f32 w i = FloatOps.ofBits .f32 w := rfl

end Pointwise

/-! ## Reductions and products of the chain, read at explicit coordinates -/

/-- A row sum of a [64,16] array: the initial value plus the sixteen entries of the row. -/
theorem sum_64x16 (red : S64x16.ReducesTo [1] S64) (hu : 0 < S_.numel) (x : FVec Ideal S64x16 .f32) (init : FVec Ideal S_ .f32)
    (p : Fin 64) :
    Host.reduceAdd (F := Ideal) x init red hu (ix1 p) = init ix0 + ∑ k : Fin 16, x (ix2 p k) := by
  simp only [Host.reduceAdd, Ideal.hostReduceAdd_def]
  rw [Ideal.hostReduceAdd_single red (by decide), show init (Shape.Idx.first hu) = init ix0 from congrArg init (eq_ix0 _)]
  refine congrArg (_ + ·) (Finset.sum_congr rfl fun k _ => ?_)
  exact congrArg x (funext fun d => Fin.ext (by match d with | ⟨0, _⟩ => rfl | ⟨1, _⟩ => rfl))

/-- A sum along the last axis of a [64,4,4] array: the initial value plus the four entries of the matrix row. -/
theorem sum_64x4x4 (red : S64x4x4.ReducesTo [2] S64x4) (hu : 0 < S_.numel) (x : FVec Ideal S64x4x4 .f32) (init : FVec Ideal S_ .f32)
    (p : Fin 64) (a : Fin 4) :
    Host.reduceAdd (F := Ideal) x init red hu (ix2 p a) = init ix0 + ∑ b : Fin 4, x (ix3 p a b) := by
  simp only [Host.reduceAdd, Ideal.hostReduceAdd_def]
  rw [Ideal.hostReduceAdd_single red (by decide), show init (Shape.Idx.first hu) = init ix0 from congrArg init (eq_ix0 _)]
  refine congrArg (_ + ·) (Finset.sum_congr rfl fun b _ => ?_)
  exact congrArg x (funext fun d => Fin.ext (by match d with | ⟨0, _⟩ => rfl | ⟨1, _⟩ => rfl | ⟨2, _⟩ => rfl))

/-- A maximum along the last axis of a [64,4,4] array: the fold of the maximum, from the initial value, over the four
    entries of the matrix row. -/
theorem max_64x4x4 (red : S64x4x4.ReducesTo [2] S64x4) (hu : 0 < S_.numel) (x : FVec Ideal S64x4x4 .f32) (init : FVec Ideal S_ .f32)
    (p : Fin 64) (a : Fin 4) :
    Host.reduce (FloatOps.maximumf (F := Ideal) (φ := .f32)) x init red hu (ix2 p a)
      = (Finset.univ : Finset (Fin 4)).fold (FloatOps.maximumf (F := Ideal) (φ := .f32)) (init ix0) (fun b => x (ix3 p a b)) := by
  have h : S64x4x4.Reduces [2] S64x4 := by decide
  refine (Host.reduce_eq_fold_single (FloatOps.maximumf (F := Ideal) (φ := .f32)) x init red h hu (ix2 p a)).trans ?_
  rw [show init (Shape.Idx.first hu) = init ix0 from congrArg init (eq_ix0 _)]
  exact Finset.fold_congr (fun b _ => congrArg x (funext fun d => Fin.ext (by
    match d with | ⟨0, _⟩ => rfl | ⟨1, _⟩ => rfl | ⟨2, _⟩ => rfl)))

/-- The first linear layer's product at an entry. -/
theorem dot1_at (l : FVec Ideal S64x16 .f32) (r : FVec Ideal S16x64 .f32) (p j : Fin 64) :
    Host.dotGeneral (F := Ideal) dot_S64x16_S16x64_S64x64_1_0_0_1_n_n none l r (ix2 p j) = ∑ k : Fin 16, l (ix2 p k) * r (ix2 k j) :=
  Cert.Lib.PlainDot.dotGeneral_apply (M := 64) (K := 16) (N := 64) none .single l r p j

/-- The second linear layer's product at an entry. -/
theorem dot2_at (l : FVec Ideal S64x64 .f32) (r : FVec Ideal S64x16 .f32) (p : Fin 64) (o : Fin 16) :
    Host.dotGeneral (F := Ideal) dot_S64x64_S64x16_S64x16_1_0_0_1_n_n none l r (ix2 p o) = ∑ j : Fin 64, l (ix2 p j) * r (ix2 j o) :=
  Cert.Lib.PlainDot.dotGeneral_apply (M := 64) (K := 64) (N := 16) none .single l r p o

/-! ## The chain's stages as arrays

Each definition is one named value of the table's computation, as a function of the 64 × 16 array of pair rows and
the six weight arrays: the row means and variances (kept as columns), the normalised rows after the affine map, the
first linear layer, its positive part, the second linear layer read as 64 matrices of 4 × 4, the softmax along each
matrix row, and the identity matrix minus that, flattened back to 64 × 16. -/

/-- The row means, as a column. -/
def meanA (hl : FVec Ideal S64x16 .f32) : FVec Ideal S64x1 .f32 :=
  Host.divf
    (broadcastInDim S64x1 ![0] bcast_S64_S64x1_0
      (Host.reduceAdd (F := Ideal) hl (constant (F := Ideal) S_ .f32 0x00000000#32) reducesTo_S64x16_S64_d1 h_S_))
    (broadcastInDim S64x1 ![] bcast_S_S64x1 (constant (F := Ideal) S_ .f32 0x41800000#32))

/-- The deviations from the row means. -/
def devA (hl : FVec Ideal S64x16 .f32) : FVec Ideal S64x16 .f32 :=
  subf hl (broadcastInDim S64x16 ![0, 1] bcast_S64x1_S64x16_0_1 (meanA hl))

/-- The row variances, as a column. -/
def varA (hl : FVec Ideal S64x16 .f32) : FVec Ideal S64x1 .f32 :=
  Host.divf
    (broadcastInDim S64x1 ![0] bcast_S64_S64x1_0
      (Host.reduceAdd (F := Ideal) (mulf (devA hl) (devA hl)) (constant (F := Ideal) S_ .f32 0x00000000#32) reducesTo_S64x16_S64_d1 h_S_))
    (broadcastInDim S64x1 ![] bcast_S_S64x1 (constant (F := Ideal) S_ .f32 0x41800000#32))

/-- The reciprocal square roots of the shifted variances, as a column. -/
def rstdA (hl : FVec Ideal S64x16 .f32) : FVec Ideal S64x1 .f32 :=
  Host.rsqrt (addf (varA hl) (broadcastInDim S64x1 ![] bcast_S_S64x1 (constant (F := Ideal) S_ .f32 0x3727C5AC#32)))

/-- The normalised rows after the affine map. -/
def hnA (hl : FVec Ideal S64x16 .f32) (γ β : FVec Ideal S16 .f32) : FVec Ideal S64x16 .f32 :=
  addf
    (mulf (mulf (devA hl) (broadcastInDim S64x16 ![0, 1] bcast_S64x1_S64x16_0_1 (rstdA hl)))
      (broadcastInDim S64x16 ![0, 1] bcast_S1x16_S64x16_0_1 (broadcastInDim S1x16 ![1] bcast_S16_S1x16_1 γ)))
    (broadcastInDim S64x16 ![0, 1] bcast_S1x16_S64x16_0_1 (broadcastInDim S1x16 ![1] bcast_S16_S1x16_1 β))

/-- The first linear layer, before the positive part. -/
def preA (hl : FVec Ideal S64x16 .f32) (γ β : FVec Ideal S16 .f32) (W1 : FVec Ideal S16x64 .f32) (b1 : FVec Ideal S64 .f32) :
    FVec Ideal S64x64 .f32 :=
  addf (Host.dotGeneral (F := Ideal) dot_S64x16_S16x64_S64x64_1_0_0_1_n_n none (hnA hl γ β) W1)
    (broadcastInDim S64x64 ![0, 1] bcast_S1x64_S64x64_0_1 (broadcastInDim S1x64 ![1] bcast_S64_S1x64_1 b1))

/-- The positive part. -/
def hidA (x : FVec Ideal S64x64 .f32) : FVec Ideal S64x64 .f32 :=
  maximumf x (broadcastInDim S64x64 ![] bcast_S_S64x64 (constant (F := Ideal) S_ .f32 0x00000000#32))

/-- The second linear layer, read as 64 matrices of 4 × 4. -/
def logitA (h1 : FVec Ideal S64x64 .f32) (W2 : FVec Ideal S64x16 .f32) (b2 : FVec Ideal S16 .f32) : FVec Ideal S64x4x4 .f32 :=
  shapeCast S64x4x4
    (addf (Host.dotGeneral (F := Ideal) dot_S64x64_S64x16_S64x16_1_0_0_1_n_n none h1 W2)
      (broadcastInDim S64x16 ![0, 1] bcast_S1x16_S64x16_0_1 (broadcastInDim S1x16 ![1] bcast_S16_S1x16_1 b2)))
    shapeCasts_S64x16_S64x4x4

/-- The matrix rows' maxima. -/
def rowmaxA (L : FVec Ideal S64x4x4 .f32) : FVec Ideal S64x4 .f32 :=
  maximumf (broadcastInDim S64x4 ![] bcast_S_S64x4 (constant (F := Ideal) S_ .f32 0xFF800000#32))
    (Host.reduce (FloatOps.maximumf (F := Ideal) (φ := .f32)) L (constant (F := Ideal) S_ .f32 0xFF800000#32) reducesTo_S64x4x4_S64x4_d2 h_S_)

/-- The shifted exponentials. -/
def exA (L : FVec Ideal S64x4x4 .f32) : FVec Ideal S64x4x4 .f32 :=
  Host.exp (subf L (broadcastInDim S64x4x4 ![0, 1, 2] bcast_S64x4x1_S64x4x4_0_1_2
    (broadcastInDim S64x4x1 ![0, 1] bcast_S64x4_S64x4x1_0_1 (rowmaxA L))))

/-- Their sums along the matrix rows. -/
def denA (L : FVec Ideal S64x4x4 .f32) : FVec Ideal S64x4 .f32 :=
  Host.reduceAdd (F := Ideal) (exA L) (constant (F := Ideal) S_ .f32 0x00000000#32) reducesTo_S64x4x4_S64x4_d2 h_S_

/-- The softmax along the matrix rows. -/
def smA (L : FVec Ideal S64x4x4 .f32) : FVec Ideal S64x4x4 .f32 :=
  Host.divf (exA L) (broadcastInDim S64x4x4 ![0, 1, 2] bcast_S64x4x1_S64x4x4_0_1_2
    (broadcastInDim S64x4x1 ![0, 1] bcast_S64x4_S64x4x1_0_1 (denA L)))

/-- The identity matrix, repeated 64 times. -/
def eyeA : FVec Ideal S64x4x4 .f32 :=
  broadcastInDim S64x4x4 ![0, 1, 2] bcast_S1x4x4_S64x4x4_0_1_2 (broadcastInDim S1x4x4 ![1, 2] bcast_S4x4_S1x4x4_1_2
    (uitofp (F := Ideal) .f32 (cmpi .eq (addi (iotaInDim S4x4 32 0) (broadcastInDim S4x4 ![] bcast_S_S4x4 (constantI S_ 32 0#32)))
      (iotaInDim S4x4 32 1))))

/-- The identity minus the softmax, flattened to 64 × 16. -/
def tabA (L : FVec Ideal S64x4x4 .f32) : FVec Ideal S64x16 .f32 :=
  shapeCast S64x16 (subf (eyeA) (smA L)) shapeCasts_S64x4x4_S64x16

/-- The whole table as a function of the pair rows and the weights. -/
def tableOf (hl : FVec Ideal S64x16 .f32) (γ β : FVec Ideal S16 .f32) (W1 : FVec Ideal S16x64 .f32) (b1 : FVec Ideal S64 .f32)
    (W2 : FVec Ideal S64x16 .f32) (b2 : FVec Ideal S16 .f32) : FVec Ideal S64x16 .f32 :=
  tabA (logitA (hidA (preA hl γ β W1 b1)) W2 b2)

/-! ## Each stage at an entry is the specification's stage on that row -/

section Rows
variable (P : Cert.Sheaf.Params) (hl : FVec Ideal S64x16 .f32)

theorem meanA_at (p : Fin 64) (z : Fin 1) : meanA hl (ix2 p z) = Cert.Sheaf.mean (fun k => hl (ix2 p k)) := by
  unfold meanA
  rw [hdivf_at, bc_64_64x1, bc_scalar, sum_64x16]
  rfl

theorem devA_at (p : Fin 64) (k : Fin 16) : devA hl (ix2 p k) = Cert.Sheaf.dev (fun k => hl (ix2 p k)) k := by
  unfold devA
  rw [subf_at, bc_64x1_64x16, meanA_at]
  rfl

theorem varA_at (p : Fin 64) (z : Fin 1) : varA hl (ix2 p z) = Cert.Sheaf.var (fun k => hl (ix2 p k)) := by
  unfold varA
  rw [hdivf_at, bc_64_64x1, bc_scalar, sum_64x16]
  unfold Cert.Sheaf.var
  refine congrArg (fun t : Cert.Sheaf.R => FloatOps.hostDivf (F := Ideal) (φ := .f32) (Cert.Sheaf.zeroF + t) Cert.Sheaf.sixteenF)
    (Finset.sum_congr rfl fun k _ => ?_)
  rw [mulf_at, devA_at]

theorem rstdA_at (p : Fin 64) (z : Fin 1) : rstdA hl (ix2 p z) = Cert.Sheaf.rstd (fun k => hl (ix2 p k)) := by
  unfold rstdA
  rw [hrsqrt_at, addf_at, varA_at, bc_scalar]
  rfl

theorem hnA_at (p : Fin 64) (k : Fin 16) :
    hnA hl P.γ P.β (ix2 p k) = Cert.Sheaf.hn P (fun k => hl (ix2 p k)) k := by
  unfold hnA
  rw [addf_at, mulf_at, mulf_at, devA_at, bc_64x1_64x16, rstdA_at, bc_1x16_64x16, bc_16_1x16, bc_1x16_64x16, bc_16_1x16]
  rfl

theorem preA_at (p j : Fin 64) :
    preA hl P.γ P.β P.W1 P.b1 (ix2 p j)
      = FloatOps.addf (∑ k : Fin 16, Cert.Sheaf.hn P (fun k => hl (ix2 p k)) k * P.W1 (ix2 k j)) (P.b1 (ix1 j)) := by
  unfold preA
  rw [addf_at, dot1_at, bc_1x64_64x64, bc_64_1x64]
  exact congrArg (fun t : Cert.Sheaf.R => FloatOps.addf (F := Ideal) (φ := .f32) t (P.b1 (ix1 j)))
    (Finset.sum_congr rfl fun k _ => by rw [hnA_at])

theorem hidA_at (x : FVec Ideal S64x64 .f32) (p j : Fin 64) :
    hidA x (ix2 p j) = FloatOps.maximumf (x (ix2 p j)) Cert.Sheaf.zeroF := by
  unfold hidA
  rw [maximumf_at, bc_scalar]
  rfl

theorem hid_at (p j : Fin 64) :
    hidA (preA hl P.γ P.β P.W1 P.b1) (ix2 p j) = Cert.Sheaf.hid P (fun k => hl (ix2 p k)) j := by
  rw [hidA_at, preA_at]
  rfl

theorem logitA_at (h1 : FVec Ideal S64x64 .f32) (W2 : FVec Ideal S64x16 .f32) (b2 : FVec Ideal S16 .f32) (p : Fin 64) (a b : Fin 4) :
    logitA h1 W2 b2 (ix3 p a b)
      = FloatOps.addf (∑ j : Fin 64, h1 (ix2 p j) * W2 (ix2 j (⟨4 * a.val + b.val, by omega⟩ : Fin 16)))
          (b2 (ix1 (⟨4 * a.val + b.val, by omega⟩ : Fin 16))) := by
  unfold logitA
  rw [cast_64x16_64x4x4, addf_at, dot2_at, bc_1x16_64x16, bc_16_1x16]

theorem logit_at (p : Fin 64) (a b : Fin 4) :
    logitA (hidA (preA hl P.γ P.β P.W1 P.b1)) P.W2 P.b2 (ix3 p a b) = Cert.Sheaf.logit P (fun k => hl (ix2 p k)) a b := by
  rw [logitA_at]
  unfold Cert.Sheaf.logit Cert.Sheaf.logit16
  exact congrArg (fun t : Cert.Sheaf.R => FloatOps.addf (F := Ideal) (φ := .f32) t (P.b2 (ix1 (⟨4 * a.val + b.val, by omega⟩ : Fin 16))))
    (Finset.sum_congr rfl fun j _ => by rw [hid_at])

theorem rowmaxA_at (L : FVec Ideal S64x4x4 .f32) (p : Fin 64) (a : Fin 4) :
    rowmaxA L (ix2 p a)
      = FloatOps.maximumf Cert.Sheaf.negInfF
          ((Finset.univ : Finset (Fin 4)).fold (FloatOps.maximumf (F := Ideal) (φ := .f32)) Cert.Sheaf.negInfF (fun b => L (ix3 p a b))) := by
  unfold rowmaxA
  rw [maximumf_at, bc_scalar, max_64x4x4]
  rfl

theorem exA_at (L : FVec Ideal S64x4x4 .f32) (p : Fin 64) (a b : Fin 4) :
    exA L (ix3 p a b) = FloatOps.hostUnary .exp (FloatOps.subf (L (ix3 p a b)) (rowmaxA L (ix2 p a))) := by
  unfold exA
  rw [hexp_at, subf_at, bc_64x4x1_64x4x4, bc_64x4_64x4x1]

theorem denA_at (L : FVec Ideal S64x4x4 .f32) (p : Fin 64) (a : Fin 4) :
    denA L (ix2 p a) = Cert.Sheaf.zeroF + ∑ b : Fin 4, exA L (ix3 p a b) := by
  unfold denA
  rw [sum_64x4x4]
  rfl

theorem smA_at (L : FVec Ideal S64x4x4 .f32) (p : Fin 64) (a b : Fin 4) :
    smA L (ix3 p a b) = FloatOps.hostDivf (exA L (ix3 p a b)) (denA L (ix2 p a)) := by
  unfold smA
  rw [hdivf_at, bc_64x4x1_64x4x4, bc_64x4_64x4x1]

theorem eyeA_at (p : Fin 64) (a b : Fin 4) : eyeA (ix3 p a b) = Cert.Sheaf.eye a b := by
  unfold eyeA
  rw [bc_1x4x4_64x4x4, bc_4x4_1x4x4]
  rfl

theorem tabA_at (L : FVec Ideal S64x4x4 .f32) (p : Fin 64) (a b : Fin 4) :
    tabA L (ix2 p (⟨4 * a.val + b.val, by omega⟩ : Fin 16)) = FloatOps.subf (eyeA (ix3 p a b)) (smA L (ix3 p a b)) := by
  unfold tabA
  rw [cast_64x4x4_64x16, subf_at]

theorem rowmax_at (p : Fin 64) (a : Fin 4) :
    rowmaxA (logitA (hidA (preA hl P.γ P.β P.W1 P.b1)) P.W2 P.b2) (ix2 p a) = Cert.Sheaf.rowmax P (fun k => hl (ix2 p k)) a := by
  rw [rowmaxA_at]
  unfold Cert.Sheaf.rowmax
  exact congrArg (fun f : Fin 4 → Cert.Sheaf.R => FloatOps.maximumf (F := Ideal) (φ := .f32) Cert.Sheaf.negInfF
      ((Finset.univ : Finset (Fin 4)).fold (FloatOps.maximumf (F := Ideal) (φ := .f32)) Cert.Sheaf.negInfF f))
    (funext fun b => logit_at P hl p a b)

theorem ex_at (p : Fin 64) (a b : Fin 4) :
    exA (logitA (hidA (preA hl P.γ P.β P.W1 P.b1)) P.W2 P.b2) (ix3 p a b) = Cert.Sheaf.ex P (fun k => hl (ix2 p k)) a b := by
  rw [exA_at, logit_at, rowmax_at]
  rfl

theorem den_at (p : Fin 64) (a : Fin 4) :
    denA (logitA (hidA (preA hl P.γ P.β P.W1 P.b1)) P.W2 P.b2) (ix2 p a) = Cert.Sheaf.den P (fun k => hl (ix2 p k)) a := by
  rw [denA_at]
  unfold Cert.Sheaf.den
  exact congrArg (fun t : Cert.Sheaf.R => Cert.Sheaf.zeroF + t) (Finset.sum_congr rfl fun b _ => ex_at P hl p a b)

/-- The table at row `p`, column `4a + b`, is the per-row map of row `p` at `(a, b)`. -/
theorem tableOf_at (p : Fin 64) (a b : Fin 4) :
    tableOf hl P.γ P.β P.W1 P.b1 P.W2 P.b2 (ix2 p (⟨4 * a.val + b.val, by omega⟩ : Fin 16))
      = Cert.Sheaf.rowF P (fun k => hl (ix2 p k)) a b := by
  unfold tableOf
  rw [tabA_at, eyeA_at, smA_at, ex_at, den_at]
  rfl

end Rows

/-! ## The buffers hold these arrays

The table's buffer is written once, in the last stretch, from the positive part's buffer and two weights; that
buffer is written once, in the stretch before, from the first linear layer's; and that one, with the pair rows'
own buffer, in the stretch before that, from four weights. No stretch writes a weight, and no later stretch
writes the pair rows' buffer. -/

section Buffers

open Cert.Sheaf.KV Idealize.ShloMosaic.StableHlo Idealize.ShloMosaic.TcCoe Idealize.SL.Sem

variable (m : (ℓ : Loc nD τ sig) → Buf (Elt Ideal) ℓ) (c : Dev nD)

/-- No operation of a literal stretch writes the given buffer: the stretch's result buffers, one by one, are other
    references. -/
macro "no_write_in " ops:ident : tactic =>
  `(tactic| (exact List.forall_iff_forall_mem.mp (by
      simp only [$ops:ident, List.Forall, StableHlo.TRef.nullary, StableHlo.TRef.unary, StableHlo.TRef.binary,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

set_option maxHeartbeats 4000000 in
/-- What the last stretch leaves in the table's buffer. -/
theorem K12_table :
    (K12 m c (Proc.devRef .tc main_v70) : FVec Ideal S64x16 .f32)
      = tabA (logitA (K11 m c (Proc.devRef .tc main_v44)) (K11 m c (Proc.devRef .tc main_arg7)) (K11 m c (Proc.devRef .tc main_arg8))) := by
  unfold K12
  generalize K11 m c = V
  simp only [hostOps0_11]
  after_results_simp
  rfl

/-- What the stretch before leaves in the positive part's buffer. -/
theorem K11_hidden :
    (K11 m c (Proc.devRef .tc main_v44) : FVec Ideal S64x64 .f32) = hidA (K10 m c (Proc.devRef .tc main_v43)) := by
  unfold K11
  generalize K10 m c = V
  simp only [hostOps0_10, StableHlo.TRef.nullary, StableHlo.TRef.unary, StableHlo.TRef.binary]
  after_results
  rfl

set_option maxHeartbeats 4000000 in
/-- What the stretch before that leaves in the first linear layer's buffer, in terms of the pair rows' buffer it
    also writes. -/
theorem K10_pre :
    (K10 m c (Proc.devRef .tc main_v43) : FVec Ideal S64x64 .f32)
      = preA (K10 m c (Proc.devRef .tc main_v15)) (K9 m c (Proc.devRef .tc main_arg3)) (K9 m c (Proc.devRef .tc main_arg4))
          (K9 m c (Proc.devRef .tc main_arg5)) (K9 m c (Proc.devRef .tc main_arg6)) := by
  unfold K10
  generalize K9 m c = V
  simp only [hostOps0_9]
  after_results_simp
  rfl

/-! ### Buffers the later stretches leave alone -/

theorem keep12 {y : Ref sig .tc}
    (h : ∀ op ∈ (hostOps0_11 (F := Ideal) : List (HloOp τ sig (Elt Ideal))), (Proc.devRef .tc y : DevRef τ sig) ∉ op.writes) :
    K12 m c (Proc.devRef .tc y) = K11 m c (Proc.devRef .tc y) :=
  after_of_forall_not_mem _ _ h

theorem keep11 {y : Ref sig .tc}
    (h : ∀ op ∈ (hostOps0_10 (F := Ideal) : List (HloOp τ sig (Elt Ideal))), (Proc.devRef .tc y : DevRef τ sig) ∉ op.writes) :
    K11 m c (Proc.devRef .tc y) = K10 m c (Proc.devRef .tc y) :=
  after_of_forall_not_mem _ _ h

theorem keep10 {y : Ref sig .tc}
    (h : ∀ op ∈ (hostOps0_9 (F := Ideal) : List (HloOp τ sig (Elt Ideal))), (Proc.devRef .tc y : DevRef τ sig) ∉ op.writes) :
    K10 m c (Proc.devRef .tc y) = K9 m c (Proc.devRef .tc y) :=
  after_of_forall_not_mem _ _ h

set_option maxHeartbeats 4000000 in
theorem rows12 : K12 m c (Proc.devRef .tc main_v15) = K11 m c (Proc.devRef .tc main_v15) := keep12 m c (by no_write_in hostOps0_11)
theorem rows11 : K11 m c (Proc.devRef .tc main_v15) = K10 m c (Proc.devRef .tc main_v15) := keep11 m c (by no_write_in hostOps0_10)

set_option maxHeartbeats 4000000 in
theorem w3_12 : K12 m c (Proc.devRef .tc main_arg3) = K11 m c (Proc.devRef .tc main_arg3) := keep12 m c (by no_write_in hostOps0_11)
set_option maxHeartbeats 4000000 in
theorem w4_12 : K12 m c (Proc.devRef .tc main_arg4) = K11 m c (Proc.devRef .tc main_arg4) := keep12 m c (by no_write_in hostOps0_11)
set_option maxHeartbeats 4000000 in
theorem w5_12 : K12 m c (Proc.devRef .tc main_arg5) = K11 m c (Proc.devRef .tc main_arg5) := keep12 m c (by no_write_in hostOps0_11)
set_option maxHeartbeats 4000000 in
theorem w6_12 : K12 m c (Proc.devRef .tc main_arg6) = K11 m c (Proc.devRef .tc main_arg6) := keep12 m c (by no_write_in hostOps0_11)
set_option maxHeartbeats 4000000 in
theorem w7_12 : K12 m c (Proc.devRef .tc main_arg7) = K11 m c (Proc.devRef .tc main_arg7) := keep12 m c (by no_write_in hostOps0_11)
set_option maxHeartbeats 4000000 in
theorem w8_12 : K12 m c (Proc.devRef .tc main_arg8) = K11 m c (Proc.devRef .tc main_arg8) := keep12 m c (by no_write_in hostOps0_11)

theorem w3_11 : K11 m c (Proc.devRef .tc main_arg3) = K10 m c (Proc.devRef .tc main_arg3) := keep11 m c (by no_write_in hostOps0_10)
theorem w4_11 : K11 m c (Proc.devRef .tc main_arg4) = K10 m c (Proc.devRef .tc main_arg4) := keep11 m c (by no_write_in hostOps0_10)
theorem w5_11 : K11 m c (Proc.devRef .tc main_arg5) = K10 m c (Proc.devRef .tc main_arg5) := keep11 m c (by no_write_in hostOps0_10)
theorem w6_11 : K11 m c (Proc.devRef .tc main_arg6) = K10 m c (Proc.devRef .tc main_arg6) := keep11 m c (by no_write_in hostOps0_10)

set_option maxHeartbeats 4000000 in
theorem w3_10 : K10 m c (Proc.devRef .tc main_arg3) = K9 m c (Proc.devRef .tc main_arg3) := keep10 m c (by no_write_in hostOps0_9)
set_option maxHeartbeats 4000000 in
theorem w4_10 : K10 m c (Proc.devRef .tc main_arg4) = K9 m c (Proc.devRef .tc main_arg4) := keep10 m c (by no_write_in hostOps0_9)
set_option maxHeartbeats 4000000 in
theorem w5_10 : K10 m c (Proc.devRef .tc main_arg5) = K9 m c (Proc.devRef .tc main_arg5) := keep10 m c (by no_write_in hostOps0_9)
set_option maxHeartbeats 4000000 in
theorem w6_10 : K10 m c (Proc.devRef .tc main_arg6) = K9 m c (Proc.devRef .tc main_arg6) := keep10 m c (by no_write_in hostOps0_9)

/-- The six weight arrays as launched. -/
def params : Cert.Sheaf.Params :=
  ⟨m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8)⟩

/-- A weight's buffer at the last stretch's end is the launched array. -/
theorem K12_w3 : K12 m c (Proc.devRef .tc main_arg3) = m ((c.tc : Thread nD τ).loc main_arg3) := (V_eq m c main_arg3).symm.trans (V_main_arg3 m c)
theorem K12_w4 : K12 m c (Proc.devRef .tc main_arg4) = m ((c.tc : Thread nD τ).loc main_arg4) := (V_eq m c main_arg4).symm.trans (V_main_arg4 m c)
theorem K12_w5 : K12 m c (Proc.devRef .tc main_arg5) = m ((c.tc : Thread nD τ).loc main_arg5) := (V_eq m c main_arg5).symm.trans (V_main_arg5 m c)
theorem K12_w6 : K12 m c (Proc.devRef .tc main_arg6) = m ((c.tc : Thread nD τ).loc main_arg6) := (V_eq m c main_arg6).symm.trans (V_main_arg6 m c)
theorem K12_w7 : K12 m c (Proc.devRef .tc main_arg7) = m ((c.tc : Thread nD τ).loc main_arg7) := (V_eq m c main_arg7).symm.trans (V_main_arg7 m c)
theorem K12_w8 : K12 m c (Proc.devRef .tc main_arg8) = m ((c.tc : Thread nD τ).loc main_arg8) := (V_eq m c main_arg8).symm.trans (V_main_arg8 m c)

/-- The table the region finds is the chain applied to the pair rows it finds and the launched weights. -/
theorem lut_eq :
    lutArr m c = tableOf (hlArr m c) (params m c).γ (params m c).β (params m c).W1 (params m c).b1 (params m c).W2 (params m c).b2 := by
  have e3 : K9 m c (Proc.devRef .tc main_arg3) = m ((c.tc : Thread nD τ).loc main_arg3) :=
    (((w3_10 m c).symm.trans (w3_11 m c).symm).trans (w3_12 m c).symm).trans (K12_w3 m c)
  have e4 : K9 m c (Proc.devRef .tc main_arg4) = m ((c.tc : Thread nD τ).loc main_arg4) :=
    (((w4_10 m c).symm.trans (w4_11 m c).symm).trans (w4_12 m c).symm).trans (K12_w4 m c)
  have e5 : K9 m c (Proc.devRef .tc main_arg5) = m ((c.tc : Thread nD τ).loc main_arg5) :=
    (((w5_10 m c).symm.trans (w5_11 m c).symm).trans (w5_12 m c).symm).trans (K12_w5 m c)
  have e6 : K9 m c (Proc.devRef .tc main_arg6) = m ((c.tc : Thread nD τ).loc main_arg6) :=
    (((w6_10 m c).symm.trans (w6_11 m c).symm).trans (w6_12 m c).symm).trans (K12_w6 m c)
  have e7 : K11 m c (Proc.devRef .tc main_arg7) = m ((c.tc : Thread nD τ).loc main_arg7) := (w7_12 m c).symm.trans (K12_w7 m c)
  have e8 : K11 m c (Proc.devRef .tc main_arg8) = m ((c.tc : Thread nD τ).loc main_arg8) := (w8_12 m c).symm.trans (K12_w8 m c)
  have er : K10 m c (Proc.devRef .tc main_v15) = hlArr m c :=
    ((rows11 m c).symm.trans (rows12 m c).symm).trans (V_eq m c main_v15).symm
  have et : lutArr m c = K12 m c (Proc.devRef .tc main_v70) := V_eq m c main_v70
  rw [et, K12_table, K11_hidden, K10_pre, e3, e4, e5, e6, e7, e8, er]
  rfl

/-- Every row of the table is the per-row map of the same pair row. -/
theorem lut_apply (cc : Fin 64) (a b : Fin 4) :
    lutArr m c (ix2 cc ⟨4 * a.val + b.val, by omega⟩)
      = Cert.Sheaf.rowF (params m c) (fun k => hlArr m c (ix2 cc k)) a b := by
  rw [lut_eq]
  exact tableOf_at (params m c) (hlArr m c) cc a b

end Buffers

end Cert.Sheaf.Lut

end
-- ==== Proof.LibWindowScatter.lean ====
/-
  A window scatter that writes its update, read back at an entry.

  A left fold of single-entry replacements over a list of keys — key `k` replaces the entry at the place `φ k` it names, if
  any, by `f` of the old entry and the key's value — leaves every place that no key names as it was, and at a place
  that exactly one key of the list names it has applied `f` once, to the initial entry. `Host.scatter` is such a fold over
  the update's indices in row-major order; so when every update index lands inside the operand, at pairwise distinct
  places `ρ j`, the result is `f (x (ρ j)) (upd j)` at `ρ j` and the operand everywhere else. For the dimension numbers
  of a rank-2 window (both update axes window axes, the one start index naming both operand axes) the place of update
  index `(p, q)` is the start index, read signed, plus `(p, q)`: the result at `(k, l)` is the update at
  `(k - r0, l - r1)` inside the window and the operand outside it.
-/
import Idealize.ShloMosaic.Lib.ValueIdx
import Idealize.ShloMosaic.PureOps.ShapeOps
import Idealize.ShloMosaic.PureOps.Dims
import Idealize.ShloMosaic.Lib.StableHlo.Run

namespace Cert.Lib.WindowScatter

open Idealize.ShloMosaic Idealize.ShloMosaic.ValueIdx

/-! ## A fold of single-entry replacements -/

section Fold
variable {ι κ α β : Type}

/-- A fold whose every step leaves the entry at `i` alone unless its key names `i` leaves that entry as it was when no
    key of the list names `i`. -/
theorem foldl_of_not_mem (g : (ι → α) → κ → (ι → α)) (φ : κ → Option ι) (i : ι)
    (H1 : ∀ r k, φ k ≠ some i → g r k i = r i) :
    ∀ (l : List κ) (x : ι → α), (∀ k ∈ l, φ k ≠ some i) → l.foldl g x i = x i
  | [], _, _ => rfl
  | k :: l, x, h => by
    rw [List.foldl_cons, foldl_of_not_mem g φ i H1 l _ fun k' hk' => h k' (List.mem_cons_of_mem _ hk'),
      H1 x k (h k List.mem_cons_self)]

/-- If moreover a step whose key names `i` puts `f` of the old entry and the key's value there, then at a place exactly one
    key `k` of a list without repeats names the fold has applied `f` once: to the initial entry and `k`'s value. -/
theorem foldl_of_mem (g : (ι → α) → κ → (ι → α)) (φ : κ → Option ι) (f : α → β → α) (v : κ → β) (i : ι)
    (H1 : ∀ r k, φ k ≠ some i → g r k i = r i) (H2 : ∀ r k, φ k = some i → g r k i = f (r i) (v k))
    (k : κ) (hk : φ k = some i) :
    ∀ (l : List κ) (x : ι → α), l.Nodup → k ∈ l → (∀ k' ∈ l, φ k' = some i → k' = k) → l.foldl g x i = f (x i) (v k)
  | [], _, _, hm, _ => absurd hm List.not_mem_nil
  | a :: l, x, hnd, hm, huniq => by
    rw [List.foldl_cons]
    by_cases hak : a = k
    · subst hak
      have hnot : ∀ k' ∈ l, φ k' ≠ some i := fun k' hk' e =>
        (List.nodup_cons.1 hnd).1 (huniq k' (List.mem_cons_of_mem _ hk') e ▸ hk')
      rw [foldl_of_not_mem g φ i H1 l _ hnot, H2 x a hk]
    · have hml : k ∈ l := (List.mem_cons.1 hm).resolve_left fun e => hak e.symm
      have hai : φ a ≠ some i := fun e => hak (huniq a List.mem_cons_self e)
      rw [foldl_of_mem g φ f v i H1 H2 k hk l _ (List.nodup_cons.1 hnd).2 hml
          fun k' hk' e => huniq k' (List.mem_cons_of_mem _ hk') e,
        H1 x a hai]

end Fold

/-! ## `Host.scatter` at an index -/

section Scatter
variable {s si u : Shape} {α : Type} {w : Nat}

/-- A place no update index lands at keeps the operand's entry. -/
theorem scatter_of_forall_ne (d : ScatterDims s si u) (f : α → α → α) (x : s.Idx → α) (idx : IVec si w) (upd : u.Idx → α)
    (i : s.Idx) (h : ∀ j, d.resultIdx? j idx ≠ some i) : Host.scatter d f x idx upd i = x i := by
  unfold Host.scatter
  refine foldl_of_not_mem _ (fun n => d.resultIdx? (u.rowMajor.symm n) idx) i (fun r n hn => ?_) _ x (fun n _ => h _)
  have hn' : d.resultIdx? (u.rowMajor.symm n) idx ≠ some i := hn
  cases hcase : d.resultIdx? (u.rowMajor.symm n) idx with
  | none => rfl
  | some i₀ => exact if_neg fun e => hn' (by rw [hcase, e])

/-- When every update index lands inside the operand, at `ρ j` with `ρ` injective, the entry at `ρ j` is the body applied
    once, to the operand's entry and the update's. -/
theorem scatter_of_eq (d : ScatterDims s si u) (f : α → α → α) (x : s.Idx → α) (idx : IVec si w) (upd : u.Idx → α)
    (ρ : u.Idx → s.Idx) (hρ : ∀ j, d.resultIdx? j idx = some (ρ j)) (hinj : Function.Injective ρ) (j : u.Idx) :
    Host.scatter d f x idx upd (ρ j) = f (x (ρ j)) (upd j) := by
  unfold Host.scatter
  refine (foldl_of_mem _ (fun n => d.resultIdx? (u.rowMajor.symm n) idx) f (fun n => upd (u.rowMajor.symm n)) (ρ j)
    (fun r n hn => ?h1) (fun r n hn => ?h2) (u.rowMajor j) ?hk (List.finRange u.numel) x (List.nodup_finRange _)
    (List.mem_finRange _) (fun n _ e => ?hu)).trans ?fin
  case h1 =>
    have hn' : d.resultIdx? (u.rowMajor.symm n) idx ≠ some (ρ j) := hn
    cases hcase : d.resultIdx? (u.rowMajor.symm n) idx with
    | none => rfl
    | some i₀ => exact if_neg fun e => hn' (by rw [hcase, e])
  case h2 =>
    have hn' : d.resultIdx? (u.rowMajor.symm n) idx = some (ρ j) := hn
    cases hcase : d.resultIdx? (u.rowMajor.symm n) idx with
    | none => exact absurd (hcase.symm.trans hn').symm (Option.some_ne_none _)
    | some i₀ =>
      have e : i₀ = ρ j := Option.some.inj (hcase.symm.trans hn')
      subst e
      exact if_pos rfl
  case hk =>
    show d.resultIdx? (u.rowMajor.symm (u.rowMajor j)) idx = some (ρ j)
    rw [Equiv.symm_apply_apply]; exact hρ j
  case hu =>
    have e' : some (ρ (u.rowMajor.symm n)) = some (ρ j) := (hρ _).symm.trans e
    have e2 := hinj (Option.some.inj e')
    rw [← e2, Equiv.apply_symm_apply]
  case fin =>
    show f (x (ρ j)) (upd (u.rowMajor.symm (u.rowMajor j))) = f (x (ρ j)) (upd j)
    rw [Equiv.symm_apply_apply]

/-- The same for a place no `ρ j` is. -/
theorem scatter_of_ne (d : ScatterDims s si u) (f : α → α → α) (x : s.Idx → α) (idx : IVec si w) (upd : u.Idx → α)
    (ρ : u.Idx → s.Idx) (hρ : ∀ j, d.resultIdx? j idx = some (ρ j)) (i : s.Idx) (hi : ∀ j, ρ j ≠ i) :
    Host.scatter d f x idx upd i = x i :=
  scatter_of_forall_ne d f x idx upd i fun j e => hi j (Option.some.inj ((hρ j).symm.trans e))

end Scatter

/-! ## A rank-2 window at one start index -/

section Window2
variable {M N m n : Nat} {α : Type} {w : Nat}

/-- The dimension numbers of a rank-2 window scatter at ONE start index: both axes of the update are window axes, no
    operand axis is inserted, and the start index's two words go to the operand's two axes, in order. -/
def IsWindow2 (d : ScatterDims ⟨2, ![M, N]⟩ ⟨1, ![2]⟩ ⟨2, ![m, n]⟩) : Prop :=
  ∃ wf, d = ⟨[0, 1], [], [0, 1], 0, wf⟩

/-- The window's start on the operand's first axis is the start index's first word, read signed. -/
theorem IsWindow2.start0 {d : ScatterDims ⟨2, ![M, N]⟩ ⟨1, ![2]⟩ ⟨2, ![m, n]⟩} (hd : IsWindow2 d)
    (j : (⟨2, ![m, n]⟩ : Shape).Idx) (idx : IVec ⟨1, ![2]⟩ w) : d.start j idx 0 = (idx (ix1 0)).toInt := by
  obtain ⟨wf, rfl⟩ := hd
  unfold ScatterDims.start
  have hmem : (0 : Fin (⟨2, ![M, N]⟩ : Shape).rank) ∈ ([0, 1] : List (Fin (⟨2, ![M, N]⟩ : Shape).rank)) :=
    List.mem_cons_self
  refine (dif_pos hmem).trans (congrArg (fun z => (idx z).toInt) (funext fun b => ?_))
  match b with
  | ⟨0, _⟩ => exact Fin.ext rfl

/-- The window's start on the operand's second axis is the start index's second word, read signed. -/
theorem IsWindow2.start1 {d : ScatterDims ⟨2, ![M, N]⟩ ⟨1, ![2]⟩ ⟨2, ![m, n]⟩} (hd : IsWindow2 d)
    (j : (⟨2, ![m, n]⟩ : Shape).Idx) (idx : IVec ⟨1, ![2]⟩ w) : d.start j idx 1 = (idx (ix1 1)).toInt := by
  obtain ⟨wf, rfl⟩ := hd
  unfold ScatterDims.start
  have hmem : (1 : Fin (⟨2, ![M, N]⟩ : Shape).rank) ∈ ([0, 1] : List (Fin (⟨2, ![M, N]⟩ : Shape).rank)) :=
    List.mem_cons_of_mem _ List.mem_cons_self
  refine (dif_pos hmem).trans (congrArg (fun z => (idx z).toInt) (funext fun b => ?_))
  match b with
  | ⟨0, _⟩ => exact Fin.ext rfl

/-- The window coordinate on the operand's first axis is the update index's first coordinate. -/
theorem IsWindow2.window0 {d : ScatterDims ⟨2, ![M, N]⟩ ⟨1, ![2]⟩ ⟨2, ![m, n]⟩} (hd : IsWindow2 d)
    (j : (⟨2, ![m, n]⟩ : Shape).Idx) : d.window j 0 = (j 0).val := by
  obtain ⟨wf, rfl⟩ := hd
  unfold ScatterDims.window
  have hkept : (⟨2, ![M, N]⟩ : Shape).kept [] = [0, 1] := rfl
  have hmem : (0 : Fin (⟨2, ![M, N]⟩ : Shape).rank) ∈ (⟨2, ![M, N]⟩ : Shape).kept [] := by
    rw [hkept]; exact List.mem_cons_self
  exact (dif_pos hmem).trans rfl

/-- The window coordinate on the operand's second axis is the update index's second coordinate. -/
theorem IsWindow2.window1 {d : ScatterDims ⟨2, ![M, N]⟩ ⟨1, ![2]⟩ ⟨2, ![m, n]⟩} (hd : IsWindow2 d)
    (j : (⟨2, ![m, n]⟩ : Shape).Idx) : d.window j 1 = (j 1).val := by
  obtain ⟨wf, rfl⟩ := hd
  unfold ScatterDims.window
  have hkept : (⟨2, ![M, N]⟩ : Shape).kept [] = [0, 1] := rfl
  have hmem : (1 : Fin (⟨2, ![M, N]⟩ : Shape).rank) ∈ (⟨2, ![M, N]⟩ : Shape).kept [] := by
    rw [hkept]; exact List.mem_cons_of_mem _ List.mem_cons_self
  exact (dif_pos hmem).trans rfl

/-- The place of update index `j` when the window starts at `(r0, r1)` and fits: `(r0 + j 0, r1 + j 1)`. -/
def place (r0 r1 : Nat) (hM : r0 + m ≤ M) (hN : r1 + n ≤ N) (j : (⟨2, ![m, n]⟩ : Shape).Idx) : (⟨2, ![M, N]⟩ : Shape).Idx :=
  ix2 ⟨r0 + (j 0).val, by have := idx2_lt0 j; omega⟩ ⟨r1 + (j 1).val, by have := idx2_lt1 j; omega⟩

/-- Distinct update indices have distinct places. -/
theorem place_injective (r0 r1 : Nat) (hM : r0 + m ≤ M) (hN : r1 + n ≤ N) :
    Function.Injective (place (M := M) (N := N) (m := m) (n := n) r0 r1 hM hN) := by
  intro j j' e
  have e0 := congrArg (fun i : (⟨2, ![M, N]⟩ : Shape).Idx => (i 0).val) e
  have e1 := congrArg (fun i : (⟨2, ![M, N]⟩ : Shape).Idx => (i 1).val) e
  change r0 + (j 0).val = r0 + (j' 0).val at e0
  change r1 + (j 1).val = r1 + (j' 1).val at e1
  have f0 : j 0 = j' 0 := Fin.ext (by omega)
  have f1 : j 1 = j' 1 := Fin.ext (by omega)
  funext a
  match a with
  | ⟨0, _⟩ => exact f0
  | ⟨1, _⟩ => exact f1

/-- A window whose start index reads `(r0, r1)` and that fits inside the operand lands update index `j` at its place. -/
theorem IsWindow2.resultIdx {d : ScatterDims ⟨2, ![M, N]⟩ ⟨1, ![2]⟩ ⟨2, ![m, n]⟩} (hd : IsWindow2 d)
    (idx : IVec ⟨1, ![2]⟩ w) (r0 r1 : Nat) (h0 : (idx (ix1 0)).toInt = (r0 : Int)) (h1 : (idx (ix1 1)).toInt = (r1 : Int))
    (hM : r0 + m ≤ M) (hN : r1 + n ≤ N) (j : (⟨2, ![m, n]⟩ : Shape).Idx) :
    d.resultIdx? j idx = some (place r0 r1 hM hN j) := by
  have hs0 := hd.start0 j idx
  have hs1 := hd.start1 j idx
  have hw0 := hd.window0 j
  have hw1 := hd.window1 j
  have hj0 := idx2_lt0 j
  have hj1 := idx2_lt1 j
  unfold ScatterDims.resultIdx?
  split
  · refine congrArg some (funext fun a => ?_)
    match a with
    | ⟨0, _⟩ =>
      refine Fin.ext ?_
      show (d.start j idx 0 + ((d.window j 0 : Nat) : Int)).toNat = r0 + (j 0).val
      rw [hs0, hw0, h0]; omega
    | ⟨1, _⟩ =>
      refine Fin.ext ?_
      show (d.start j idx 1 + ((d.window j 1 : Nat) : Int)).toNat = r1 + (j 1).val
      rw [hs1, hw1, h1]; omega
  · next hno =>
    refine absurd (fun a => ?_) hno
    match a with
    | ⟨0, _⟩ =>
      show 0 ≤ d.start j idx 0 + ((d.window j 0 : Nat) : Int) ∧ d.start j idx 0 + ((d.window j 0 : Nat) : Int) < ((M : Nat) : Int)
      rw [hs0, hw0, h0]; omega
    | ⟨1, _⟩ =>
      show 0 ≤ d.start j idx 1 + ((d.window j 1 : Nat) : Int) ∧ d.start j idx 1 + ((d.window j 1 : Nat) : Int) < ((N : Nat) : Int)
      rw [hs1, hw1, h1]; omega

/-- **A rank-2 window scatter read at an entry.** With the start index reading `(r0, r1)` and the window inside the
    operand, entry `(k, l)` of the result is the body applied to the operand's entry and the update's entry
    `(k - r0, l - r1)` when `(k, l)` lies in the window, and the operand's entry when it does not. -/
theorem IsWindow2.scatter_apply {d : ScatterDims ⟨2, ![M, N]⟩ ⟨1, ![2]⟩ ⟨2, ![m, n]⟩} (hd : IsWindow2 d)
    (f : α → α → α) (x : (⟨2, ![M, N]⟩ : Shape).Idx → α) (idx : IVec ⟨1, ![2]⟩ w) (upd : (⟨2, ![m, n]⟩ : Shape).Idx → α)
    (r0 r1 : Nat) (h0 : (idx (ix1 0)).toInt = (r0 : Int)) (h1 : (idx (ix1 1)).toInt = (r1 : Int))
    (hM : r0 + m ≤ M) (hN : r1 + n ≤ N) (k : Fin M) (l : Fin N) :
    Host.scatter d f x idx upd (ix2 k l) =
      if h : (r0 ≤ k.val ∧ k.val < r0 + m) ∧ (r1 ≤ l.val ∧ l.val < r1 + n) then
        f (x (ix2 k l)) (upd (ix2 ⟨k.val - r0, by omega⟩ ⟨l.val - r1, by omega⟩))
      else x (ix2 k l) := by
  have hρ : ∀ j, d.resultIdx? j idx = some (place r0 r1 hM hN j) := fun j => hd.resultIdx idx r0 r1 h0 h1 hM hN j
  by_cases h : (r0 ≤ k.val ∧ k.val < r0 + m) ∧ (r1 ≤ l.val ∧ l.val < r1 + n)
  · rw [dif_pos h]
    have hk : place r0 r1 hM hN (ix2 (⟨k.val - r0, by omega⟩ : Fin m) (⟨l.val - r1, by omega⟩ : Fin n)) = ix2 k l := by
      funext a
      match a with
      | ⟨0, _⟩ => exact Fin.ext (by show r0 + (k.val - r0) = k.val; omega)
      | ⟨1, _⟩ => exact Fin.ext (by show r1 + (l.val - r1) = l.val; omega)
    have key := scatter_of_eq d f x idx upd (place r0 r1 hM hN) hρ (place_injective r0 r1 hM hN)
      (ix2 (⟨k.val - r0, by omega⟩ : Fin m) (⟨l.val - r1, by omega⟩ : Fin n))
    rw [hk] at key
    exact key
  · rw [dif_neg h]
    refine scatter_of_ne d f x idx upd (place r0 r1 hM hN) hρ (ix2 k l) fun j e => h ?_
    have e0 := congrArg (fun i : (⟨2, ![M, N]⟩ : Shape).Idx => (i 0).val) e
    have e1 := congrArg (fun i : (⟨2, ![M, N]⟩ : Shape).Idx => (i 1).val) e
    change r0 + (j 0).val = k.val at e0
    change r1 + (j 1).val = l.val at e1
    have hj0 := idx2_lt0 j
    have hj1 := idx2_lt1 j
    omega

end Window2

end Cert.Lib.WindowScatter
-- ==== Proof.BlockDiag.lean ====
/-
  The block-diagonal copy of the 64-row table.

  The program builds a 512 × 128 array from a 64 × 16 table `L`: it starts from zeros and writes `L` eight times, the
  `j`-th copy with its corner at `(64 j, 16 j)`. The eight windows are the diagonal blocks: entry `(k, l)` lies in the
  `j`-th one exactly when `k / 64 = j` and `l / 16 = j`, and there it holds `L (k % 64, l % 16)`; off the diagonal blocks
  nothing is written and the entry is the zero it started as. Each write is a window scatter at a literal start index
  (two scalar words, each broadcast to one entry, side by side), read at an entry by the general lemma for a rank-2
  window; the eight conditions are pairwise exclusive, so the nested reading collapses to the one condition
  `k / 64 = l / 16`.
-/
import proofs.«400568_j31842887533263_3_alg».proof.Proof.KV
import proofs.«400568_j31842887533263_3_alg».proof.Proof.Spec
import proofs.«400568_j31842887533263_3_alg».proof.Proof.LibWindowScatter
import Idealize.ShloMosaic.Lib.ValueIdx
import Idealize.ShloMosaic.Lib.Pipeline.Value
import Idealize.ShloMosaic.Lib.Pipeline.Frame
import Idealize.ShloMosaic.Lib.StableHlo.Run
import Idealize.ShloMosaic.PureOps.Ideal.Laws

set_option maxRecDepth 16384

noncomputable section

namespace Cert.Sheaf.BlockDiag

open Cert.KernelIdeal Cert.KernelIdeal.Gen Cert.Sheaf.KV Idealize.ShloMosaic Idealize.ShloMosaic.ValueIdx
open Idealize.ShloMosaic.TcCoe Idealize.SL.Sem
open Idealize.ShloMosaic.StableHlo
open Cert.Lib

/-! ## The copy as a function of the table -/

/-- A window's start index as the program builds it: two scalar words, each broadcast to one entry, side by side. -/
def startIdx (a b : BitVec 32) : IVec S2 32 :=
  concatenate S2 0
    [⟨S1, broadcastInDim (s := S_) S1 ![] bcast_S_S1 (constantI S_ 32 a)⟩,
     ⟨S1, broadcastInDim (s := S_) S1 ![] bcast_S_S1 (constantI S_ 32 b)⟩]
    concatenates_S1_S1_S2_d0

/-- The start index's first word. -/
theorem startIdx_zero (a b : BitVec 32) : startIdx a b (ix1 0) = a := by
  unfold startIdx
  exact (concatenate_pair_apply_left (0 : Fin S2.rank) _ _ concatenates_S1_S1_S2_d0 (ix1 (0 : Fin 2)) rfl (ix1 (0 : Fin 1))
    (fun b => match b with | ⟨0, _⟩ => rfl)).trans rfl

/-- The start index's second word. -/
theorem startIdx_one (a b : BitVec 32) : startIdx a b (ix1 1) = b := by
  unfold startIdx
  exact (concatenate_pair_apply_right (0 : Fin S2.rank) _ _ concatenates_S1_S1_S2_d0 (ix1 (1 : Fin 2)) rfl rfl (ix1 (0 : Fin 1))
    (fun b => match b with | ⟨0, _⟩ => fun hb => (hb rfl).elim) rfl).trans rfl

/-- The program's scatter is a rank-2 window at one start index. -/
theorem d_window : WindowScatter.IsWindow2 scatter_S512x128_S2_S64x16_01_n_01_0 := ⟨_, rfl⟩

/-- One write: the table `L` put into `X` with its corner at the two words. -/
def blk (a b : BitVec 32) (X : FVec Ideal S512x128 .f32) (L : FVec Ideal S64x16 .f32) : FVec Ideal S512x128 .f32 :=
  Host.scatter scatter_S512x128_S2_S64x16_01_n_01_0 (fun _ b => b) X (startIdx a b) L

/-- One write read at an entry: with the corner at `(64 j, 16 j)` the entry `(k, l)` is the table's `(k % 64, l % 16)` inside
    the `j`-th diagonal block and what was there outside it. -/
theorem blk_apply (j : Nat) (hj : j < 8) (a b : BitVec 32) (ha : a.toInt = ((64 * j : Nat) : Int))
    (hb : b.toInt = ((16 * j : Nat) : Int)) (X : FVec Ideal S512x128 .f32) (L : FVec Ideal S64x16 .f32)
    (k : Fin 512) (l : Fin 128) :
    blk a b X L (ix2 k l) =
      if k.val / 64 = j ∧ l.val / 16 = j then
        L (ix2 ⟨k.val % 64, Nat.mod_lt _ (by decide)⟩ ⟨l.val % 16, Nat.mod_lt _ (by decide)⟩)
      else X (ix2 k l) := by
  unfold blk
  refine (WindowScatter.IsWindow2.scatter_apply d_window (fun _ b => b) X (startIdx a b) L (64 * j) (16 * j)
    (by rw [startIdx_zero]; exact ha) (by rw [startIdx_one]; exact hb) (by omega) (by omega) k l).trans ?_
  by_cases h : k.val / 64 = j ∧ l.val / 16 = j
  · have hh : (64 * j ≤ k.val ∧ k.val < 64 * j + 64) ∧ (16 * j ≤ l.val ∧ l.val < 16 * j + 16) := by omega
    rw [if_pos h, dif_pos hh]
    refine congrArg L (funext fun a => ?_)
    match a with
    | ⟨0, _⟩ => exact Fin.ext (by show k.val - 64 * j = k.val % 64; omega)
    | ⟨1, _⟩ => exact Fin.ext (by show l.val - 16 * j = l.val % 16; omega)
  · have hh : ¬((64 * j ≤ k.val ∧ k.val < 64 * j + 64) ∧ (16 * j ≤ l.val ∧ l.val < 16 * j + 16)) := by omega
    rw [if_neg h, dif_neg hh]

/-- The array of zeros the copy starts from. -/
def zeros : FVec Ideal S512x128 .f32 :=
  broadcastInDim (s := S_) S512x128 ![] bcast_S_S512x128 (constant (F := Ideal) S_ .f32 0x00000000#32)

/-- Every entry of it is zero. -/
theorem zeros_apply (i : S512x128.Idx) : zeros i = 0 := by
  show Ideal.ofBits .f32 0x00000000#32 = 0
  exact Ideal.ofBits_zero_f32

/-- The eight writes, in the program's order: corners `(0, 0)`, `(64, 16)`, …, `(448, 112)`. -/
def bdTerm (L : FVec Ideal S64x16 .f32) : FVec Ideal S512x128 .f32 :=
  blk 448#32 112#32 (blk 384#32 96#32 (blk 320#32 80#32 (blk 256#32 64#32 (blk 192#32 48#32 (blk 128#32 32#32
    (blk 64#32 16#32 (blk 0#32 0#32 zeros L) L) L) L) L) L) L) L

/-- The copy read at an entry: the table on the diagonal blocks, zero off them. -/
theorem bdTerm_apply (L : FVec Ideal S64x16 .f32) (k : Fin 512) (l : Fin 128) :
    bdTerm L (ix2 k l) =
      if k.val / 64 = l.val / 16 then
        L (ix2 ⟨k.val % 64, Nat.mod_lt _ (by decide)⟩ ⟨l.val % 16, Nat.mod_lt _ (by decide)⟩)
      else 0 := by
  unfold bdTerm
  rw [blk_apply 7 (by decide) 448#32 112#32 (by decide) (by decide),
    blk_apply 6 (by decide) 384#32 96#32 (by decide) (by decide),
    blk_apply 5 (by decide) 320#32 80#32 (by decide) (by decide),
    blk_apply 4 (by decide) 256#32 64#32 (by decide) (by decide),
    blk_apply 3 (by decide) 192#32 48#32 (by decide) (by decide),
    blk_apply 2 (by decide) 128#32 32#32 (by decide) (by decide),
    blk_apply 1 (by decide) 64#32 16#32 (by decide) (by decide),
    blk_apply 0 (by decide) 0#32 0#32 (by decide) (by decide), zeros_apply]
  have hk := k.isLt
  have hl := l.isLt
  split_ifs <;> first | rfl | (exfalso; omega)

/-! ## The buffers -/

variable (m : (ℓ : Loc nD τ sig) → Buf (Elt Ideal) ℓ) (c : Dev nD)

/-- The buffers once the table is built, before its block-diagonal copy: the last stretch cut after the table's own
    operation. -/
def KTab : Valuation τ sig (Elt Ideal) := after (List.take 30 (hostOps0_11 (F := Ideal))) (K11 m c)

/-- The last stretch is the cut's two halves in turn. -/
theorem K12_eq : K12 m c = after (List.drop 30 (hostOps0_11 (F := Ideal))) (KTab m c) := by
  unfold K12 KTab
  rw [← StableHlo.after_append, List.take_append_drop]

set_option maxHeartbeats 8000000 in
/-- None of the copy's operations writes the table's buffer. -/
theorem lut_eq : lutArr m c = KTab m c (Proc.devRef .tc main_v70) := by
  refine (V_eq m c main_v70).trans ?_
  rw [K12_eq]
  exact after_of_forall_not_mem (b := Proc.devRef .tc main_v70) _ _ (List.forall_iff_forall_mem.mp (by
    simp only [hostOps0_11, List.drop_succ_cons, List.drop_zero, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

set_option maxHeartbeats 8000000 in
/-- The copy's buffer holds the eight writes of the table's buffer into zeros. -/
theorem bd_eq : bdArr m c = bdTerm (lutArr m c) := by
  refine (V_eq m c main_v103).trans ?_
  rw [lut_eq, K12_eq]
  simp only [hostOps0_11, List.drop_succ_cons, List.drop_zero]
  after_results_simp
  rfl

/-- **The block-diagonal copy at an entry**: the table's entry `(k % 64, l % 16)` on the diagonal blocks, zero off them. -/
theorem bd_apply (k : Fin 512) (l : Fin 128) :
    bdArr m c (ix2 k l) =
      if k.val / 64 = l.val / 16 then lutArr m c (ix2 ⟨k.val % 64, by omega⟩ ⟨l.val % 16, by omega⟩) else 0 := by
  rw [bd_eq]
  exact bdTerm_apply (lutArr m c) k l

end Cert.Sheaf.BlockDiag

end
-- ==== Proof.Payload.lean ====
/-
  The lookup body's output block, read at an index, and the collapse of its one-hot product.

  The body views its 1000 × 128 block of words as 16000 groups of eight (group g, slot j is the word at row g / 16,
  column 8 (g % 16) + j). For a group it builds the 512 indicators "the word in slot k / 64 is k % 64" (k < 512), as
  floats, and multiplies that row into a 512 × 128 table; the four row chunks of 4000 groups tile the block. So the
  block at (g, l) is the sum over k of indicator k of group g times the table's entry (k, l).

  When the table is block diagonal (rows [64 j, 64 j + 64) meet columns [16 j, 16 j + 16) in one 64 × 16 table T and
  everything else is zero) and every word of the group is below 64, exactly one term of that sum survives: the term
  k = 64 (l / 16) + w, w the word in slot l / 16. Every other k is either off the diagonal (a zero of the table) or a
  zero indicator, and over the extended reals 0 · x = x · 0 = 0 and 1 · x = x for every x, so no finiteness enters.
-/
import proofs.«400568_j31842887533263_3_alg».proof.Proof.Gen.KernelIdeal.Frame
import proofs.«400568_j31842887533263_3_alg».proof.Proof.LibPlainDot
import proofs.«400568_j31842887533263_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

namespace Cert.Sheaf.Body

open Cert.KernelIdeal Cert.KernelIdeal.Gen Idealize.ShloMosaic Idealize.ShloMosaic.ValueIdx
open Idealize.ShloMosaic.StableHlo.Predicate (cmpi_eq_iff)

/-! ## The indicator -/

/-- the indicator the body builds from a word w for table column t: the compare's bit widened and converted. -/
def ohv (w : BitVec 32) (t : Fin 64) : Cert.Sheaf.R :=
  FloatOps.sitofp (F := Ideal) .f32 ((IntOp.cmpi .eq w (BitVec.ofNat 32 t.val)).setWidth 32)

/-- The indicator is 1 where the word is the column's number and 0 elsewhere. -/
theorem ohv_eq (w : BitVec 32) (t : Fin 64) : ohv w t = if w = BitVec.ofNat 32 t.val then 1 else 0 := by
  unfold ohv
  show (((((IntOp.cmpi .eq w (BitVec.ofNat 32 t.val)).setWidth 32).toInt : ℝ)) : EReal) = _
  by_cases h : w = BitVec.ofNat 32 t.val
  · rw [if_pos h, cmpi_eq_iff.mpr h]
    have e1 : ((1#1 : BitVec 1).setWidth 32).toInt = 1 := by first | rfl | decide
    rw [e1]; simp
  · have hz : IntOp.cmpi .eq w (BitVec.ofNat 32 t.val) = 0#1 := eq_zero_of_ne_one (fun h1 => h (cmpi_eq_iff.mp h1))
    rw [if_neg h, hz]
    have e0 : ((0#1 : BitVec 1).setWidth 32).toInt = 0 := by first | rfl | decide
    rw [e0]; simp

/-- A word below 64 is indicated at its own number; -/
theorem ohv_self (w : BitVec 32) (t : Fin 64) (h : w.toNat = t.val) : ohv w t = 1 := by
  rw [ohv_eq, if_pos]
  apply BitVec.eq_of_toNat_eq
  rw [BitVec.toNat_ofNat, h]
  exact (Nat.mod_eq_of_lt (by have := t.isLt; omega)).symm

/-- and at no other. -/
theorem ohv_ne (w : BitVec 32) (t : Fin 64) (h : w.toNat ≠ t.val) : ohv w t = 0 := by
  rw [ohv_eq, if_neg]
  intro e
  apply h
  rw [e, BitVec.toNat_ofNat]
  exact Nat.mod_eq_of_lt (by have := t.isLt; omega)

/-! ## The value a row of the block holds -/

/-- Row r of the output block at column q: the product of group r's indicator row with column q of the table. -/
def rowSum (x0 : Vec Ideal S1000x128 .i32) (x1 : Vec Ideal S512x128 .f32) (r : Nat) (hr : r < 16000) (q : Fin 128) : Cert.Sheaf.R :=
  ∑ k : Fin 512, ohv (x0 (ix2 ⟨r / 16, by omega⟩ ⟨8 * (r % 16) + k.val / 64, by omega⟩)) ⟨k.val % 64, by omega⟩ * x1 (ix2 k q)

theorem rowSum_congr (x0 : Vec Ideal S1000x128 .i32) (x1 : Vec Ideal S512x128 .f32) {r r' : Nat} (hr : r < 16000) (hr' : r' < 16000)
    {q q' : Fin 128} (e : r = r') (eq : q = q') : rowSum x0 x1 r hr q = rowSum x0 x1 r' hr' q' := by
  subst e; subst eq; rfl

/-- The block as one function of its index. -/
def outG (x0 : Vec Ideal S1000x128 .i32) (x1 : Vec Ideal S512x128 .f32) (y : S16000x128.Idx) : Cert.Sheaf.R :=
  rowSum x0 x1 (y 0).val (idx2_lt0 y) ⟨(y 1).val, idx2_lt1 y⟩

/-! ## The body's operations at an index -/

theorem cmpi_at {s : Shape} {w : Nat} (p : CmpIPredicate) (x y : IVec s w) (i : s.Idx) :
    cmpi p x y i = IntOp.cmpi p (x i) (y i) := rfl

/-- The words regrouped: group r, slot j is the word at row r / 16, column 8 (r % 16) + j. -/
theorem ids_apply (v0 : Vec Ideal S1000x128 .i32) (r : Fin 16000) (j : Fin 8) :
    k0_pay2 (F := Ideal) v0 (ix2 r j) = v0 (ix2 ⟨r.val / 16, by omega⟩ ⟨8 * (r.val % 16) + j.val, by omega⟩) := by
  unfold k0_pay2
  show shapeCast S16000x8 (shapeCast S1000x128 v0 Facts₀.shapeCasts_S1000x128_S1000x128) Facts₀.shapeCasts_S1000x128_S16000x8 (ix2 r j) = _
  rw [shapeCast_self]
  exact shapeCast_apply v0 Facts₀.shapeCasts_S1000x128_S16000x8 (ix2 r j) (ix2 ⟨r.val / 16, by omega⟩ ⟨8 * (r.val % 16) + j.val, by omega⟩)
    (by rw [Shape.rowMajor_val_two, Shape.rowMajor_val_two]
        show (r.val / 16) * 128 + (8 * (r.val % 16) + j.val) = r.val * 8 + j.val
        omega)

/-- The table passes through its shape cast unchanged. -/
theorem pay3_eq (v3 : Vec Ideal S512x128 .f32) : k0_pay3 (F := Ideal) v3 = v3 := by
  unfold k0_pay3
  exact shapeCast_self v3 Facts₀.shapeCasts_S512x128_S512x128

/-- A chunk of 4000 groups from group o on. -/
theorem slice_apply (ids : IVec S16000x8 32) (o : Nat) (ho : o + 4000 ≤ 16000) (h : S16000x8.Slices ![o, 0] S4000x8)
    (p : Fin 4000) (j : Fin 8) :
    extractStridedSlice S4000x8 ![o, 0] ids h (ix2 p j) = ids (ix2 ⟨o + p.val, by omega⟩ j) :=
  extractStridedSlice_apply ![o, 0] ids h (ix2 p j) (ix2 ⟨o + p.val, by omega⟩ j) (fun a => match a with
    | ⟨0, _⟩ => by show o + p.val = o + p.val; rfl
    | ⟨1, _⟩ => by show j.val = 0 + j.val; omega)

/-- The indicator row of a chunk: entry (p, k) is the indicator of slot k / 64 of group p at number k % 64. -/
theorem onehot_apply (v5 : IVec S4000x8 32) (p : Fin 4000) (k : Fin 512) :
    shapeCast S4000x512
        (sitofp (F := Ideal) .f32
          (extui 32
            (cmpi .eq
              (broadcastTo S4000x8x64 (shapeCast S4000x8x1 v5 Facts₀.shapeCasts_S4000x8_S4000x8x1) Facts₀.broadcasts_S4000x8x1_S4000x8x64)
              (iota .tc S4000x8x64 32 [2] Facts₀.iota_S4000x8x64_d2_w32))
            Facts₀.natLt_1_32))
        Facts₀.shapeCasts_S4000x8x64_S4000x512 (ix2 p k)
      = ohv (v5 (ix2 p ⟨k.val / 64, by omega⟩)) ⟨k.val % 64, by omega⟩ := by
  have hB : broadcastTo S4000x8x64 (shapeCast S4000x8x1 v5 Facts₀.shapeCasts_S4000x8_S4000x8x1) Facts₀.broadcasts_S4000x8x1_S4000x8x64
      (ix3 p (⟨k.val / 64, by omega⟩ : Fin 8) (⟨k.val % 64, by omega⟩ : Fin 64)) = v5 (ix2 p ⟨k.val / 64, by omega⟩) := by
    rw [broadcastTo_apply (shapeCast S4000x8x1 v5 Facts₀.shapeCasts_S4000x8_S4000x8x1) Facts₀.broadcasts_S4000x8x1_S4000x8x64
      (ix3 p (⟨k.val / 64, by omega⟩ : Fin 8) (⟨k.val % 64, by omega⟩ : Fin 64))
      (ix3 p (⟨k.val / 64, by omega⟩ : Fin 8) (⟨0, Nat.one_pos⟩ : Fin 1)) (fun a => match a with
        | ⟨0, _⟩ => by show p.val = if (4000 : Nat) = 1 then 0 else p.val; rw [if_neg (by decide)]
        | ⟨1, _⟩ => by show k.val / 64 = if (8 : Nat) = 1 then 0 else k.val / 64; rw [if_neg (by decide)]
        | ⟨2, _⟩ => by show (0 : Nat) = if (1 : Nat) = 1 then 0 else k.val % 64; rw [if_pos rfl])]
    exact shapeCast_apply v5 Facts₀.shapeCasts_S4000x8_S4000x8x1 (ix3 p (⟨k.val / 64, by omega⟩ : Fin 8) (⟨0, Nat.one_pos⟩ : Fin 1))
      (ix2 p ⟨k.val / 64, by omega⟩)
      (by rw [Shape.rowMajor_val_two, Shape.rowMajor_val_three]
          show p.val * 8 + k.val / 64 = (p.val * 8 + k.val / 64) * 1 + 0
          omega)
  have hI : iota .tc S4000x8x64 32 [2] Facts₀.iota_S4000x8x64_d2_w32
      (ix3 p (⟨k.val / 64, by omega⟩ : Fin 8) (⟨k.val % 64, by omega⟩ : Fin 64)) = BitVec.ofNat 32 (k.val % 64) :=
    iota_single_apply .tc S4000x8x64 32 2 Facts₀.iota_S4000x8x64_d2_w32 _
  rw [shapeCast_apply _ Facts₀.shapeCasts_S4000x8x64_S4000x512 (ix2 p k)
    (ix3 p (⟨k.val / 64, by omega⟩ : Fin 8) (⟨k.val % 64, by omega⟩ : Fin 64))
    (by rw [Shape.rowMajor_val_three, Shape.rowMajor_val_two]
        show (p.val * 8 + k.val / 64) * 64 + k.val % 64 = p.val * 512 + k.val
        omega)]
  rw [sitofp_apply, extui_apply, cmpi_at, hB, hI]
  rfl

/-- The printed dimension numbers are those of the plain 4000 × 512 by 512 × 128 product. -/
theorem dot_eq_plain : dot_S4000x512_S512x128_S4000x128_1_0_0_1_n_n = DotDims.plain 4000 512 128 := rfl

/-- The body's product into the zero accumulator, at an entry. -/
theorem body_matmul_apply (lhs : FVec Ideal S4000x512 .f32) (rhs : FVec Ideal S512x128 .f32) (p : Fin 4000) (q : Fin 128) :
    FloatOps.matmul dot_S4000x512_S512x128_S4000x128_1_0_0_1_n_n none lhs rhs (constant (F := Ideal) S4000x128 .f32 0x00000000#32) (ix2 p q)
      = ∑ k : Fin 512, lhs (ix2 p k) * rhs (ix2 k q) := by
  rw [dot_eq_plain]
  exact Cert.Lib.PlainDot.matmul_zero_apply none lhs rhs p q

/-- One chunk's payload at (p, q): row o + p of the block. -/
theorem chunk_apply (x0 : Vec Ideal S1000x128 .i32) (x1 : Vec Ideal S512x128 .f32) (o : Nat) (ho : o + 4000 ≤ 16000)
    (h : S16000x8.Slices ![o, 0] S4000x8) (p : Fin 4000) (q : Fin 128) :
    FloatOps.matmul dot_S4000x512_S512x128_S4000x128_1_0_0_1_n_n none
        (shapeCast S4000x512
          (sitofp (F := Ideal) .f32
            (extui 32
              (cmpi .eq
                (broadcastTo S4000x8x64
                  (shapeCast S4000x8x1 (extractStridedSlice S4000x8 ![o, 0] (k0_pay2 (F := Ideal) x0) h) Facts₀.shapeCasts_S4000x8_S4000x8x1)
                  Facts₀.broadcasts_S4000x8x1_S4000x8x64)
                (iota .tc S4000x8x64 32 [2] Facts₀.iota_S4000x8x64_d2_w32))
              Facts₀.natLt_1_32))
          Facts₀.shapeCasts_S4000x8x64_S4000x512)
        (k0_pay3 (F := Ideal) x1) (constant (F := Ideal) S4000x128 .f32 0x00000000#32) (ix2 p q)
      = rowSum x0 x1 (o + p.val) (by omega) q := by
  rw [body_matmul_apply]
  unfold rowSum
  refine Finset.sum_congr rfl fun k _ => ?_
  rw [onehot_apply, slice_apply _ o ho h, ids_apply, pay3_eq]
  all_goals rfl

theorem pay4_apply (x0 : Vec Ideal S1000x128 .i32) (x1 : Vec Ideal S512x128 .f32) (p : Fin 4000) (q : Fin 128) :
    k0_pay4 (F := Ideal) x0 x1 (ix2 p q) = rowSum x0 x1 (0 + p.val) (by omega) q := by
  unfold k0_pay4
  exact chunk_apply x0 x1 0 (by omega) Facts₀.slices_S16000x8_o0_0_S4000x8 p q

theorem pay5_apply (x0 : Vec Ideal S1000x128 .i32) (x1 : Vec Ideal S512x128 .f32) (p : Fin 4000) (q : Fin 128) :
    k0_pay5 (F := Ideal) x0 x1 (ix2 p q) = rowSum x0 x1 (4000 + p.val) (by omega) q := by
  unfold k0_pay5
  exact chunk_apply x0 x1 4000 (by omega) Facts₀.slices_S16000x8_o4000_0_S4000x8 p q

theorem pay6_apply (x0 : Vec Ideal S1000x128 .i32) (x1 : Vec Ideal S512x128 .f32) (p : Fin 4000) (q : Fin 128) :
    k0_pay6 (F := Ideal) x0 x1 (ix2 p q) = rowSum x0 x1 (8000 + p.val) (by omega) q := by
  unfold k0_pay6
  exact chunk_apply x0 x1 8000 (by omega) Facts₀.slices_S16000x8_o8000_0_S4000x8 p q

theorem pay1_apply (x0 : Vec Ideal S1000x128 .i32) (x1 : Vec Ideal S512x128 .f32) (p : Fin 4000) (q : Fin 128) :
    k0_pay1 (F := Ideal) (k0_pay3 (F := Ideal) x1) (k0_pay7 (F := Ideal) x0) (ix2 p q) = rowSum x0 x1 (12000 + p.val) (by omega) q := by
  unfold k0_pay1 k0_pay7
  exact chunk_apply x0 x1 12000 (by omega) Facts₀.slices_S16000x8_o12000_0_S4000x8 p q

/-! ## The four stores as one function -/

theorem zero_offsets : (![0, 0] : Fin 2 → Nat) = fun _ => 0 := funext fun a => by
  match a with
  | ⟨0, _⟩ => rfl
  | ⟨1, _⟩ => rfl

/-- A store of rows [o, o + 4000) whose payload is those rows of the block agrees with the block under its rectangle. -/
theorem piece_eq (x0 : Vec Ideal S1000x128 .i32) (x1 : Vec Ideal S512x128 .f32) (o : Nat) (ho : o + 4000 ≤ 16000)
    (inb : ∀ a, (![o, 0] : Fin 2 → Nat) a + S4000x128.size a ≤ S16000x128.size a) (w : FVec Ideal S4000x128 .f32)
    (hw : ∀ (p : Fin 4000) (q : Fin 128), w (ix2 p q) = rowSum x0 x1 (o + p.val) (by omega) q)
    (x : S4000x128.Idx) :
    w x = outG x0 x1 ((Rect.unit (s := S16000x128) ![o, 0] S4000x128.size inb).emb x) := by
  obtain ⟨p, q, rfl⟩ : ∃ (p : Fin 4000) (q : Fin 128), x = ix2 p q := ⟨x 0, x 1, eq_ix2 x⟩
  rw [hw]
  unfold outG
  refine rowSum_congr x0 x1 _ _ ?_ (Fin.ext ?_)
  · show o + p.val = o + 1 * p.val
    omega
  · show q.val = 0 + 1 * q.val
    omega

/-- The body's output block is that function. -/
theorem out_eq_outG (x0 : Vec Ideal S1000x128 .i32) (x1 : Vec Ideal S512x128 .f32) (y : S16000x128.Idx) :
    out0_2 (F := Ideal) x0 x1 y = outG x0 x1 y := by
  unfold out0_2
  rw [View.ld_unit_zero (Val := Elt Ideal) (S := S1000x128) (e := .i32) zero_offsets Facts₀.inb_S1000x128_S1000x128_0_0 x0,
    View.ld_unit_zero (Val := Elt Ideal) (S := S512x128) (e := .f32) zero_offsets Facts₀.inb_S512x128_S512x128_0_0 x1]
  refine View.canon_apply_of_pieces (Val := Elt Ideal) (S := S16000x128) (e := .f32) (outG x0 x1) _ ?_ y (cover0_2 (F := Ideal) _ _ _ _ y)
  intro pc hpc
  simp only [List.mem_cons, List.not_mem_nil, or_false] at hpc
  rcases hpc with rfl | rfl | rfl | rfl
  · exact piece_eq x0 x1 12000 (by omega) Facts₀.inb_S16000x128_S4000x128_12000_0
      (k0_pay1 (F := Ideal) (k0_pay3 (F := Ideal) x1) (k0_pay7 (F := Ideal) x0)) (pay1_apply x0 x1)
  · exact piece_eq x0 x1 8000 (by omega) Facts₀.inb_S16000x128_S4000x128_8000_0 (k0_pay6 (F := Ideal) x0 x1) (pay6_apply x0 x1)
  · exact piece_eq x0 x1 4000 (by omega) Facts₀.inb_S16000x128_S4000x128_4000_0 (k0_pay5 (F := Ideal) x0 x1) (pay5_apply x0 x1)
  · exact piece_eq x0 x1 0 (by omega) Facts₀.inb_S16000x128_S4000x128_0_0 (k0_pay4 (F := Ideal) x0 x1) (pay4_apply x0 x1)

/-- the body's output block at (g, l): the product of the one-hot row of group g with column l of the table. -/
theorem out_apply (x0 : Vec Ideal S1000x128 .i32) (x1 : Vec Ideal S512x128 .f32) (g : Fin 16000) (l : Fin 128) :
    out0_2 (F := Ideal) x0 x1 (ix2 g l)
      = ∑ k : Fin 512, ohv (x0 (ix2 ⟨g.val / 16, by omega⟩ ⟨8 * (g.val % 16) + k.val / 64, by omega⟩)) ⟨k.val % 64, by omega⟩ * x1 (ix2 k l) := by
  rw [out_eq_outG]
  rfl

/-! ## The collapse -/

/-- A sum of 512 indicator-weighted entries of a column that vanishes off diagonal block l / 16 keeps one term. -/
theorem collapse_sum (wd : Fin 8 → BitVec 32) (col : Fin 512 → Cert.Sheaf.R) (T : Fin 64 → Fin 16 → Cert.Sheaf.R) (l : Fin 128)
    (hcol : ∀ k : Fin 512, col k = if k.val / 64 = l.val / 16 then T ⟨k.val % 64, by omega⟩ ⟨l.val % 16, by omega⟩ else 0)
    (hw : ∀ j : Fin 8, (wd j).toNat < 64) :
    ∑ k : Fin 512, ohv (wd ⟨k.val / 64, by omega⟩) ⟨k.val % 64, by omega⟩ * col k
      = T ⟨(wd ⟨l.val / 16, by omega⟩).toNat, hw _⟩ ⟨l.val % 16, by omega⟩ := by
  have hl := l.isLt
  have hw0 := hw ⟨l.val / 16, by omega⟩
  have key : ∀ j : Fin 8, j.val = l.val / 16 → (wd j).toNat = (wd ⟨l.val / 16, by omega⟩).toNat := fun j hj => by
    rw [show j = ⟨l.val / 16, by omega⟩ from Fin.ext hj]
  obtain ⟨k0, hk0⟩ : ∃ k0 : Fin 512, k0.val = 64 * (l.val / 16) + (wd ⟨l.val / 16, by omega⟩).toNat :=
    ⟨⟨64 * (l.val / 16) + (wd ⟨l.val / 16, by omega⟩).toNat, by omega⟩, rfl⟩
  have hk0d : k0.val / 64 = l.val / 16 := by omega
  have hk0w := key ⟨k0.val / 64, by omega⟩ hk0d
  rw [Finset.sum_eq_single k0]
  · have h1 : ohv (wd ⟨k0.val / 64, by omega⟩) ⟨k0.val % 64, by omega⟩ = 1 :=
      ohv_self _ _ (by show (wd ⟨k0.val / 64, _⟩).toNat = k0.val % 64; omega)
    rw [h1, one_mul, hcol k0, if_pos hk0d]
    exact congrArg (fun t => T t ⟨l.val % 16, by omega⟩)
      (Fin.ext (by show k0.val % 64 = (wd ⟨l.val / 16, _⟩).toNat; omega))
  · intro k _ hne
    have hk := k.isLt
    by_cases hkl : k.val / 64 = l.val / 16
    · have hkw := key ⟨k.val / 64, by omega⟩ hkl
      have h0 : ohv (wd ⟨k.val / 64, by omega⟩) ⟨k.val % 64, by omega⟩ = 0 :=
        ohv_ne _ _ (by
          show (wd ⟨k.val / 64, _⟩).toNat ≠ k.val % 64
          intro e
          exact hne (Fin.ext (by omega)))
      rw [h0, zero_mul]
    · rw [hcol k, if_neg hkl, mul_zero]
  · intro h
    exact absurd (Finset.mem_univ _) h

/-- the collapse: against a table that is block diagonal (rows [64 j, 64 j + 64) meet columns [16 j, 16 j + 16) in a
    64 × 16 table T, zero elsewhere), with every word of the group below 64, the product is the table's row named by
    the word in slot l / 16. -/
theorem out_collapse (x0 : Vec Ideal S1000x128 .i32) (x1 : Vec Ideal S512x128 .f32) (T : Fin 64 → Fin 16 → Cert.Sheaf.R)
    (hbd : ∀ (k : Fin 512) (l : Fin 128), x1 (ix2 k l) = if k.val / 64 = l.val / 16 then T ⟨k.val % 64, by omega⟩ ⟨l.val % 16, by omega⟩ else 0)
    (g : Fin 16000) (l : Fin 128)
    (hw : ∀ j : Fin 8, (x0 (ix2 ⟨g.val / 16, by omega⟩ ⟨8 * (g.val % 16) + j.val, by omega⟩)).toNat < 64) :
    out0_2 (F := Ideal) x0 x1 (ix2 g l)
      = T ⟨(x0 (ix2 ⟨g.val / 16, by omega⟩ ⟨8 * (g.val % 16) + l.val / 16, by omega⟩)).toNat, hw ⟨l.val / 16, by omega⟩⟩ ⟨l.val % 16, by omega⟩ := by
  rw [out_apply]
  exact collapse_sum (fun j => x0 (ix2 ⟨g.val / 16, by omega⟩ ⟨8 * (g.val % 16) + j.val, by omega⟩)) (fun k => x1 (ix2 k l)) T l
    (fun k => hbd k l) hw

end Cert.Sheaf.Body

end
-- ==== Proof.KernelValue.lean ====
/-
  The kernel program's result at an edge.

  Edge `e` lies in group `e / 8` (row `e / 8` of the 400000 × 128 output, lanes `[16 (e % 8), 16 (e % 8) + 16)`),
  which grid point `e / 128000` writes. The body multiplies the group's one-hot row (eight indicators of sixty-four,
  one per edge of the group, built from the combined type words) into the block-diagonal copy of the 64-row table;
  every product but one vanishes, and what is left is the table's row named by the edge's own combined word
  `8 s + t`, `s` and `t` the types of its end points. That row of the table is the per-row map of the pair row of
  `(s, t)`.
-/
import proofs.«400568_j31842887533263_3_alg».proof.Proof.KArr
import proofs.«400568_j31842887533263_3_alg».proof.Proof.KFront
import proofs.«400568_j31842887533263_3_alg».proof.Proof.LutChain
import proofs.«400568_j31842887533263_3_alg».proof.Proof.BlockDiag
import proofs.«400568_j31842887533263_3_alg».proof.Proof.Payload

set_option maxRecDepth 16384

noncomputable section

namespace Cert.Sheaf.KVal

open Cert.KernelIdeal Cert.KernelIdeal.Gen Cert.Sheaf.KV Idealize.ShloMosaic Idealize.ShloMosaic.TcCoe Idealize.SL.Sem
open Idealize.ShloMosaic.ValueIdx
open Cert.Sheaf

variable (m : (ℓ : Loc nD τ sig) → Buf (Elt Ideal) ℓ)

/-- The type word of the node a node word names (`0` for a word outside the node range, which the precondition excludes). -/
def ntAt (c : Dev nD) (w : BitVec 32) : BitVec 32 :=
  if h : w.toNat < 100000 then KFront.ntArr m c (ix1 ⟨w.toNat, h⟩) else 0#32

/-- The types of an edge's source and target. -/
def srcT (c : Dev nD) (e : Fin 3200000) : BitVec 32 := ntAt m c (KFront.edgeArr m c (ix2 (0 : Fin 2) e))
def tgtT (c : Dev nD) (e : Fin 3200000) : BitVec 32 := ntAt m c (KFront.edgeArr m c (ix2 (1 : Fin 2) e))

theorem ntAt_eq (c : Dev nD) (w : BitVec 32) (h : w.toNat < 100000) : ntAt m c w = KFront.ntArr m c (ix1 ⟨w.toNat, h⟩) :=
  dif_pos h

/-- The result both programs compute, as one function of the index: the per-row map of the edge's pair row. -/
def resFn (c : Dev nD) : S3200000x4x4.Idx → R := fun i =>
  rowF (Lut.params m c) (pairRow (srcT m c ⟨(i 0).val, (i 0).isLt⟩) (tgtT m c ⟨(i 0).val, (i 0).isLt⟩))
    ⟨(i 1).val, (i 1).isLt⟩ ⟨(i 2).val, (i 2).isLt⟩

/-- A 32-bit word is the word of its own number. -/
theorem ofNat_toNat32 (w : BitVec 32) : BitVec.ofNat 32 w.toNat = w := by
  apply BitVec.eq_of_toNat_eq; simp [BitVec.toNat_ofNat]

section
variable (hedge : ∀ (c : Dev nD) (q : Fin 2) (e : Fin 3200000), (KFront.edgeArr m c (ix2 q e)).toNat < 100000)
variable (hnt : ∀ (c : Dev nD) (n : Fin 100000), (KFront.ntArr m c (ix1 n)).toNat < 8)
include hedge hnt

theorem srcT_lt (c : Dev nD) (e : Fin 3200000) : (srcT m c e).toNat < 8 := by
  unfold srcT; rw [ntAt_eq m c _ (hedge c 0 e)]; exact hnt c _
theorem tgtT_lt (c : Dev nD) (e : Fin 3200000) : (tgtT m c e).toNat < 8 := by
  unfold tgtT; rw [ntAt_eq m c _ (hedge c 1 e)]; exact hnt c _

/-- The combined word of edge `128 r + l`, as a number. -/
theorem comb_word (c : Dev nD) (r : Fin 25000) (l : Fin 128) (e : Fin 3200000) (he : e.val = 128 * r.val + l.val) :
    (combArr m c (ix2 r l)).toNat = 8 * (srcT m c e).toNat + (tgtT m c e).toNat := by
  have hb : 128 * r.val + l.val < 3200000 := by have := r.isLt; have := l.isLt; omega
  have hE : e = ⟨128 * r.val + l.val, hb⟩ := Fin.ext he
  subst hE
  rw [KFront.comb_apply m c (hedge c) (hnt c) r l]
  unfold srcT tgtT
  rw [ntAt_eq m c _ (hedge c 0 _), ntAt_eq m c _ (hedge c 1 _)]

/-- The table's row named by an edge's combined word, at column `4 a + b`: the per-row map of the edge's pair row. -/
theorem table_row (c : Dev nD) (e : Fin 3200000) (a b : Fin 4) (w : Fin 64) (o : Fin 16)
    (hw : w.val = 8 * (srcT m c e).toNat + (tgtT m c e).toNat) (ho : o.val = 4 * a.val + b.val) :
    lutArr m c (ix2 w o) = rowF (Lut.params m c) (pairRow (srcT m c e) (tgtT m c e)) a b := by
  have hs := srcT_lt m hedge hnt c e
  have ht := tgtT_lt m hedge hnt c e
  have hab : 4 * a.val + b.val < 16 := by have := a.isLt; have := b.isLt; omega
  obtain rfl : o = ⟨4 * a.val + b.val, hab⟩ := Fin.ext ho
  rw [Lut.lut_apply m c w a b]
  refine congrArg (fun h : Fin 16 → R => rowF (Lut.params m c) h a b) (funext fun k => ?_)
  rw [KFront.hl_apply m c w k]
  have e1 : w.val / 8 = (srcT m c e).toNat := by omega
  have e2 : w.val % 8 = (tgtT m c e).toNat := by omega
  rw [e1, e2, ofNat_toNat32, ofNat_toNat32]

/-- THE VALUE: the output array after the run at edge `e`'s place is the per-row map of `e`'s pair row. -/
theorem value_apply (c : Dev nD) (e : Fin 3200000) (a b : Fin 4) :
    ((dats (F := Ideal) m 0 c).arrAt 2 cfg0.N : S400000x128.Idx → Elt Ideal .f32)
        (ix2 ⟨e.val / 8, by omega⟩ ⟨16 * (e.val % 8) + 4 * a.val + b.val, by omega⟩)
      = rowF (Lut.params m c) (pairRow (srcT m c e) (tgtT m c e)) a b := by
  have he := e.isLt
  -- the grid point, the row inside its block, the lane
  let t : Fin cfg0.N := ⟨e.val / 128000, by show e.val / 128000 < grid0.N; rw [N_0]; omega⟩
  let g : Fin 16000 := ⟨(e.val / 8) % 16000, by omega⟩
  let L : Fin 128 := ⟨16 * (e.val % 8) + 4 * a.val + b.val, by omega⟩
  have hG : (ix2 (⟨e.val / 8, by omega⟩ : Fin 400000) L : S400000x128.Idx)
      = ix2 (⟨16000 * t.val + g.val, by have := KArr.t_lt t; omega⟩ : Fin 400000) L := by
    refine congrArg (fun p : Fin 400000 => (ix2 p L : S400000x128.Idx)) (Fin.ext ?_)
    show e.val / 8 = 16000 * (e.val / 128000) + (e.val / 8) % 16000
    omega
  refine (congrArg _ hG).trans ?_
  rw [KArr.out_arr_apply m c t g L]
  -- the group's eight words are combined type words of the group's edges
  have hslot : ∀ j : Fin 8, ∃ e' : Fin 3200000, e'.val = 8 * (e.val / 8) + j.val ∧
      (iblk (F := Ideal) m c 0 t (ix2 (⟨g.val / 16, by omega⟩ : Fin 1000) (⟨8 * (g.val % 16) + j.val, by omega⟩ : Fin 128))).toNat
        = 8 * (srcT m c e').toNat + (tgtT m c e').toNat := by
    intro j
    refine ⟨⟨8 * (e.val / 8) + j.val, by omega⟩, rfl, ?_⟩
    rw [KArr.iblk0_apply m c t]
    refine comb_word m hedge hnt c _ _ _ ?_
    show 8 * (e.val / 8) + j.val = 128 * (1000 * (e.val / 128000) + (e.val / 8) % 16000 / 16) + (8 * ((e.val / 8) % 16000 % 16) + j.val)
    omega
  have hw : ∀ j : Fin 8, (iblk (F := Ideal) m c 0 t (ix2 (⟨g.val / 16, by omega⟩ : Fin 1000) (⟨8 * (g.val % 16) + j.val, by omega⟩ : Fin 128))).toNat < 64 := by
    intro j
    obtain ⟨e', -, h⟩ := hslot j
    have h1 := srcT_lt m hedge hnt c e'
    have h2 := tgtT_lt m hedge hnt c e'
    omega
  -- the table block is the block-diagonal copy of the 64-row table
  have hbd : ∀ (k : Fin 512) (l : Fin 128), iblk (F := Ideal) m c 1 t (ix2 k l)
      = if k.val / 64 = l.val / 16 then (fun (w : Fin 64) (o : Fin 16) => lutArr m c (ix2 w o)) ⟨k.val % 64, by omega⟩ ⟨l.val % 16, by omega⟩ else 0 := by
    intro k l
    rw [KArr.iblk1_apply m c t k l, BlockDiag.bd_apply m c k l]
  rw [Body.out_collapse (iblk m c 0 t) (iblk m c 1 t) (fun (w : Fin 64) (o : Fin 16) => lutArr m c (ix2 w o)) hbd g L hw]
  -- the slot of edge `e` is `L / 16 = e % 8`, and the table column is `L % 16 = 4 a + b`
  obtain ⟨e', he', hword⟩ := hslot ⟨L.val / 16, by have := L.isLt; omega⟩
  have hee : e' = e := Fin.ext (by rw [he']; show 8 * (e.val / 8) + (16 * (e.val % 8) + 4 * a.val + b.val) / 16 = e.val; omega)
  subst hee
  exact table_row m hedge hnt c e' a b _ _ hword
    (by show (16 * (e'.val % 8) + 4 * a.val + b.val) % 16 = 4 * a.val + b.val; omega)

/-- The result buffer's contents, whole: `resFn`. -/
theorem result_fn (c : Dev nD) :
    shapeCast S3200000x4x4 ((dats (F := Ideal) m 0 c).arrAt 2 cfg0.N : S400000x128.Idx → Elt Ideal .f32) shapeCasts_S400000x128_S3200000x4x4
      = resFn m c := by
  funext i
  obtain ⟨e, a, b, rfl⟩ : ∃ (e : Fin 3200000) (a b : Fin 4), i = ix3 e a b := ⟨i 0, i 1, i 2, eq_ix3 i⟩
  rw [KArr.reshape_apply, value_apply m hedge hnt c e a b]
  rfl

end

end Cert.Sheaf.KVal

end
-- ==== Proof.PreFacts.lean ====
/-
  The precondition, read back into range facts.

  The precondition is one bit: the conjunction of nine tests, each an "all elements" reduction by "and" of an
  elementwise test. The last two say that every word of the edge list lies between 0 and 100000 (0 included, 100000
  not) and every node type between 0 and 8, both read signed. Here the bit being 1 is turned into those two facts on
  the unsigned values of the words, the form in which a word is used as a position.
-/
import proofs.«400568_j31842887533263_3_alg».proof.Pre_finite_inputs
import proofs.«400568_j31842887533263_3_alg».proof.Proof.Gen.Pre_finite_inputs
import Idealize.ShloMosaic.Lib.StableHlo.Predicate
import Idealize.ShloMosaic.Lib.ReduceAll
import Idealize.ShloMosaic.Lib.ValueIdx

namespace Cert.Sheaf.Pre

open Idealize.ShloMosaic Idealize.ShloMosaic.ValueIdx Cert.Pre_finite_inputs

/-- The scalar shape has one index. -/
instance : Subsingleton S_.Idx := ⟨fun a b => funext fun d => d.elim0⟩

/-- A 32-bit word whose signed value is at least 0 and below a bound has its unsigned value below that bound: a word
    with the top bit set reads negative, so a nonnegative signed value is the unsigned value itself. -/
theorem toNat_lt_of_toInt {w : BitVec 32} {c : Nat} (h0 : 0 ≤ w.toInt) (h1 : w.toInt < (c : Int)) : w.toNat < c := by
  have hw : w.toNat < 2 ^ 32 := w.isLt
  have key := BitVec.toInt_eq_toNat_cond w
  by_cases hlt : 2 * w.toNat < 2 ^ 32
  · rw [if_pos hlt] at key; omega
  · rw [if_neg hlt] at key; omega

/-- One element of a range test: the conjunction of "at least 0" and "below k", both signed, is 1 only for a word
    whose unsigned value is below the bound (k a literal word that reads the same signed and unsigned). -/
theorem toNat_lt_of_test {w k : BitVec 32} {c : Nat} (hk : k.toInt = (c : Int))
    (h : IntOp.andi (IntOp.cmpi .sge w 0#32) (IntOp.cmpi .slt w k) = 1#1) : w.toNat < c := by
  obtain ⟨hge, hlt⟩ := IntOp.andi_eq_one.1 h
  rw [IntOp.cmpi_sge] at hge
  rw [IntOp.cmpi_slt, hk] at hlt
  have h00 : (0#32 : BitVec 32).toInt = 0 := by decide
  rw [h00] at hge
  exact toNat_lt_of_toInt hge hlt

/-- The last two conjuncts of a three-fold conjunction of bits that is 1 are both 1. -/
theorem last_two {c p q : BitVec 1} (h : IntOp.andi (IntOp.andi c p) q = 1#1) : p = 1#1 ∧ q = 1#1 :=
  ⟨(IntOp.andi_eq_one.1 (IntOp.andi_eq_one.1 h).1).2, (IntOp.andi_eq_one.1 h).2⟩

/-- The tail of the precondition: the running conjunction, then the two range tests, each a reduction by "and" over
    all axes of the elementwise test. If the whole is 1, every edge end point is below 100000 and every node type is
    below 8. -/
theorem ranges_of_part2 {F : FTy → Type} [FloatOps F] [Cert.Pre_finite_inputs.Facts]
    (a1 : IVec S2x3200000 32) (a2 : IVec S100000 32) (v : IVec S_ 1)
    (h : Cert.Pre_finite_inputs.fn_part2 (F := F) a1 a2 v ix0 = 1#1) :
    (∀ (r : Fin 2) (e : Fin 3200000), (a1 (ix2 r e)).toNat < 100000) ∧ (∀ n : Fin 100000, (a2 (ix1 n)).toNat < 8) := by
  obtain ⟨hE, hN⟩ := last_two h
  refine ⟨fun r e => ?_, fun n => ?_⟩
  · have hx := Host.reduce_andi_all _ _ _ _ ix0 hE (ix2 r e)
    exact toNat_lt_of_test (k := 100000#32) (by decide) hx
  · have hx := Host.reduce_andi_all _ _ _ _ ix0 hN (ix1 n)
    exact toNat_lt_of_test (k := 8#32) (by decide) hx

/-- The precondition read back: if it holds (its one bit is 1), both integer inputs are in range. Only the last two
    conjuncts are used; the seven finiteness conjuncts before them are carried as one bit. -/
theorem ranges_of_pre {F : FTy → Type} [FloatOps F] [Cert.Pre_finite_inputs.Facts]
    (a0 : FVec F S100000x16 .f32) (a1 : IVec S2x3200000 32) (a2 : IVec S100000 32) (a3 a4 : FVec F S16 .f32)
    (a5 : FVec F S16x64 .f32) (a6 : FVec F S64 .f32) (a7 : FVec F S64x16 .f32) (a8 : FVec F S16 .f32)
    (h : Cert.Pre_finite_inputs.fn (F := F) a0 a1 a2 a3 a4 a5 a6 a7 a8 = fun _ => 1#1) :
    (∀ (r : Fin 2) (e : Fin 3200000), (a1 (ix2 r e)).toNat < 100000) ∧ (∀ n : Fin 100000, (a2 (ix1 n)).toNat < 8) := by
  have h0 := congrFun h ix0
  unfold Cert.Pre_finite_inputs.fn Cert.Pre_finite_inputs.fn_part1 at h0
  exact ranges_of_part2 (F := F) a1 a2 _ h0

end Cert.Sheaf.Pre
-- ==== Proof.lean ====
/-
  Equivalence of a type-pair look-up kernel and its per-edge reference, over the extended reals.

  The reference sends every edge through one pipeline: the indicator vectors of its two end points' node types side
  by side (sixteen numbers), centred and scaled, through two linear layers with a positive part between them, read
  as a 4 × 4 matrix, softmaxed along its rows and subtracted from the identity. No step of that pipeline looks at
  another edge, so the result at an edge is a function `rowF` of the edge's pair of types alone.

  The kernel program uses exactly that: it runs the same pipeline once on the 64 possible pairs of types (a 64-row
  table), forms for every edge the combined word `8 s + t` of its end points' types, and inside the kernel region
  multiplies, group of eight edges by group, a one-hot encoding of the eight words into a block-diagonal copy of the
  table. Over the extended reals `0 · x = 0` and `1 · x = x` for every `x`, so the product picks the table's row
  `8 s + t` exactly, with no finiteness needed; and that row is `rowF` of the pair row of `(s, t)`.

  The two agree where the integer inputs mean what they say: edge end points are node numbers below 100000 and node
  types are below 8 (outside, the reference's indexing clamps and its one-hot of an unknown type is the zero
  vector, while the kernel's fill value and combined word name another pair). The statement carries these two
  range conditions beside the finiteness of the float inputs, which this proof does not use.
-/
import proofs.«400568_j31842887533263_3_alg».proof.Defs
import proofs.«400568_j31842887533263_3_alg».proof.Proof.Gen.Kernel
import proofs.«400568_j31842887533263_3_alg».proof.Proof.Gen.Kernel.Skeleton
import proofs.«400568_j31842887533263_3_alg».proof.Proof.Gen.Kernel.Launch
import proofs.«400568_j31842887533263_3_alg».proof.Proof.Gen.Kernel.Points
import proofs.«400568_j31842887533263_3_alg».proof.Proof.Gen.Kernel.Frame
import proofs.«400568_j31842887533263_3_alg».proof.Proof.Gen.KernelIdeal
import proofs.«400568_j31842887533263_3_alg».proof.Proof.Gen.KernelIdeal.Skeleton
import proofs.«400568_j31842887533263_3_alg».proof.Proof.Gen.KernelIdeal.Launch
import proofs.«400568_j31842887533263_3_alg».proof.Proof.Gen.KernelIdeal.Points
import proofs.«400568_j31842887533263_3_alg».proof.Proof.Gen.KernelIdeal.Frame
import proofs.«400568_j31842887533263_3_alg».proof.Proof.Gen.ReferenceIdeal
import proofs.«400568_j31842887533263_3_alg».proof.Proof.Gen.ReferenceIdeal.Run
import proofs.«400568_j31842887533263_3_alg».proof.Proof.Gen.ReferenceIdeal.Read
import proofs.«400568_j31842887533263_3_alg».proof.Proof.Gen.Pre_finite_inputs
import proofs.«400568_j31842887533263_3_alg».proof.Proof.RefValue
import proofs.«400568_j31842887533263_3_alg».proof.Proof.KernelValue
import proofs.«400568_j31842887533263_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the per-row map of every edge's pair row in the result. -/
theorem algebraic : Cert.algebraic_KernelIdeal_ReferenceIdeal := by
  intro m g m' g' hpre hagree
  -- the range facts the precondition states of the two integer inputs
  have hr := fun c => Cert.Sheaf.Pre.ranges_of_pre _ _ _ _ _ _ _ _ _ (hpre c)
  have hedge : ∀ (c : Dev Cert.KernelIdeal.nD) (q : Fin 2) (e : Fin 3200000),
      (Cert.Sheaf.KFront.edgeArr m c (ix2 q e)).toNat < 100000 := fun c q e => (hr c).1 q e
  have hnt : ∀ (c : Dev Cert.KernelIdeal.nD) (n : Fin 100000), (Cert.Sheaf.KFront.ntArr m c (ix1 n)).toNat < 8 :=
    fun c n => (hr c).2 n
  refine ⟨fun c => Cert.Sheaf.KVal.resFn m c, ?_, ?_⟩
  · -- the kernel program: the frame run, its result read through the table
    refine (θ_run Cert.KernelIdeal.defs _ _).mono (fun r h c => ⟨?_, ?_, ?_, ?_, ?_, ?_, ?_, ?_, ?_, ?_⟩) (Cert.KernelIdeal.Gen.run_main m g)
    · exact (Cert.Sheaf.KArr.result_eq m r h c).trans (Cert.Sheaf.KVal.result_fn m hedge hnt c)
    · exact ((h c).2 _ (Pipeline.mem_restRefs_of Cert.KernelIdeal.main_arg0 (by decide) (by decide))).trans (Cert.KernelIdeal.Gen.W_main_arg0 m (Cert.KernelIdeal.Gen.dats m) c)
    · exact ((h c).2 _ (Pipeline.mem_restRefs_of Cert.KernelIdeal.main_arg1 (by decide) (by decide))).trans (Cert.KernelIdeal.Gen.W_main_arg1 m (Cert.KernelIdeal.Gen.dats m) c)
    · exact ((h c).2 _ (Pipeline.mem_restRefs_of Cert.KernelIdeal.main_arg2 (by decide) (by decide))).trans (Cert.KernelIdeal.Gen.W_main_arg2 m (Cert.KernelIdeal.Gen.dats m) c)
    · exact ((h c).2 _ (Pipeline.mem_restRefs_of Cert.KernelIdeal.main_arg3 (by decide) (by decide))).trans (Cert.KernelIdeal.Gen.W_main_arg3 m (Cert.KernelIdeal.Gen.dats m) c)
    · exact ((h c).2 _ (Pipeline.mem_restRefs_of Cert.KernelIdeal.main_arg4 (by decide) (by decide))).trans (Cert.KernelIdeal.Gen.W_main_arg4 m (Cert.KernelIdeal.Gen.dats m) c)
    · exact ((h c).2 _ (Pipeline.mem_restRefs_of Cert.KernelIdeal.main_arg5 (by decide) (by decide))).trans (Cert.KernelIdeal.Gen.W_main_arg5 m (Cert.KernelIdeal.Gen.dats m) c)
    · exact ((h c).2 _ (Pipeline.mem_restRefs_of Cert.KernelIdeal.main_arg6 (by decide) (by decide))).trans (Cert.KernelIdeal.Gen.W_main_arg6 m (Cert.KernelIdeal.Gen.dats m) c)
    · exact ((h c).2 _ (Pipeline.mem_restRefs_of Cert.KernelIdeal.main_arg7 (by decide) (by decide))).trans (Cert.KernelIdeal.Gen.W_main_arg7 m (Cert.KernelIdeal.Gen.dats m) c)
    · exact ((h c).2 _ (Pipeline.mem_restRefs_of Cert.KernelIdeal.main_arg8 (by decide) (by decide))).trans (Cert.KernelIdeal.Gen.W_main_arg8 m (Cert.KernelIdeal.Gen.dats m) c)
  · -- the reference: its run, read at an index, from arguments that agree
    refine (θ_run Cert.ReferenceIdeal.defs _ _).mono (fun r h c => ⟨?_, (h c).2⟩) (Cert.ReferenceIdeal.Value.run (F := Ideal) m' g')
    obtain ⟨-, h1, h2, h3, h4, h5, h6, h7, h8⟩ := hagree c
    rw [(h c).1, Cert.ReferenceIdeal.Read.val_main_v73_eq, h1, h2, h3, h4, h5, h6, h7, h8]
    funext i
    obtain ⟨e, a, b, rfl⟩ : ∃ (e : Fin 3200000) (a b : Fin 4), i = ix3 e a b := ⟨i 0, i 1, i 2, eq_ix3 i⟩
    rw [Cert.Sheaf.Ref.ref_apply (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) _ _ _ _ _ _
      (fun e => (hr c).1 0 e) (fun e => (hr c).1 1 e) e a b]
    show _ = Cert.Sheaf.rowF (Cert.Sheaf.Lut.params m c) (Cert.Sheaf.pairRow (Cert.Sheaf.KVal.srcT m c e) (Cert.Sheaf.KVal.tgtT m c e)) a b
    unfold Cert.Sheaf.KVal.srcT Cert.Sheaf.KVal.tgtT
    rw [Cert.Sheaf.KVal.ntAt_eq m c _ (hedge c 0 e), Cert.Sheaf.KVal.ntAt_eq m c _ (hedge c 1 e)]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
